-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_inputs_ReferenceIdeal.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S16384x2048 : Shape := ⟨2, ![16384, 2048]⟩
abbrev S32768x1024 : Shape := ⟨2, ![32768, 1024]⟩
abbrev S2x2048x1024 : Shape := ⟨3, ![2, 2048, 1024]⟩
abbrev S_ : Shape := ⟨0, ![]⟩
abbrev S2 : Shape := ⟨1, ![2]⟩
abbrev S8 : Shape := ⟨1, ![8]⟩
abbrev S1x2048x1024 : Shape := ⟨3, ![1, 2048, 1024]⟩
abbrev S2048x1024 : Shape := ⟨2, ![2048, 1024]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S16384x2048, .f32⟩
  | .hbm, ⟨1, _⟩ => ⟨S32768x1024, .f32⟩
  | .local _ .vmem, ⟨0, _⟩ => ⟨S2x2048x1024, .f32⟩
  | .local _ .vmem, ⟨1, _⟩ => ⟨S2x2048x1024, .f32⟩
  | _, _ => ⟨S16384x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let c0_i32_13 : BitVec 32 := 0#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1024_i32 : BitVec 32 := 1024#32
  let v18 : BitVec 32 := Scalar.muli v17 c1024_i32
  ![0, v18.toNat]
def k0_off2 (d0 : Dev nD) (c0_i32_18 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v25 : BitVec 32 := Scalar.muli v8 c16384_i32
  let v26 : BitVec 32 := Scalar.addi v25 c0_i32_18
  let c0_i32_26 : BitVec 32 := 0#32
  ![v26.toNat, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v27 : BitVec 32 := Scalar.muli v2 c4_i32_22
  let v28 : BitVec 32 := Scalar.addi c0_i32_23 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v29 : BitVec 32 := Scalar.muli v5 c2_i32_24
  let v30 : BitVec 32 := Scalar.addi v28 v29
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v31 : BitVec 32 := Scalar.muli v9 c1_i32_25
  let v32 : BitVec 32 := Scalar.addi v30 v31
  v32.toNat
def k0_off3 (d0 : Dev nD) : Fin 2 → Nat :=
  let c0_i32_33 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v40 : BitVec 32 := Scalar.muli v8 c1024_i32_29
  ![0, v40.toNat]
def k0_off4 (d0 : Dev nD) : Fin 2 → Nat :=
  let c2048_i32 : BitVec 32 := 2048#32
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_45 v8
  let c1024_i32_46 : BitVec 32 := 1024#32
  let v55 : BitVec 32 := Scalar.muli v54 c1024_i32_46
  ![2048, v55.toNat]
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v64 : BitVec 32 := Scalar.muli v2 c4_i32_59
  let v65 : BitVec 32 := Scalar.addi c0_i32_60 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v66 : BitVec 32 := Scalar.muli v5 c2_i32_61
  let v67 : BitVec 32 := Scalar.addi v65 v66
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v68 : BitVec 32 := Scalar.muli v9 c1_i32_62
  let v69 : BitVec 32 := Scalar.addi v67 v68
  v69.toNat
def k0_off5 (d0 : Dev nD) : Fin 2 → Nat :=
  let c2048_i32_70 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_66 : BitVec 32 := 1024#32
  let v77 : BitVec 32 := Scalar.muli v8 c1024_i32_66
  ![2048, v77.toNat]
def k0_off6 (d0 : Dev nD) : Fin 2 → Nat :=
  let c4096_i32 : BitVec 32 := 4096#32
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v96 : BitVec 32 := Scalar.subi c1_i32_89 v8
  let c1024_i32_90 : BitVec 32 := 1024#32
  let v97 : BitVec 32 := Scalar.muli v96 c1024_i32_90
  ![4096, v97.toNat]
def k0_dev4 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v106 : BitVec 32 := Scalar.muli v2 c4_i32_103
  let v107 : BitVec 32 := Scalar.addi c0_i32_104 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v108 : BitVec 32 := Scalar.muli v5 c2_i32_105
  let v109 : BitVec 32 := Scalar.addi v107 v108
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_106 : BitVec 32 := 1#32
  let v110 : BitVec 32 := Scalar.muli v9 c1_i32_106
  let v111 : BitVec 32 := Scalar.addi v109 v110
  v111.toNat
def k0_off7 (d0 : Dev nD) : Fin 2 → Nat :=
  let c4096_i32_119 : BitVec 32 := 4096#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_115 : BitVec 32 := 1024#32
  let v124 : BitVec 32 := Scalar.muli v8 c1024_i32_115
  ![4096, v124.toNat]
def k0_off8 (d0 : Dev nD) : Fin 2 → Nat :=
  let c6144_i32 : BitVec 32 := 6144#32
  let c1_i32_138 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v143 : BitVec 32 := Scalar.subi c1_i32_138 v8
  let c1024_i32_139 : BitVec 32 := 1024#32
  let v144 : BitVec 32 := Scalar.muli v143 c1024_i32_139
  ![6144, v144.toNat]
def k0_dev5 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_151 : BitVec 32 := 4#32
  let v153 : BitVec 32 := Scalar.muli v2 c4_i32_151
  let v154 : BitVec 32 := Scalar.addi c0_i32_152 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v155 : BitVec 32 := Scalar.muli v5 c2_i32_153
  let v156 : BitVec 32 := Scalar.addi v154 v155
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_154 : BitVec 32 := 1#32
  let v157 : BitVec 32 := Scalar.muli v9 c1_i32_154
  let v158 : BitVec 32 := Scalar.addi v156 v157
  v158.toNat
def k0_off9 (d0 : Dev nD) : Fin 2 → Nat :=
  let c6144_i32_167 : BitVec 32 := 6144#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_163 : BitVec 32 := 1024#32
  let v171 : BitVec 32 := Scalar.muli v8 c1024_i32_163
  ![6144, v171.toNat]
def k0_off10 (d0 : Dev nD) : Fin 2 → Nat :=
  let c8192_i32 : BitVec 32 := 8192#32
  let c1_i32_186 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v190 : BitVec 32 := Scalar.subi c1_i32_186 v8
  let c1024_i32_187 : BitVec 32 := 1024#32
  let v191 : BitVec 32 := Scalar.muli v190 c1024_i32_187
  ![8192, v191.toNat]
def k0_dev6 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v200 : BitVec 32 := Scalar.muli v2 c4_i32_200
  let v201 : BitVec 32 := Scalar.addi c0_i32_201 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v202 : BitVec 32 := Scalar.muli v5 c2_i32_202
  let v203 : BitVec 32 := Scalar.addi v201 v202
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_203 : BitVec 32 := 1#32
  let v204 : BitVec 32 := Scalar.muli v9 c1_i32_203
  let v205 : BitVec 32 := Scalar.addi v203 v204
  v205.toNat
def k0_off11 (d0 : Dev nD) : Fin 2 → Nat :=
  let c8192_i32_216 : BitVec 32 := 8192#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_212 : BitVec 32 := 1024#32
  let v218 : BitVec 32 := Scalar.muli v8 c1024_i32_212
  ![8192, v218.toNat]
def k0_off12 (d0 : Dev nD) : Fin 2 → Nat :=
  let c10240_i32 : BitVec 32 := 10240#32
  let c1_i32_235 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v237 : BitVec 32 := Scalar.subi c1_i32_235 v8
  let c1024_i32_236 : BitVec 32 := 1024#32
  let v238 : BitVec 32 := Scalar.muli v237 c1024_i32_236
  ![10240, v238.toNat]
def k0_dev7 (d0 : Dev nD) : Nat :=
  let c0_i32_249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_248 : BitVec 32 := 4#32
  let v247 : BitVec 32 := Scalar.muli v2 c4_i32_248
  let v248 : BitVec 32 := Scalar.addi c0_i32_249 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_250 : BitVec 32 := 2#32
  let v249 : BitVec 32 := Scalar.muli v5 c2_i32_250
  let v250 : BitVec 32 := Scalar.addi v248 v249
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_251 : BitVec 32 := 1#32
  let v251 : BitVec 32 := Scalar.muli v9 c1_i32_251
  let v252 : BitVec 32 := Scalar.addi v250 v251
  v252.toNat
def k0_off13 (d0 : Dev nD) : Fin 2 → Nat :=
  let c10240_i32_264 : BitVec 32 := 10240#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_260 : BitVec 32 := 1024#32
  let v265 : BitVec 32 := Scalar.muli v8 c1024_i32_260
  ![10240, v265.toNat]
def k0_off14 (d0 : Dev nD) : Fin 2 → Nat :=
  let c12288_i32 : BitVec 32 := 12288#32
  let c1_i32_283 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.subi c1_i32_283 v8
  let c1024_i32_284 : BitVec 32 := 1024#32
  let v285 : BitVec 32 := Scalar.muli v284 c1024_i32_284
  ![12288, v285.toNat]
def k0_dev8 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v294 : BitVec 32 := Scalar.muli v2 c4_i32_296
  let v295 : BitVec 32 := Scalar.addi c0_i32_297 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v296 : BitVec 32 := Scalar.muli v5 c2_i32_298
  let v297 : BitVec 32 := Scalar.addi v295 v296
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_299 : BitVec 32 := 1#32
  let v298 : BitVec 32 := Scalar.muli v9 c1_i32_299
  let v299 : BitVec 32 := Scalar.addi v297 v298
  v299.toNat
def k0_off15 (d0 : Dev nD) : Fin 2 → Nat :=
  let c12288_i32_312 : BitVec 32 := 12288#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_308 : BitVec 32 := 1024#32
  let v312 : BitVec 32 := Scalar.muli v8 c1024_i32_308
  ![12288, v312.toNat]
def k0_off16 (d0 : Dev nD) : Fin 2 → Nat :=
  let c14336_i32 : BitVec 32 := 14336#32
  let c1_i32_331 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.subi c1_i32_331 v8
  let c1024_i32_332 : BitVec 32 := 1024#32
  let v332 : BitVec 32 := Scalar.muli v331 c1024_i32_332
  ![14336, v332.toNat]
def k0_dev9 (d0 : Dev nD) : Nat :=
  let c0_i32_345 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_344 : BitVec 32 := 4#32
  let v341 : BitVec 32 := Scalar.muli v2 c4_i32_344
  let v342 : BitVec 32 := Scalar.addi c0_i32_345 v341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_346 : BitVec 32 := 2#32
  let v343 : BitVec 32 := Scalar.muli v5 c2_i32_346
  let v344 : BitVec 32 := Scalar.addi v342 v343
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_347 : BitVec 32 := 1#32
  let v345 : BitVec 32 := Scalar.muli v9 c1_i32_347
  let v346 : BitVec 32 := Scalar.addi v344 v345
  v346.toNat
def k0_off17 (d0 : Dev nD) : Fin 2 → Nat :=
  let c14336_i32_360 : BitVec 32 := 14336#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_356 : BitVec 32 := 1024#32
  let v359 : BitVec 32 := Scalar.muli v8 c1024_i32_356
  ![14336, v359.toNat]
def k0_off18 (d0 : Dev nD) (c0_i32_398 : BitVec 32) : Fin 2 → Nat :=
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v393 : BitVec 32 := Scalar.subi c1_i32_396 v8
  let c16384_i32_397 : BitVec 32 := 16384#32
  let v394 : BitVec 32 := Scalar.muli v393 c16384_i32_397
  let v395 : BitVec 32 := Scalar.addi v394 c0_i32_398
  let c0_i32_406 : BitVec 32 := 0#32
  ![v395.toNat, 0]

class Facts₀ : Prop where
  hamt_1 : (1#32 : BitVec 32).msb = false
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S8_S1_0 : ∀ a, (![0] : Fin 1 → Nat) a + S1.size a ≤ S8.size a
  squeezes_S1_S_ : S1.Squeezes S_
  inb_S2_S1_0 : ∀ a, (![0] : Fin 1 → Nat) a + S1.size a ≤ S2.size a
  inb_S2x2048x1024_S1x2048x1024_1_0_0 : ∀ a, (![1, 0, 0] : Fin 3 → Nat) a + S1x2048x1024.size a ≤ S2x2048x1024.size a
  inb_S8_S1_1 : ∀ a, (![1] : Fin 1 → Nat) a + S1.size a ≤ S8.size a
  inb_S2_S1_1 : ∀ a, (![1] : Fin 1 → Nat) a + S1.size a ≤ S2.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hcc0_scratch2 : 0 + S_.numel ≤ 20
  hcc0_scratch3 : 1 + S2.numel ≤ 20
  hcc0_scratch4 : 3 + S_.numel ≤ 20
  hcc0_scratch5 : 4 + S8.numel ≤ 20
  hcc0_scratch6 : 12 + S8.numel ≤ 20
  k0_dev1_lt : ∀ d0 : Dev nD, (k0_dev1 d0) < nD
  k0_off1_inb : ∀ d0 : Dev nD, ∀ a, (k0_off1 d0) a + S2048x1024.size a ≤ S16384x2048.size a
  k0_off2_inb : ∀ d0 : Dev nD, ∀ (r : Fin 8), ∀ a, (k0_off2 d0 (BitVec.ofNat 32 (2048 * r.val))) a + S2048x1024.size a ≤ S32768x1024.size a
  k0_dev2_lt : ∀ d0 : Dev nD, (k0_dev2 d0) < nD
  k0_off3_inb : ∀ d0 : Dev nD, ∀ a, (k0_off3 d0) a + S2048x1024.size a ≤ S16384x2048.size a
  k0_off4_inb : ∀ d0 : Dev nD, ∀ a, (k0_off4 d0) a + S2048x1024.size a ≤ S16384x2048.size a
  k0_dev3_lt : ∀ d0 : Dev nD, (k0_dev3 d0) < nD
  k0_off5_inb : ∀ d0 : Dev nD, ∀ a, (k0_off5 d0) a + S2048x1024.size a ≤ S16384x2048.size a
  k0_off6_inb : ∀ d0 : Dev nD, ∀ a, (k0_off6 d0) a + S2048x1024.size a ≤ S16384x2048.size a
  k0_dev4_lt : ∀ d0 : Dev nD, (k0_dev4 d0) < nD
  k0_off7_inb : ∀ d0 : Dev nD, ∀ a, (k0_off7 d0) a + S2048x1024.size a ≤ S16384x2048.size a
  k0_off8_inb : ∀ d0 : Dev nD, ∀ a, (k0_off8 d0) a + S2048x1024.size a ≤ S16384x2048.size a
  k0_dev5_lt : ∀ d0 : Dev nD, (k0_dev5 d0) < nD
  k0_off9_inb : ∀ d0 : Dev nD, ∀ a, (k0_off9 d0) a + S2048x1024.size a ≤ S16384x2048.size a
  k0_off10_inb : ∀ d0 : Dev nD, ∀ a, (k0_off10 d0) a + S2048x1024.size a ≤ S16384x2048.size a
  k0_dev6_lt : ∀ d0 : Dev nD, (k0_dev6 d0) < nD
  k0_off11_inb : ∀ d0 : Dev nD, ∀ a, (k0_off11 d0) a + S2048x1024.size a ≤ S16384x2048.size a
  k0_off12_inb : ∀ d0 : Dev nD, ∀ a, (k0_off12 d0) a + S2048x1024.size a ≤ S16384x2048.size a
  k0_dev7_lt : ∀ d0 : Dev nD, (k0_dev7 d0) < nD
  k0_off13_inb : ∀ d0 : Dev nD, ∀ a, (k0_off13 d0) a + S2048x1024.size a ≤ S16384x2048.size a
  k0_off14_inb : ∀ d0 : Dev nD, ∀ a, (k0_off14 d0) a + S2048x1024.size a ≤ S16384x2048.size a
  k0_dev8_lt : ∀ d0 : Dev nD, (k0_dev8 d0) < nD
  k0_off15_inb : ∀ d0 : Dev nD, ∀ a, (k0_off15 d0) a + S2048x1024.size a ≤ S16384x2048.size a
  k0_off16_inb : ∀ d0 : Dev nD, ∀ a, (k0_off16 d0) a + S2048x1024.size a ≤ S16384x2048.size a
  k0_dev9_lt : ∀ d0 : Dev nD, (k0_dev9 d0) < nD
  k0_off17_inb : ∀ d0 : Dev nD, ∀ a, (k0_off17 d0) a + S2048x1024.size a ≤ S16384x2048.size a
  k0_off18_inb : ∀ d0 : Dev nD, ∀ (r : Fin 8), ∀ a, (k0_off18 d0 (BitVec.ofNat 32 (2048 * r.val))) a + S2048x1024.size a ≤ S32768x1024.size a

variable [Facts₀]

abbrev cc0_scratch2 : DmaSems sig S_ := SemArray.consecutive 0 S_ hcc0_scratch2
abbrev cc0_scratch3 : DmaSems sig S2 := SemArray.consecutive 1 S2 hcc0_scratch3
abbrev cc0_scratch4 : DmaSems sig S_ := SemArray.consecutive 3 S_ hcc0_scratch4
abbrev cc0_scratch5 : DmaSems sig S8 := SemArray.consecutive 4 S8 hcc0_scratch5
abbrev cc0_scratch6 : DmaSems sig S8 := SemArray.consecutive 12 S8 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x2048 : Shape := ⟨2, ![32768, 2048]⟩

abbrev nBuf : Space → Nat
  | .hbm => 1
  | .vmem => 0
  | .smem => 0
  | _ => 0

abbrev bufTy : (tb : Table) → Fin (tcTables nBuf tb) → BufTy
  | .hbm, ⟨0, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Kernel.Base.lean ====
/-
  The all-to-all exchange between the two devices of a pair along the mesh's last axis: the shared vocabulary.
  Device `c` (position `z = c mod 2` on that axis) holds rows `[16384 z, 16384 z + 16384)` of the whole
  `x : f32[32768, 2048]` and must end holding columns `[1024 z, 1024 z + 1024)` of it. Its partner `peer c` differs
  from it in `z` only. In eight chunks of 2048 rows, `c` copies the column half its partner needs into a two-slot send
  buffer and from there into the partner's result (rows `16384 z + 2048 i` on), and the column half it keeps into a
  two-slot local buffer and from there into its own result at the same rows.
  Here: the partner, the memrefs the body names, and the contents every buffer piece is known to hold.
-/
import proofs.«900628_g7700000000000629_dist_a2a_v7x_xyz2x2x2_z_m16384_n1024_f32_1_alg».proof.Proof.Gen.Kernel
import proofs.«900628_g7700000000000629_dist_a2a_v7x_xyz2x2x2_z_m16384_n1024_f32_1_alg».proof.Proof.Gen.Kernel.Skeleton
import proofs.«900628_g7700000000000629_dist_a2a_v7x_xyz2x2x2_z_m16384_n1024_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic
import Idealize.ShloMosaic.Lib.Transfers

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's copy, the protocol's (one duty a round: duties `Unit`), and the counters of
the local copies in flight -/

abbrev UB : Type := URounds (GSem nD τ sig) Unit
abbrev UX : Type := UB × Counters
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR
abbrev ER : Emb UB (MT nD τ sig Unit (Elt F) ℕ UU ℕ) := (Emb.inl : Emb UB UX).trans embR
abbrev EC : UEmb Counters (MT nD τ sig Unit (Elt F) ℕ UU ℕ) := countersEmb

omit [FloatOps F] in
instance ER_landsIn : (ER (F := F)).LandsIn (upEmb : UEmb _ (MT nD τ sig Unit (Elt F) ℕ UU ℕ)) := by
  unfold ER embR; infer_instance
omit [FloatOps F] in
instance EC_landsIn : (EC (F := F)).LandsIn (upEmb : UEmb _ (MT nD τ sig Unit (Elt F) ℕ UU ℕ)) := by
  unfold EC countersEmb; infer_instance

variable (m : (ℓ : Loc nD τ sig) → Buf (Elt F) ℓ)

/-! ## The partner -/

/-- The device the body addresses: the same `x` and `y`, the other `z`. -/
def peer (c : Dev nD) : Dev nD := ⟨k0_dev1 c, k0_dev1_lt c⟩

theorem peer_val (c : Dev nD) : (peer c).val = (4 * (c.val / 4) + 2 * ((c.val / 2) % 2) + 1) - (c.val % 2) := k0_dev1_eq c
theorem peer_peer (c : Dev nD) : peer (peer c) = c := by
  apply Fin.ext; rw [peer_val, peer_val]; revert c; decide
theorem peer_ne (c : Dev nD) : peer c ≠ c := by
  intro h; have := congrArg Fin.val h; rw [peer_val] at this; revert c; decide

theorem dev1_eq (c : Dev nD) : (⟨k0_dev1 c, k0_dev1_lt c⟩ : Dev nD) = peer c := rfl
theorem dev2_eq (c : Dev nD) : (⟨k0_dev2 c, k0_dev2_lt c⟩ : Dev nD) = peer c := Fin.ext ((k0_dev2_eq c).trans (k0_dev1_eq c).symm)
theorem dev3_eq (c : Dev nD) : (⟨k0_dev3 c, k0_dev3_lt c⟩ : Dev nD) = peer c := Fin.ext ((k0_dev3_eq c).trans (k0_dev1_eq c).symm)
theorem dev4_eq (c : Dev nD) : (⟨k0_dev4 c, k0_dev4_lt c⟩ : Dev nD) = peer c := Fin.ext ((k0_dev4_eq c).trans (k0_dev1_eq c).symm)
theorem dev5_eq (c : Dev nD) : (⟨k0_dev5 c, k0_dev5_lt c⟩ : Dev nD) = peer c := Fin.ext ((k0_dev5_eq c).trans (k0_dev1_eq c).symm)
theorem dev6_eq (c : Dev nD) : (⟨k0_dev6 c, k0_dev6_lt c⟩ : Dev nD) = peer c := Fin.ext ((k0_dev6_eq c).trans (k0_dev1_eq c).symm)
theorem dev7_eq (c : Dev nD) : (⟨k0_dev7 c, k0_dev7_lt c⟩ : Dev nD) = peer c := Fin.ext ((k0_dev7_eq c).trans (k0_dev1_eq c).symm)
theorem dev8_eq (c : Dev nD) : (⟨k0_dev8 c, k0_dev8_lt c⟩ : Dev nD) = peer c := Fin.ext ((k0_dev8_eq c).trans (k0_dev1_eq c).symm)
theorem dev9_eq (c : Dev nD) : (⟨k0_dev9 c, k0_dev9_lt c⟩ : Dev nD) = peer c := Fin.ext ((k0_dev9_eq c).trans (k0_dev1_eq c).symm)

/-- The device's position on the axis the exchange runs along. -/
def zc (c : Dev nD) : ℕ := c.val % 2
theorem zc_lt (c : Dev nD) : zc c < 2 := Nat.mod_lt _ (by decide)
theorem zc_peer (c : Dev nD) : zc (peer c) = 1 - zc c := by unfold zc; rw [peer_val]; revert c; decide

/-! ## The memrefs -/

abbrev xM : Memref sig .tc .hbm S16384x2048 .f32 := Memref.whole main_arg0
abbrev oM : Memref sig .tc .hbm S32768x1024 .f32 := Memref.whole main_v1
abbrev lM : Memref sig .tc .vmem S2x2048x1024 .f32 := Memref.whole cc0_scratch0
abbrev sM : Memref sig .tc .vmem S2x2048x1024 .f32 := Memref.whole cc0_scratch1

/-- Slot `k` of a two-slot scratch buffer, as the body spells it (`k` a literal `0` or `1` there). -/
theorem slot_inb (k : ℕ) (hk : k < 2) : ∀ a, (![k, 0, 0] : Fin 3 → Nat) a + S1x2048x1024.size a ≤ S2x2048x1024.size a := by
  intro a; fin_cases a
  · show k + 1 ≤ 2; omega
  · show 0 + 2048 ≤ 2048; omega
  · show 0 + 1024 ≤ 1024; omega
abbrev slotAt (M : Memref sig .tc .vmem S2x2048x1024 .f32) (k : ℕ) (hk : k < 2) : Memref sig .tc .vmem S2048x1024 .f32 :=
  (M.slice (Rect.unit (s := S2x2048x1024) ![k, 0, 0] S1x2048x1024.size (slot_inb k hk)) (fun _ => rfl)).squeeze S2048x1024 squeezes_S1x2048x1024_S2048x1024
/-- Chunk `i` goes through slot `i mod 2`. -/
abbrev slotOf (M : Memref sig .tc .vmem S2x2048x1024 .f32) (i : Fin 8) : Memref sig .tc .vmem S2048x1024 .f32 :=
  slotAt M (i.val % 2) (Nat.mod_lt _ (by decide))

/-- A 2048 × 1024 block of this device's rows of `x`, and of its result, at an offset. -/
abbrev xSl (o : Fin 2 → Nat) (h : ∀ a, o a + S2048x1024.size a ≤ S16384x2048.size a) : Memref sig .tc .hbm S2048x1024 .f32 :=
  xM.slice (Rect.unit (s := S16384x2048) o S2048x1024.size h) (fun _ => rfl)
abbrev oSl (o : Fin 2 → Nat) (h : ∀ a, o a + S2048x1024.size a ≤ S32768x1024.size a) : Memref sig .tc .hbm S2048x1024 .f32 :=
  oM.slice (Rect.unit (s := S32768x1024) o S2048x1024.size h) (fun _ => rfl)

/-- Chunk `i`'s block of `x` that goes to the partner (the column half `1 - z`), by the body's own offset chains. -/
def sendOff (c : Dev nD) : Fin 8 → (Fin 2 → Nat)
  | 0 => k0_off1 c | 1 => k0_off4 c | 2 => k0_off6 c | 3 => k0_off8 c | 4 => k0_off10 c | 5 => k0_off12 c | 6 => k0_off14 c | 7 => k0_off16 c
theorem sendOff_inb (c : Dev nD) : ∀ (i : Fin 8) a, sendOff c i a + S2048x1024.size a ≤ S16384x2048.size a
  | 0 => k0_off1_inb c | 1 => k0_off4_inb c | 2 => k0_off6_inb c | 3 => k0_off8_inb c | 4 => k0_off10_inb c | 5 => k0_off12_inb c | 6 => k0_off14_inb c | 7 => k0_off16_inb c
/-- Chunk `i`'s block of `x` that stays (the column half `z`). -/
def keepOff (c : Dev nD) : Fin 8 → (Fin 2 → Nat)
  | 0 => k0_off3 c | 1 => k0_off5 c | 2 => k0_off7 c | 3 => k0_off9 c | 4 => k0_off11 c | 5 => k0_off13 c | 6 => k0_off15 c | 7 => k0_off17 c
theorem keepOff_inb (c : Dev nD) : ∀ (i : Fin 8) a, keepOff c i a + S2048x1024.size a ≤ S16384x2048.size a
  | 0 => k0_off3_inb c | 1 => k0_off5_inb c | 2 => k0_off7_inb c | 3 => k0_off9_inb c | 4 => k0_off11_inb c | 5 => k0_off13_inb c | 6 => k0_off15_inb c | 7 => k0_off17_inb c
/-- Chunk `i`'s rows of a result: rows `16384 z + 2048 i` on, `z` the WRITER's position — device `c` writes them in its
    own result (from the local buffer) and in its partner's (from the send buffer). -/
def outOff (c : Dev nD) (i : Fin 8) : Fin 2 → Nat := k0_off2 c (BitVec.ofNat 32 (2048 * i.val))
theorem outOff_inb (c : Dev nD) (i : Fin 8) : ∀ a, outOff c i a + S2048x1024.size a ≤ S32768x1024.size a := k0_off2_inb c i

theorem sendOff_eq (c : Dev nD) (i : Fin 8) : sendOff c i = ![2048 * i.val, 1024 - 1024 * zc c] := by
  unfold zc; fin_cases i
  · exact k0_off1_eq c
  · exact k0_off4_eq c
  · exact k0_off6_eq c
  · exact k0_off8_eq c
  · exact k0_off10_eq c
  · exact k0_off12_eq c
  · exact k0_off14_eq c
  · exact k0_off16_eq c
theorem keepOff_eq (c : Dev nD) (i : Fin 8) : keepOff c i = ![2048 * i.val, 1024 * zc c] := by
  unfold zc; fin_cases i
  · exact k0_off3_eq c
  · exact k0_off5_eq c
  · exact k0_off7_eq c
  · exact k0_off9_eq c
  · exact k0_off11_eq c
  · exact k0_off13_eq c
  · exact k0_off15_eq c
  · exact k0_off17_eq c
theorem outOff_eq (c : Dev nD) (i : Fin 8) : outOff c i = ![16384 * zc c + 2048 * i.val, 0] := k0_off2_eq c i

abbrev xSend (c : Dev nD) (i : Fin 8) : Memref sig .tc .hbm S2048x1024 .f32 := xSl (sendOff c i) (sendOff_inb c i)
abbrev xKeep (c : Dev nD) (i : Fin 8) : Memref sig .tc .hbm S2048x1024 .f32 := xSl (keepOff c i) (keepOff_inb c i)
/-- Chunk `i`'s rows of a result as WRITER `w` addresses them. -/
abbrev oRows (w : Dev nD) (i : Fin 8) : Memref sig .tc .hbm S2048x1024 .f32 := oSl (outOff w i) (outOff_inb w i)

/-! ## Contents -/

/-- Device `c`'s rows of `x`, as launched. -/
def xOf (c : Dev nD) : Buf (Elt F) ((c : Thread nD τ).loc main_arg0) := m ((c : Thread nD τ).loc main_arg0)

/-- What device `c`'s result holds at the end: at a row of its own half (`row / 16384 = z`) its own `x` at that row's
    offset in the half, column `1024 z + col`; at a row of the other half the partner's. -/
def outC (c : Dev nD) : Buf (Elt F) ((c : Thread nD τ).loc main_v1) :=
  fun idx : S32768x1024.Idx =>
    if (idx 0).val / 16384 = zc c then
      xOf m c (ValueIdx.ix2 (⟨(idx 0).val % 16384, Nat.mod_lt _ (by decide)⟩ : Fin 16384) (⟨1024 * zc c + (idx 1).val, by have := zc_lt c; have h1 : (idx 1).val < 1024 := (idx 1).isLt; show _ < 2048; omega⟩ : Fin 2048))
    else
      xOf m (peer c) (ValueIdx.ix2 (⟨(idx 0).val % 16384, Nat.mod_lt _ (by decide)⟩ : Fin 16384) (⟨1024 * zc c + (idx 1).val, by have := zc_lt c; have h1 : (idx 1).val < 1024 := (idx 1).isLt; show _ < 2048; omega⟩ : Fin 2048))

/-! ## A piece of a buffer, held -/

/-- The elements of a memref's view on thread `c`, held outright at the buffer contents `f` (which matter on those
    elements only). -/
abbrev pts {sp : Space} {s : Shape} (c : Dev nD) (M : Memref sig .tc sp s .f32) (f : Buf (Elt F) (M.view.loc (c : Thread nD τ))) : sProp 𝕄 :=
  M.view.loc (c : Thread nD τ) ↦[M.view.set]{fullShare} f

omit [FloatOps F] in
/-- A write through a view on every index leaves, on the view's own elements, contents that do not depend on what was there. -/
theorem write_univ_congr {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := by
  intro i hi
  obtain ⟨y, rfl⟩ := View.exists_emb_of_mem_set v hi
  rw [View.write_emb_of_mem _ _ (Finset.mem_univ _), View.write_emb_of_mem _ _ (Finset.mem_univ _)]

end Cert.Kernel.A2A

end
-- ==== Proof.Kernel.Proto.lean ====
/-
  The protocol of the exchange, under the rounds discipline. Per device seventeen cells, each with ONE round of ONE
  duty: its barrier cell (the partner's entry signal, one unit, which hands over the partner's permission to write the
  eight row blocks of the partner's result that this device fills); its eight send cells (chunk `i`'s transfer has been
  read out of its send-buffer slot: the slot back, at any contents); its eight receive cells (the partner's chunk `i`
  has landed in this device's result: those rows, holding what the result must hold there). The four semaphores of the
  local copies belong to no cell: one copy at a time is in flight on each, issued and awaited by the device itself.
  A device owes, from launch, its partner's barrier cell one unit and each of its partner's receive cells a block's
  credit. Levels: barrier cells below receive cells, everything else at the bottom; a device waits on its barrier
  owing only receive credit, on its local and send semaphores likewise, and on its receive cells owing nothing.
-/
import proofs.«900628_g7700000000000629_dist_a2a_v7x_xyz2x2x2_z_m16384_n1024_f32_1_alg».proof.Proof.Kernel.Base

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Semaphores and cells -/

abbrev barS : Sem sig := (SemArray.scalar (sig.barrier 0 rfl) : Sems sig S_).sem
/-- The local copies' semaphores, as the body spells them: into the local buffer, out of its two slots, into the send buffer. -/
abbrev lsemS : DmaSem sig := (cc0_scratch2 : DmaSems sig S_).sem
abbrev loutS0 : DmaSem sig := ((cc0_scratch3.slice (Rect.unit (s := S2) ![0] S1.size inb_S2_S1_0)).squeeze S_ squeezes_S1_S_ : DmaSems sig S_).sem
abbrev loutS1 : DmaSem sig := ((cc0_scratch3.slice (Rect.unit (s := S2) ![1] S1.size inb_S2_S1_1)).squeeze S_ squeezes_S1_S_ : DmaSems sig S_).sem
abbrev ssemS : DmaSem sig := (cc0_scratch4 : DmaSems sig S_).sem
/-- Chunk `i`'s send and receive semaphores: entries `i` of the two arrays of eight. -/
def sendS (i : Fin 8) : DmaSem sig := ⟨i.val + 4, by have := i.isLt; show i.val + 4 < 20; omega⟩
def recvS (i : Fin 8) : DmaSem sig := ⟨i.val + 12, by have := i.isLt; show i.val + 12 < 20; omega⟩

abbrev barCell (c : Dev nD) : GSem nD τ sig := ((c : Thread nD τ), .reg barS)
abbrev sendCell (c : Dev nD) (i : Fin 8) : GSem nD τ sig := ((c : Thread nD τ), .dma (sendS i))
abbrev recvCell (c : Dev nD) (i : Fin 8) : GSem nD τ sig := ((c : Thread nD τ), .dma (recvS i))

/-- A block's credit: the same for every 2048 × 1024 `f32` view. -/
abbrev N : ℕ := (slotAt sM 0 (by decide)).view.dmaCredit
theorem N_pos : 0 < N := View.dmaCredit_pos _ (by decide)
theorem credit_eq {sp : Space} (M : Memref sig .tc sp S2048x1024 .f32) : M.view.dmaCredit = N := rfl

/-! ## The schedule -/

/-- The cells of the protocol: the barrier semaphore, and the DMA semaphores from the send array on. -/
def isProto : SemLoc sig → Prop
  | .reg _ => True
  | .dma q => 4 ≤ q.val
instance : DecidablePred (isProto) := fun sm => by cases sm <;> unfold isProto <;> infer_instance

/-- The chunk a send or receive semaphore belongs to. -/
def chunkOf (q : DmaSem sig) : Fin 8 := ⟨(q.val - 4) % 8, Nat.mod_lt _ (by decide)⟩
theorem chunkOf_send (i : Fin 8) : chunkOf (sendS i) = i := by
  apply Fin.ext; show (i.val + 4 - 4) % 8 = i.val; have := i.isLt; omega
theorem chunkOf_recv (i : Fin 8) : chunkOf (recvS i) = i := by
  apply Fin.ext; show (i.val + 12 - 4) % 8 = i.val; have := i.isLt; omega

/-- What the partner's entry signal hands `c`: the eight row blocks of the PARTNER's result that `c` fills (at whatever they hold). -/
def barPay (c : Dev nD) : sProp 𝕄 := bigSep Finset.univ fun i : Fin 8 => iprop(∃ f, pts (peer c) (oRows c i) f)
/-- Chunk `i` read out of the send buffer: its slot back. -/
def sendPay (c : Dev nD) (i : Fin 8) : sProp 𝕄 := iprop(∃ f, pts c (slotOf sM i) f)
/-- The partner's chunk `i` landed: those rows of `c`'s result, at what the result holds there in the end. -/
def recvPay (c : Dev nD) (i : Fin 8) : sProp 𝕄 := pts c (oRows (peer c) i) (outC m c)

def sched : Rounds.Schedule (GSem nD τ sig) Unit 𝕄 where
  duties g r := if r = 0 ∧ g.1.2 = .tc ∧ isProto g.2 then {()} else ∅
  unitless _ := False
  amount g _ _ := match g.2 with
    | .reg _ => 1
    | .dma _ => N
  payload g _ _ := match g.2 with
    | .reg _ => barPay g.1.1
    | .dma q => if q.val < 12 then sendPay g.1.1 (chunkOf q) else recvPay m g.1.1 (chunkOf q)
  amount_pos g _ _ _ := by
    cases h : g.2 with
    | reg _ => simp only [h]; exact Nat.one_pos
    | dma _ => simp only [h]; exact N_pos

instance sched_payload_storable (g : GSem nD τ sig) (r : ℕ) (d : Unit) :
    BI.Storable (upEmb : UEmb _ 𝕄) ((sched (F := F) m).payload g r d) := by
  show BI.Storable upEmb (match g.2 with
    | .reg _ => barPay g.1.1
    | .dma q => if q.val < 12 then sendPay g.1.1 (chunkOf q) else recvPay m g.1.1 (chunkOf q))
  unfold barPay sendPay recvPay
  (repeat' split) <;> infer_instance

section Sched
variable (c : Dev nD) (i : Fin 8)

omit [FloatOps F] in
theorem duties_bar : (sched (F := F) m).duties (barCell c) 0 = {()} := by dsimp only [sched]; exact if_pos ⟨rfl, rfl, trivial⟩
omit [FloatOps F] in
theorem duties_send : (sched (F := F) m).duties (sendCell c i) 0 = {()} := by
  dsimp only [sched]; exact if_pos ⟨rfl, rfl, show 4 ≤ i.val + 4 by omega⟩
omit [FloatOps F] in
theorem duties_recv : (sched (F := F) m).duties (recvCell c i) 0 = {()} := by
  dsimp only [sched]; exact if_pos ⟨rfl, rfl, show 4 ≤ i.val + 12 by omega⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := rfl
omit [FloatOps F] in
theorem amount_send (d : Unit) : (sched (F := F) m).amount (sendCell c i) 0 d = N := rfl
omit [FloatOps F] in
theorem amount_recv (d : Unit) : (sched (F := F) m).amount (recvCell c i) 0 d = N := rfl

omit [FloatOps F] in
/-- A round of one duty expects that duty's amount. -/
theorem expect_of_single (g : GSem nD τ sig) (h : (sched (F := F) m).duties g 0 = {()}) : (sched (F := F) m).expect g 0 = (sched (F := F) m).amount g 0 () := by
  unfold Schedule.expect Schedule.amountOf
  rw [h, Finset.sum_singleton]
omit [FloatOps F] in
theorem expect_bar : (sched (F := F) m).expect (barCell c) 0 = 1 :=
  (expect_of_single m (barCell c) (duties_bar m c)).trans (amount_bar m c ())
omit [FloatOps F] in
theorem expect_send : (sched (F := F) m).expect (sendCell c i) 0 = N :=
  (expect_of_single m (sendCell c i) (duties_send m c i)).trans (amount_send m c i ())
omit [FloatOps F] in
theorem expect_recv : (sched (F := F) m).expect (recvCell c i) 0 = N :=
  (expect_of_single m (recvCell c i) (duties_recv m c i)).trans (amount_recv m c i ())

omit [FloatOps F] in
theorem payload_bar (d : Unit) : (sched (F := F) m).payload (barCell c) 0 d = barPay c := rfl
omit [FloatOps F] in
theorem payload_send (d : Unit) : (sched (F := F) m).payload (sendCell c i) 0 d = sendPay c i := by
  show (if i.val + 4 < 12 then sendPay c (chunkOf (sendS i)) else recvPay m c (chunkOf (sendS i))) = _
  rw [if_pos (by have := i.isLt; omega), chunkOf_send]
omit [FloatOps F] in
theorem payload_recv (d : Unit) : (sched (F := F) m).payload (recvCell c i) 0 d = recvPay m c i := by
  show (if i.val + 12 < 12 then sendPay c (chunkOf (recvS i)) else recvPay m c (chunkOf (recvS i))) = _
  rw [if_neg (by omega), chunkOf_recv]

omit [FloatOps F] in
theorem rest_bar : bigSep ((sched (F := F) m).duties (barCell c) 0 \ ∅) (fun d => (sched (F := F) m).payload (barCell c) 0 d) = barPay c := by
  rw [Finset.sdiff_empty, duties_bar, bigSep_singleton, payload_bar]
omit [FloatOps F] in
theorem rest_send : bigSep ((sched (F := F) m).duties (sendCell c i) 0 \ ∅) (fun d => (sched (F := F) m).payload (sendCell c i) 0 d) = sendPay c i := by
  rw [Finset.sdiff_empty, duties_send, bigSep_singleton, payload_send]
omit [FloatOps F] in
theorem rest_recv : bigSep ((sched (F := F) m).duties (recvCell c i) 0 \ ∅) (fun d => (sched (F := F) m).payload (recvCell c i) 0 d) = recvPay m c i := by
  rw [Finset.sdiff_empty, duties_recv, bigSep_singleton, payload_recv]

end Sched

/-! ## What each device owes at launch; the levels -/

/-- The block's credit device `c` owes its partner's receive cell `i`. -/
abbrev tRecv (c : Dev nD) (i : Fin 8) : CellTallies nD τ sig Unit := tallyAt (recvCell (peer c) i) () N
/-- The receive credit of the last `k` chunks, the earliest of them the LAST summand (each transfer peels the last summand). -/
def owedUp (c : Dev nD) : ℕ → CellTallies nD τ sig Unit
  | 0 => 0
  | k + 1 => owedUp c k + tRecv c ⟨(7 - k) % 8, Nat.mod_lt _ (by decide)⟩
/-- What `c` still owes once chunks `0 … n - 1` are on their way. -/
def owedFrom (c : Dev nD) (n : ℕ) : CellTallies nD τ sig Unit := owedUp c (8 - n)
/-- At launch: all eight, and the entry signal's unit (paid first). -/
def O₀ (c : Dev nD) : CellTallies nD τ sig Unit := owedFrom c 0 + tallyAt (barCell (peer c)) () 1

def L (g : GSem nD τ sig) : Finset Unit := if g.1.2 = .tc then {()} else ∅
/-- Barrier cells at 1, receive cells at 2, every other cell at 0. -/
def lv (g : GSem nD τ sig) (_ : Unit) : ℕ := match g.2 with
  | .reg _ => 1
  | .dma q => if 12 ≤ q.val then 2 else 0

/-- Everything a device owes once its entry signal is sent is receive credit of its partner's cells. -/
theorem owedUp_pos (c : Dev nD) : ∀ (k : ℕ) {g : GSem nD τ sig} {u : Unit}, 0 < owedUp c k g u → ∃ i, g = recvCell (peer c) i
  | 0, g, u, h => absurd h (Nat.lt_irrefl 0)
  | k + 1, g, u, h => by
    have h' : 0 < (owedUp c k + tRecv c ⟨(7 - k) % 8, Nat.mod_lt _ (by decide)⟩) g u := h
    rcases Pipeline.add_pos_cases h' with h | h
    · exact owedUp_pos c k h
    · exact ⟨_, (Pipeline.tallyAt_pos h).1⟩
theorem owedFrom_pos (c : Dev nD) (n : ℕ) {g : GSem nD τ sig} {u : Unit} (h : 0 < owedFrom c n g u) : ∃ i, g = recvCell (peer c) i :=
  owedUp_pos c (8 - n) h

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 8) : lv (recvCell c i) () = 2 := by
  show (if 12 ≤ i.val + 12 then 2 else 0) = 2; rw [if_pos (by omega)]

omit [FloatOps F] in
/-- A wait on a cell below the receive cells, by a device that owes receive credit only. -/
theorem mayWait_low (c : Dev nD) (sm : SemLoc sig) (hsm : lv ((c : Thread nD τ), sm) () < 2) (n : ℕ) :
    (levAts L lv : sProp 𝕄) ⊢ MayWait (c : Thread nD τ) sm () (owedFrom c n) :=
  Pipeline.mayWait_of_levAts (by rw [L_tc]; exact Finset.mem_singleton_self _) fun g u hg => by
    obtain ⟨i, rfl⟩ := owedFrom_pos c n hg
    exact ⟨by rw [L_tc]; exact Finset.mem_singleton_self _, by cases u; rw [lv_recv]; exact hsm⟩

end Cert.Kernel.A2A

end
-- ==== Proof.Kernel.Ghost.lean ====
/-
  What a device holds when its body starts and when it ends, and the pipeline library's proof data (a region with no
  window and one point).
-/
import proofs.«900628_g7700000000000629_dist_a2a_v7x_xyz2x2x2_z_m16384_n1024_f32_1_alg».proof.Proof.Kernel.Proto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Names of the cells' invariants -/

/-- A device's seventeen cells by number: its barrier cell, its send cells, its receive cells. -/
def csem (k : Fin 17) : SemLoc sig := if h0 : k.val = 0 then .reg barS else .dma ⟨k.val + 3, by have := k.isLt; show k.val + 3 < 20; omega⟩
abbrev kcell (ck : Dev nD × Fin 17) : GSem nD τ sig := ((ck.1 : Thread nD τ), csem ck.2)
def kBar : Fin 17 := 0
def kSend (i : Fin 8) : Fin 17 := ⟨i.val + 1, by have := i.isLt; omega⟩
def kRecv (i : Fin 8) : Fin 17 := ⟨i.val + 9, by have := i.isLt; omega⟩
theorem kcell_bar (c : Dev nD) : kcell (c, kBar) = barCell c := rfl
theorem kcell_send (c : Dev nD) (i : Fin 8) : kcell (c, kSend i) = sendCell c i := by
  unfold kcell csem kSend; rw [dif_neg (Nat.succ_ne_zero _)]; rfl
theorem kcell_recv (c : Dev nD) (i : Fin 8) : kcell (c, kRecv i) = recvCell c i := by
  unfold kcell csem kRecv; rw [dif_neg (Nat.succ_ne_zero _)]; rfl

/-! ## The ghost state a device starts from -/

variable (K : Dev nD × Fin 17 → ℕ)

/-- The invariants device `c`'s body opens: its own seventeen cells', its partner's barrier cell's (its signal) and its
    partner's receive cells' (its transfers). -/
def invs (c : Dev nD) : sProp 𝕄 :=
  iprop(cellInv ER (sched m) (K (c, kBar)) (barCell c)
    ∗ (bigSep Finset.univ fun i : Fin 8 => cellInv ER (sched m) (K (c, kSend i)) (sendCell c i))
    ∗ (bigSep Finset.univ fun i : Fin 8 => cellInv ER (sched m) (K (c, kRecv i)) (recvCell c i))
    ∗ cellInv ER (sched m) (K (peer c, kBar)) (barCell (peer c))
    ∗ (bigSep Finset.univ fun i : Fin 8 => cellInv ER (sched m) (K (peer c, kRecv i)) (recvCell (peer c) i)))

instance invs_persistent (c : Dev nD) : BI.Persistent (invs m K c) := by unfold invs; infer_instance

/-- Round 0 of every cell the device touches is reached. -/
def reacheds (c : Dev nD) : sProp 𝕄 :=
  iprop(reached ER (barCell c) 0 ∗ (bigSep Finset.univ fun i : Fin 8 => reached ER (sendCell c i) 0)
    ∗ (bigSep Finset.univ fun i : Fin 8 => reached ER (recvCell c i) 0)
    ∗ reached ER (barCell (peer c)) 0 ∗ (bigSep Finset.univ fun i : Fin 8 => reached ER (recvCell (peer c) i) 0))

instance reacheds_persistent (c : Dev nD) : BI.Persistent (reacheds (F := F) c) := by unfold reacheds; infer_instance

/-- Its positions at round 0 of its own cells, and the tokens of the duties IT pays: its partner's barrier duty, its
    partner's eight receive duties, its own eight send duties. -/
def linear (c : Dev nD) : sProp 𝕄 :=
  iprop(atPos ER (barCell c) 0 ∅ 0 ∗ (bigSep Finset.univ fun i : Fin 8 => atPos ER (sendCell c i) 0 ∅ 0)
    ∗ (bigSep Finset.univ fun i : Fin 8 => atPos ER (recvCell c i) 0 ∅ 0)
    ∗ dutyTok ER (barCell (peer c)) 0 () ∗ (bigSep Finset.univ fun i : Fin 8 => dutyTok ER (recvCell (peer c) i) 0 ())
    ∗ (bigSep Finset.univ fun i : Fin 8 => dutyTok ER (sendCell c i) 0 ()))

def ghost (c : Dev nD) : sProp 𝕄 := iprop(invs m K c ∗ reacheds c ∗ linear c)

/-- The four local semaphores, at zero, in the device's hand. -/
def localSems (c : Dev nD) : sProp 𝕄 :=
  iprop(semVal ((c : Thread nD τ), .dma lsemS) 0 ∗ semVal ((c : Thread nD τ), .dma loutS0) 0 ∗ semVal ((c : Thread nD τ), .dma loutS1) 0
    ∗ semVal ((c : Thread nD τ), .dma ssemS) 0)

/-- The credit on its own cells for what the partner owes them. -/
def creds (c : Dev nD) : sProp 𝕄 :=
  iprop(cred (tallyAt (barCell c) () 1) ∗ (bigSep Finset.univ fun i : Fin 8 => cred (tallyAt (recvCell c i) () N)))

/-- What device `c`'s body starts from, besides its buffers. -/
def start (c : Dev nD) : sProp 𝕄 :=
  iprop((∃ K, ghost m K c) ∗ localSems c ∗ creds c ∗ levAts L lv)

/-- The buffers: `x` as launched, the result and the two scratch buffers at whatever they hold. -/
def bufs₀ (c : Dev nD) : sProp 𝕄 :=
  iprop((((c : Thread nD τ).loc main_arg0) ↦{fullShare} xOf m c) ∗ (∃ f, ((c : Thread nD τ).loc main_v1) ↦{fullShare} f)
    ∗ (∃ f, ((c : Thread nD τ).loc cc0_scratch0) ↦{fullShare} f) ∗ (∃ f, ((c : Thread nD τ).loc cc0_scratch1) ↦{fullShare} f))
/-- At the end: `x` unchanged, the result at its final contents. -/
def bufs₁ (c : Dev nD) : sProp 𝕄 :=
  iprop((((c : Thread nD τ).loc main_arg0) ↦{fullShare} xOf m c) ∗ (((c : Thread nD τ).loc main_v1) ↦{fullShare} outC m c)
    ∗ (∃ f, ((c : Thread nD τ).loc cc0_scratch0) ↦{fullShare} f) ∗ (∃ f, ((c : Thread nD τ).loc cc0_scratch1) ↦{fullShare} f))

/-- Every scoped semaphore of the device back at zero: the four local ones, the eight send and the eight receive cells' (closed). -/
def sems₁ (c : Dev nD) : sProp 𝕄 :=
  iprop(localSems c ∗ (bigSep Finset.univ fun i : Fin 8 => semVal (sendCell c i) 0) ∗ (bigSep Finset.univ fun i : Fin 8 => semVal (recvCell c i) 0))

def Φ₀ (c : Dev nD) : sProp 𝕄 := iprop(start m c ∗ bufs₀ m c)
def Φ₁ (c : Dev nD) : sProp 𝕄 := iprop(bufs₁ m c ∗ sems₁ c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The body, from what a device holds at its start and what it owes, to what it holds at its end, owing nothing. -/
def BodySpec : Prop := ∀ (c : Dev nD) (Kt : PUnit → sProp 𝕄),
    iprop((Φ₀ m c ∗ (∃ W, owes (c : Thread nD τ) (O₀ c) W)) ∗ ((Φ₁ m c ∗ (∃ W, owes (c : Thread nD τ) 0 W)) -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6) Kt

end Cert.Kernel.A2A

end
-- ==== Proof.Kernel.Alloc.lean ====
/-
  The launch's ghost state: the protocol's cells funded for all devices at once, each device's own semaphores turned
  into its cells' invariants (the four local ones kept in hand), the duty tokens dealt to the devices that pay them,
  and the launch credit read as each device's credit on its own cells.
-/
import proofs.«900628_g7700000000000629_dist_a2a_v7x_xyz2x2x2_z_m16384_n1024_f32_1_alg».proof.Proof.Kernel.Ghost

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's own (scoped) semaphores, as the launch theorem indexes them: all twenty DMA semaphores. -/
abbrev osem : Fin 20 → SemLoc sig := fun q => .dma q

theorem ownSemFacts : Pipeline.OwnSemFacts cfg0.spec osem := by decide

/-! ## The protocol's cells and tokens -/

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's seventeen cells. -/
def ringCells : Finset (GSem nD τ sig) := Finset.univ.map ⟨kcell, kcell_injective⟩

/-- A cell's one duty token as minted: round 0, the one duty. -/
abbrev tokOf (ck : Dev nD × Fin 17) : GSem nD τ sig × ℕ × Unit := (kcell ck, 0, ())
theorem tokOf_injective : Function.Injective (tokOf : Dev nD × Fin 17 → GSem nD τ sig × ℕ × Unit) :=
  fun _ _ h => kcell_injective (congrArg Prod.fst h)
def ringToks : Finset (GSem nD τ sig × ℕ × Unit) := Finset.univ.map ⟨tokOf, tokOf_injective⟩

/-- The launch element: the pipeline library's copy, the protocol's cells and tokens, no counter. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 := bigSep Finset.univ fun k : Fin 17 => dutyTok ER (kcell (c, k)) 0 ()

/-- What the launch element deals device `c`. -/
def G (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ toks c)
/-- What the global step makes of it. -/
def G' (c : Dev nD) : sProp 𝕄 := iprop((∃ K, ghost m K c) ∗ localSems c)

/-! ## Seventeen cells: the barrier cell, eight send cells, eight receive cells -/

theorem kSend_injective : Function.Injective kSend := by decide
theorem kRecv_injective : Function.Injective kRecv := by decide

theorem univ17 : (Finset.univ : Finset (Fin 17))
    = insert kBar (Finset.univ.map ⟨kSend, kSend_injective⟩ ∪ Finset.univ.map ⟨kRecv, kRecv_injective⟩) := by decide

omit [FloatOps F] in
theorem bigSep_fin17 (Φ : Fin 17 → sProp 𝕄) :
    bigSep Finset.univ Φ = iprop(Φ kBar ∗ (bigSep Finset.univ fun i : Fin 8 => Φ (kSend i)) ∗ (bigSep Finset.univ fun i : Fin 8 => Φ (kRecv i))) := by
  rw [univ17, bigSep_insert (by decide), bigSep_union (by decide), bigSep_map, bigSep_map]
  rfl

omit [FloatOps F] in
/-- An assertion about each of a device's seventeen cells, by kind of cell. -/
theorem bigSep_cells (c : Dev nD) (Φ : GSem nD τ sig → sProp 𝕄) :
    (bigSep Finset.univ fun k : Fin 17 => Φ (kcell (c, k)))
      = iprop(Φ (barCell c) ∗ (bigSep Finset.univ fun i : Fin 8 => Φ (sendCell c i)) ∗ (bigSep Finset.univ fun i : Fin 8 => Φ (recvCell c i))) := by
  rw [bigSep_fin17, kcell_bar, funext fun i => congrArg Φ (kcell_send c i), funext fun i => congrArg Φ (kcell_recv c i)]

/-! ## Funding -/

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (own_pair_emb (EX (F := F)) _ _) $$ HX
  icases HX' with ⟨HR, -⟩
  imod (fund_ring m) $$ HR with HG
  imodintro
  isplitl [HP] <;> iassumption

/-! ## The semaphores at zero -/

theorem sendS_injective : Function.Injective sendS := by decide
theorem recvS_injective : Function.Injective recvS := by decide

theorem univ20 : (Finset.univ : Finset (Fin 20))
    = insert 0 (insert 1 (insert 2 (insert 3 (Finset.univ.map ⟨sendS, sendS_injective⟩ ∪ Finset.univ.map ⟨recvS, recvS_injective⟩)))) := by decide

omit [FloatOps F] in
/-- An assertion about each of the twenty DMA semaphores: the four local ones, the send array's, the receive array's. -/
theorem bigSep_fin20 (Φ : Fin 20 → sProp 𝕄) :
    bigSep Finset.univ Φ = iprop(Φ 0 ∗ Φ 1 ∗ Φ 2 ∗ Φ 3 ∗ (bigSep Finset.univ fun i : Fin 8 => Φ (sendS i)) ∗ (bigSep Finset.univ fun i : Fin 8 => Φ (recvS i))) := by
  rw [univ20, bigSep_insert (by decide), bigSep_insert (by decide), bigSep_insert (by decide), bigSep_insert (by decide), bigSep_union (by decide),
    bigSep_map, bigSep_map]
  rfl

omit [FloatOps F] in
/-- The device's own twenty semaphores: the four local ones, the eight send cells', the eight receive cells'. -/
theorem ownSems0_eq (c : Dev nD) : (Pipeline.ownSems0 (Ix := Unit) (Name := ℕ) (U := UU) (Lvl := ℕ) (Val := Elt F) (τ := τ) osem c : sProp 𝕄)
    = iprop(localSems c ∗ (bigSep Finset.univ fun i : Fin 8 => semVal (sendCell c i) 0) ∗ (bigSep Finset.univ fun i : Fin 8 => semVal (recvCell c i) 0)) := by
  unfold Pipeline.ownSems0 localSems
  rw [bigSep_fin20]
  refine BI.Entails.antisymm (show _ ⊢ (_ : sProp 𝕄) from ?_) (show _ ⊢ (_ : sProp 𝕄) from ?_)
  · iintro ⟨H0, H1, H2, H3, HS, HV⟩
    isplitl [H0 H1 H2 H3]
    · isplitl [H0]; · iexact H0
      isplitl [H1]; · iexact H1
      isplitl [H2]; · iexact H2
      iexact H3
    isplitl [HS]; · iexact HS
    iexact HV
  · iintro ⟨⟨H0, H1, H2, H3⟩, HS, HV⟩
    isplitl [H0]; · iexact H0
    isplitl [H1]; · iexact H1
    isplitl [H2]; · iexact H2
    isplitl [H3]; · iexact H3
    isplitl [HS]; · iexact HS
    iexact HV

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : Fin 17 => semVal (kcell (c, k)) 0) : sProp 𝕄) := by
  rw [ownSems0_eq, unscopedSems0_eq, bigSep_cells c (fun g => semVal g 0)]
  iintro ⟨⟨HL, HS, HV⟩, HB⟩
  isplitl [HL]; · iexact HL
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : Fin 17 => semVal (kcell (c, k)) 0) ∗ bigSep Finset.univ fun k : Fin 17 => roundState ER (sched m) (kcell (c, k)) 0)
      ⊢ (|={Set.univ}=> bigSep Finset.univ fun k : Fin 17 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## The records every device reads, and what stays with each -/

def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)

instance records_persistent (K : Dev nD × Fin 17 → ℕ) : BI.Persistent (records m K) := by unfold records; infer_instance

omit [FloatOps F] in
theorem inv_at (K : Dev nD × Fin 17 → ℕ) (ck : Dev nD × Fin 17) :
    (bigSep Finset.univ fun ck : Dev nD × Fin 17 => (cellInv ER (sched m) (K ck) (kcell ck) : sProp 𝕄)) ⊢ cellInv ER (sched m) (K ck) (kcell ck) :=
  bigSep_elim (Finset.mem_univ ck)
omit [FloatOps F] in
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

omit [FloatOps F] in
theorem inv_send (K : Dev nD × Fin 17 → ℕ) (c : Dev nD) (i : Fin 8) :
    (bigSep Finset.univ fun ck : Dev nD × Fin 17 => (cellInv ER (sched m) (K ck) (kcell ck) : sProp 𝕄)) ⊢ cellInv ER (sched m) (K (c, kSend i)) (sendCell c i) := by
  have h := inv_at m K (c, kSend i); rw [kcell_send] at h; exact h
omit [FloatOps F] in
theorem inv_recv (K : Dev nD × Fin 17 → ℕ) (c : Dev nD) (i : Fin 8) :
    (bigSep Finset.univ fun ck : Dev nD × Fin 17 => (cellInv ER (sched m) (K ck) (kcell ck) : sProp 𝕄)) ⊢ cellInv ER (sched m) (K (c, kRecv i)) (recvCell c i) := by
  have h := inv_at m K (c, kRecv i); rw [kcell_recv] at h; exact h
omit [FloatOps F] in
theorem reached_send (c : Dev nD) (i : Fin 8) :
    (bigSep Finset.univ fun ck : Dev nD × Fin 17 => (reached ER (kcell ck) 0 : sProp 𝕄)) ⊢ reached ER (sendCell c i) 0 := by
  have h := reached_at (F := F) (c, kSend i); rw [kcell_send] at h; exact h
omit [FloatOps F] in
theorem reached_recv (c : Dev nD) (i : Fin 8) :
    (bigSep Finset.univ fun ck : Dev nD × Fin 17 => (reached ER (kcell ck) 0 : sProp 𝕄)) ⊢ reached ER (recvCell c i) 0 := by
  have h := reached_at (F := F) (c, kRecv i); rw [kcell_recv] at h; exact h

omit [FloatOps F] in
theorem invs_intro (K : Dev nD × Fin 17 → ℕ) (c : Dev nD) : records m K ⊢ invs m K c := by
  unfold records invs
  iintro ⟨#HI, -⟩
  isplitr; · iapply (inv_at m K (c, kBar)); iexact HI
  isplitr; · iapply (bigSep_intro_persistent fun i _ => inv_send m K c i); iexact HI
  isplitr; · iapply (bigSep_intro_persistent fun i _ => inv_recv m K c i); iexact HI
  isplitr; · iapply (inv_at m K (peer c, kBar)); iexact HI
  iapply (bigSep_intro_persistent fun i _ => inv_recv m K (peer c) i); iexact HI

omit [FloatOps F] in
theorem reacheds_intro (K : Dev nD × Fin 17 → ℕ) (c : Dev nD) : records m K ⊢ reacheds c := by
  unfold records reacheds
  iintro ⟨-, #HR⟩
  isplitr; · iapply (reached_at (F := F) (c, kBar)); iexact HR
  isplitr; · iapply (bigSep_intro_persistent fun i _ => reached_send (F := F) c i); iexact HR
  isplitr; · iapply (bigSep_intro_persistent fun i _ => reached_recv (F := F) c i); iexact HR
  isplitr; · iapply (reached_at (F := F) (peer c, kBar)); iexact HR
  iapply (bigSep_intro_persistent fun i _ => reached_recv (F := F) (peer c) i); iexact HR

/-- The tokens of the duties device `c` pays: its partner's barrier duty, its partner's eight receive duties, its own
    eight send duties. -/
def payToks (c : Dev nD) : sProp 𝕄 :=
  iprop(dutyTok ER (barCell (peer c)) 0 () ∗ (bigSep Finset.univ fun i : Fin 8 => dutyTok ER (recvCell (peer c) i) 0 ())
    ∗ (bigSep Finset.univ fun i : Fin 8 => dutyTok ER (sendCell c i) 0 ()))

omit [FloatOps F] in
/-- A device's positions on its seventeen cells and the tokens it pays with are its linear ghost state. -/
theorem deal (c : Dev nD) :
    iprop((bigSep Finset.univ fun k : Fin 17 => atPos ER (kcell (c, k)) 0 ∅ 0) ∗ payToks c ∗ localSems c) ⊢ (iprop(linear c ∗ localSems c) : sProp 𝕄) := by
  rw [bigSep_cells c (fun g => atPos ER g 0 ∅ 0)]
  unfold linear payToks
  iintro ⟨⟨HaB, HaS, HaV⟩, ⟨HtB, HtV, HtS⟩, HL⟩
  isplitr [HL]
  · isplitl [HaB]; · iexact HaB
    isplitl [HaS]; · iexact HaS
    isplitl [HaV]; · iexact HaV
    isplitl [HtB]; · iexact HtB
    isplitl [HtV] <;> iassumption
  · iexact HL

omit [FloatOps F] in
theorem ghost_intro (K : Dev nD × Fin 17 → ℕ) (c : Dev nD) : iprop(records m K ∗ linear c ∗ localSems c) ⊢ G' m c := by
  unfold G' ghost
  iintro ⟨#HR, HL, HS⟩
  isplitl [HL]
  · iexists K
    isplitr; · iapply (invs_intro m K c); iexact HR
    isplitr; · iapply (reacheds_intro m K c); iexact HR
    iexact HL
  · iexact HS

/-- The partner map as a permutation of the devices. -/
def pair : Dev nD ≃ Dev nD := ⟨peer, peer, peer_peer, peer_peer⟩

omit [FloatOps F] in
/-- The tokens dealt across each pair: a barrier cell's token and the eight receive cells' tokens go to the partner, the
    eight send cells' tokens stay. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_cells c (fun g => (dutyTok ER g 0 () : sProp 𝕄))),
    bigSep_sep', bigSep_sep', bigSep_sep', bigSep_sep',
    bigSep_univ_equiv pair (fun c : Dev nD => (dutyTok ER (barCell c) 0 () : sProp 𝕄)),
    bigSep_univ_equiv pair (fun c : Dev nD => (bigSep Finset.univ fun i : Fin 8 => dutyTok ER (recvCell c i) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem deal_all :
    iprop((bigSep Finset.univ fun c : Dev nD => bigSep Finset.univ fun k : Fin 17 => (atPos ER (kcell (c, k)) 0 ∅ 0 : sProp 𝕄))
        ∗ (bigSep Finset.univ fun c : Dev nD => payToks c) ∗ (bigSep Finset.univ fun c : Dev nD => localSems c))
      ⊢ (bigSep Finset.univ fun c : Dev nD => iprop(linear c ∗ localSems c) : sProp 𝕄) := by
  rw [← bigSep_sep', ← bigSep_sep']; exact bigSep_mono fun c _ => deal c

omit [FloatOps F] in
theorem regroup :
    (bigSep Finset.univ fun c : Dev nD => iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 17 => iprop(∃ κ : ℕ, cellInv ER (sched m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok, HLs⟩
  ihave HK := (BI.bigSep_exists_pi Finset.univ (fun (ck : Dev nD × Fin 17) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (deal_all (F := F))
    isplitl [Hat]; · iexact Hat
    isplitl [Htk] <;> iassumption

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes its partner's receive cells at launch, as a sum over the chunks. -/
theorem owedFrom_zero (d : Dev nD) : owedFrom d 0 = ∑ i : Fin 8, tRecv d i := by
  rw [Fin.sum_univ_eight]
  show 0 + tRecv d 7 + tRecv d 6 + tRecv d 5 + tRecv d 4 + tRecv d 3 + tRecv d 2 + tRecv d 1 + tRecv d 0 = _
  abel

omit [FloatOps F] in
/-- The receive credit every device owes its partner, read at device `c`'s own receive cells. -/
theorem recv_creds (c : Dev nD) :
    (bigSep Finset.univ fun i : Fin 8 => Pipeline.launchCred (fun d => tRecv d i) c : sProp 𝕄)
      ⊢ bigSep Finset.univ fun i : Fin 8 => cred (tallyAt (recvCell c i) () N) :=
  bigSep_mono fun i _ => Pipeline.launchCred_tallyAt (.dma (recvS i)) peer peer peer_peer peer_peer () N c

omit [FloatOps F] in
/-- The launch credit of device `c`: one unit on its barrier cell and a block's credit on each of its receive cells. -/
theorem creds_of_launch (c : Dev nD) : (Pipeline.launchCred O₀ c : sProp 𝕄) ⊢ creds c := by
  rw [show (O₀ : Dev nD → CellTallies nD τ sig Unit) = fun d => (∑ i : Fin 8, tRecv d i) + tallyAt (barCell (peer d)) () 1 from
      funext fun d => by rw [← owedFrom_zero]; rfl,
    Pipeline.launchCred_add, Pipeline.launchCred_sum]
  unfold creds
  iintro ⟨HR, HB⟩
  isplitl [HB]
  · iapply (Pipeline.launchCred_tallyAt (.reg barS) peer peer peer_peer peer_peer () 1 c); iexact HB
  · iapply (recv_creds (F := F) c); iexact HR

/-- info: 'Cert.Kernel.A2A.fund_all' depends on axioms: [propext, Classical.choice, Quot.sound] -/
#guard_msgs in #print axioms fund_all
/-- info: 'Cert.Kernel.A2A.glob' depends on axioms: [propext, Classical.choice, Quot.sound] -/
#guard_msgs in #print axioms glob
/-- info: 'Cert.Kernel.A2A.creds_of_launch' depends on axioms: [propext, Classical.choice, Quot.sound] -/
#guard_msgs in #print axioms creds_of_launch

end Cert.Kernel.A2A

end
-- ==== Proof.Kernel.Launch.lean ====
/-
  The launch: from the body's specification on one device to the run of the whole mesh. The region has one point and no
  window; a device enters it with the protocol's start, its rows of `x` and its result, and leaves it with `x` unchanged,
  the result at its final contents and its twenty semaphores back at zero; the final memory is read off those two arrays.
-/
import proofs.«900628_g7700000000000629_dist_a2a_v7x_xyz2x2x2_z_m16384_n1024_f32_1_alg».proof.Proof.Kernel.Alloc

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The library's body obligation on device `c`, from the body's own specification: the region has one point and no
    window, so the obligation is the specification with the bound on the recorded waits dropped and restored. -/
theorem body_obligation (hbody : BodySpec m) (c : Dev nD) :
    BodyObligation (dats (F := F) m 0 c) (defs₀ (F := F)) 𝒱₀ () Set.univ := fun t => by
  rw [fin_N t]
  refine BIBase.Entails.trans ?_ (hbody c _)
  unfold Dat.owesAt Pipeline.owesWithin
  rw [show (dats m 0 c).Φ t₀.castSucc = Φ₀ m c from rfl, show (dats m 0 c).Φ t₀.succ = Φ₁ m c from rfl,
    show (dats m 0 c).owed t₀.castSucc = O₀ c from rfl, show (dats m 0 c).owed t₀.succ = 0 from rfl]
  iintro ⟨HΦ, ⟨%W, -, HO⟩, -⟩
  isplitl [HΦ HO]
  · isplitl [HΦ]; · iexact HΦ
    iexists W; iexact HO
  · iintro ⟨HΦ1, %W1, HO1⟩
    isplitl [HΦ1]; · iexact HΦ1
    isplitl [HO1]
    · iexists W1
      isplitr; · ipureintro; exact fun _ _ => Or.inl trivial
      iexact HO1
    · rw [Finset.univ_eq_empty, bigSep_empty]; iempintro

/-! ## What a device holds around its region -/

/-- Entering the region: the protocol's start, its rows of `x` as launched, its result at whatever it holds. -/
def X (c : Dev nD) : sProp 𝕄 :=
  iprop(start m c ∗ (((c : Thread nD τ).loc main_arg0) ↦{fullShare} xOf m c) ∗ (∃ f, ((c : Thread nD τ).loc main_v1) ↦{fullShare} f))
/-- Leaving it: its rows of `x` unchanged, its result at its final contents. -/
def Y (c : Dev nD) : sProp 𝕄 :=
  iprop((((c : Thread nD τ).loc main_arg0) ↦{fullShare} xOf m c) ∗ (((c : Thread nD τ).loc main_v1) ↦{fullShare} outC m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds_of_launch (F := F) c) $$ Hcr
  imodintro
  unfold X start G' xOf
  icases HG with ⟨HK, Hls⟩
  isplitl
  · isplitl [HK Hls Hc Hlev]
    · isplitl [HK]; · iexact HK
      isplitl [Hls]; · iexact Hls
      isplitl [Hc]; · iexact Hc
      iexact Hlev
    · isplitl [Hx]; · iexact Hx
      iexists _; iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X bufs₀
  iintro ⟨⟨Hs, Hx, Ho⟩, -, Hs0, Hs1⟩
  isplitl [Hs]; · iexact Hs
  isplitl [Hx]; · iexact Hx
  isplitl [Ho]; · iexact Ho
  isplitl [Hs0]; · iexact Hs0
  iexact Hs1

theorem waits (c : Dev nD) : (levAts L lv : sProp 𝕄) ⊢ Pipeline.cellsWaits cfgs (dats m) () 0 c :=
  Pipeline.cellsWaits_intro cfgs (dats m) () 0 c fun w s t => w.elim0

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ bufs₁ sems₁ Y
  iintro ⟨⟨Hx, Ho, Hs0, Hs1⟩, Hsems⟩
  isplitl [Hx Ho]
  · isplitl [Hx]; · iexact Hx
    iexact Ho
  isplitl [Hsems]; · iexact Hsems
  isplitl [Hs0]; · iexact Hs0
  iexact Hs1

/-! ## The run -/

set_option maxRecDepth 8000 in
/-- At the compiled mesh of eight devices, for any float values, from any memory with zero counters, given the body's
    specification: every weakly fair execution of @main — each device signalling its partner, exchanging the eight
    chunks with it and copying its own — ends, and every final state has each device's result at `outC` and its rows
    of `x` as launched. -/
theorem run_of_body (hbody : BodySpec m) :
    θ_run defs (onTc (τ := τ) (main (F := F))) ⟨m, fun _ => 0, ρ⟩
      (fun r => ∀ c : Dev nD, r.2.mem ((c.tc : Thread nD τ).loc main_v1) = outC m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c.tc : Thread nD τ).loc main_v1) = outC m c
      ∧ s.mem ((c.tc : Thread nD τ).loc main_arg0) = m ((c.tc : Thread nD τ).loc main_arg0))
    (hY := fun c s' => by
      unfold Y xOf
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

end Cert.Kernel.A2A

end
-- ==== Proof.Kernel.Value.lean ====
/-
  What the copies leave in the result, index by index: a block written from the rows of `x` a device keeps, and a
  block written from the rows its partner sends, hold on their own elements what the result holds there in the end.
-/
import proofs.«900628_g7700000000000629_dist_a2a_v7x_xyz2x2x2_z_m16384_n1024_f32_1_alg».proof.Proof.Kernel.Base

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A statement about every element under a view follows from the statement at the image of every index. -/
theorem forall_mem_set_of_emb {κ : Kind} {sp : Space} {s : Shape} {e : EltTy} (v : View sig κ sp s e) (P : v.ty.Idx → Prop)
    (h : ∀ y : s.Idx, P (v.emb y)) : ∀ i ∈ v.set, P i := by
  intro i hi
  obtain ⟨y, rfl⟩ := View.exists_emb_of_mem_set v hi
  exact h y

/-- Where an index of a block of the result sits in the result: the block's offset plus the index. -/
theorem oSl_emb_val (o : Fin 2 → Nat) (h : ∀ a, o a + S2048x1024.size a ≤ S32768x1024.size a) (y : S2048x1024.Idx) (a : Fin 2) :
    (((oSl o h).view.emb y) a).val = o a + 1 * (y a).val := rfl

/-- Where an index of a block of `x` sits in `x`. -/
theorem xSl_emb_val (o : Fin 2 → Nat) (h : ∀ a, o a + S2048x1024.size a ≤ S16384x2048.size a) (y : S2048x1024.Idx) (a : Fin 2) :
    (((xSl o h).view.emb y) a).val = o a + 1 * (y a).val := rfl

omit [FloatOps F] in
/-- A block of the result written, on every index, with a block read from contents `X` of `x`'s type holds at the
    place of index `y` what `X` holds at the place of `y` in the block read. -/
theorem write_read_emb (oo ox : Fin 2 → Nat) (ho : ∀ a, oo a + S2048x1024.size a ≤ S32768x1024.size a)
    (hx : ∀ a, ox a + S2048x1024.size a ≤ S16384x2048.size a) (c d : Dev nD)
    (fd : Buf (Elt F) ((c : Thread nD τ).loc main_v1)) (X : Buf (Elt F) ((d : Thread nD τ).loc main_arg0)) (y : S2048x1024.Idx) :
    (oSl oo ho).view.write (Elt F) fd ((xSl ox hx).view.read (Elt F) X) Finset.univ ((oSl oo ho).view.emb y)
      = X ((xSl ox hx).view.emb y) := by
  rw [View.write_emb_of_mem _ _ (Finset.mem_univ _), View.read_apply]
  rfl

omit [FloatOps F] in
/-- The result at a row of the device's own half: its own `x` at the row's offset in the half, in its own column half. -/
theorem outC_own (c : Dev nD) (j : S32768x1024.Idx) (k : S16384x2048.Idx)
    (h0 : (j 0).val / 16384 = zc c) (hr : (k 0).val = (j 0).val % 16384) (hc : (k 1).val = 1024 * zc c + (j 1).val) :
    outC m c j = xOf m c k := by
  unfold outC
  rw [if_pos h0]
  congr 1
  funext a
  match a with
  | ⟨0, _⟩ => exact Fin.ext hr.symm
  | ⟨1, _⟩ => exact Fin.ext hc.symm

omit [FloatOps F] in
/-- The result at a row of the other half: the partner's `x` at the row's offset in that half, in this device's column half. -/
theorem outC_other (c : Dev nD) (j : S32768x1024.Idx) (k : S16384x2048.Idx)
    (h0 : (j 0).val / 16384 ≠ zc c) (hr : (k 0).val = (j 0).val % 16384) (hc : (k 1).val = 1024 * zc c + (j 1).val) :
    outC m c j = xOf m (peer c) k := by
  unfold outC
  rw [if_neg h0]
  congr 1
  funext a
  match a with
  | ⟨0, _⟩ => exact Fin.ext hr.symm
  | ⟨1, _⟩ => exact Fin.ext hc.symm

omit [FloatOps F] in
/-- The kept chunk over abstract offsets: rows `16384 z + 2048 i` on of the result, from rows `2048 i` on and columns
    `1024 z` on of the device's own `x`. -/
theorem keep_piece_at (c : Dev nD) (i : Fin 8) (oo ox : Fin 2 → Nat)
    (ho : ∀ a, oo a + S2048x1024.size a ≤ S32768x1024.size a) (hx : ∀ a, ox a + S2048x1024.size a ≤ S16384x2048.size a)
    (eo : oo = ![16384 * zc c + 2048 * i.val, 0]) (ex : ox = ![2048 * i.val, 1024 * zc c])
    (fd : Buf (Elt F) ((c : Thread nD τ).loc main_v1)) :
    ∀ idx ∈ (oSl oo ho).view.set,
      (oSl oo ho).view.write (Elt F) fd ((xSl ox hx).view.read (Elt F) (xOf m c)) Finset.univ idx = outC m c idx := by
  refine forall_mem_set_of_emb _ _ fun y => ?_
  rw [write_read_emb]
  have hz := zc_lt c
  have hi : i.val < 8 := i.isLt
  have y0 : (y 0).val < 2048 := (y 0).isLt
  have y1 : (y 1).val < 1024 := (y 1).isLt
  have o0 := oSl_emb_val oo ho y 0
  have o1 := oSl_emb_val oo ho y 1
  have x0 := xSl_emb_val ox hx y 0
  have x1 := xSl_emb_val ox hx y 1
  subst eo ex
  refine (outC_own m c _ _ ?_ ?_ ?_).symm
  · rw [o0]; show (16384 * zc c + 2048 * i.val + 1 * (y 0).val) / 16384 = zc c; omega
  · rw [o0, x0]; show 2048 * i.val + 1 * (y 0).val = (16384 * zc c + 2048 * i.val + 1 * (y 0).val) % 16384; omega
  · rw [o1, x1]; show 1024 * zc c + 1 * (y 1).val = 1024 * zc c + (0 + 1 * (y 1).val); omega

omit [FloatOps F] in
/-- The received chunk over abstract offsets: rows `16384 (1 - z) + 2048 i` on of the result, from rows `2048 i` on and
    columns `1024 z` on of the partner's `x` (the partner's position is `1 - z`, the column half it sends `1 - (1 - z)`). -/
theorem recv_piece_at (c : Dev nD) (i : Fin 8) (oo ox : Fin 2 → Nat)
    (ho : ∀ a, oo a + S2048x1024.size a ≤ S32768x1024.size a) (hx : ∀ a, ox a + S2048x1024.size a ≤ S16384x2048.size a)
    (eo : oo = ![16384 * zc (peer c) + 2048 * i.val, 0]) (ex : ox = ![2048 * i.val, 1024 - 1024 * zc (peer c)])
    (fd : Buf (Elt F) ((c : Thread nD τ).loc main_v1)) :
    ∀ idx ∈ (oSl oo ho).view.set,
      (oSl oo ho).view.write (Elt F) fd ((xSl ox hx).view.read (Elt F) (xOf m (peer c))) Finset.univ idx = outC m c idx := by
  refine forall_mem_set_of_emb _ _ fun y => ?_
  rw [write_read_emb]
  have hz := zc_lt c
  have hp := zc_peer c
  have hi : i.val < 8 := i.isLt
  have y0 : (y 0).val < 2048 := (y 0).isLt
  have y1 : (y 1).val < 1024 := (y 1).isLt
  have o0 := oSl_emb_val oo ho y 0
  have o1 := oSl_emb_val oo ho y 1
  have x0 := xSl_emb_val ox hx y 0
  have x1 := xSl_emb_val ox hx y 1
  subst eo ex
  refine (outC_other m c _ _ ?_ ?_ ?_).symm
  · rw [o0]; show (16384 * zc (peer c) + 2048 * i.val + 1 * (y 0).val) / 16384 ≠ zc c; omega
  · rw [o0, x0]; show 2048 * i.val + 1 * (y 0).val = (16384 * zc (peer c) + 2048 * i.val + 1 * (y 0).val) % 16384; omega
  · rw [o1, x1]; show 1024 - 1024 * zc (peer c) + 1 * (y 1).val = 1024 * zc c + (0 + 1 * (y 1).val); omega

omit [FloatOps F] in
/-- Chunk `i` of the column half that stays, written to the device's own rows `16384 z + 2048 i` on. -/
theorem keep_piece (c : Dev nD) (i : Fin 8) (fd : Buf (Elt F) ((c : Thread nD τ).loc main_v1)) :
    ∀ idx ∈ (oRows c i).view.set,
      (oRows c i).view.write (Elt F) fd ((xKeep c i).view.read (Elt F) (xOf m c)) Finset.univ idx = outC m c idx :=
  keep_piece_at m c i _ _ _ _ (outOff_eq c i) (keepOff_eq c i) fd

omit [FloatOps F] in
/-- Chunk `i` of the column half the partner sends, written to rows `16384 (1 - z) + 2048 i` on. -/
theorem recv_piece (c : Dev nD) (i : Fin 8) (fd : Buf (Elt F) ((c : Thread nD τ).loc main_v1)) :
    ∀ idx ∈ (oRows (peer c) i).view.set,
      (oRows (peer c) i).view.write (Elt F) fd ((xSend (peer c) i).view.read (Elt F) (xOf m (peer c))) Finset.univ idx = outC m c idx :=
  recv_piece_at m c i _ _ _ _ (outOff_eq (peer c) i) (sendOff_eq (peer c) i) fd

/-- info: 'Cert.Kernel.A2A.keep_piece' depends on axioms: [propext, Classical.choice, Quot.sound] -/
#guard_msgs in #print axioms keep_piece
/-- info: 'Cert.Kernel.A2A.recv_piece' depends on axioms: [propext, Classical.choice, Quot.sound] -/
#guard_msgs in #print axioms recv_piece

end Cert.Kernel.A2A

end
-- ==== Proof.Kernel.Body.lean ====
/-
  The rules the body is stepped with, at the exchange's schedule: a local copy issued and awaited by the device
  itself on a semaphore it holds at zero; the entry signal and its wait; a chunk's transfer to the partner; the waits
  on a send cell and on a receive cell.
-/
import proofs.«900628_g7700000000000629_dist_a2a_v7x_xyz2x2x2_z_m16384_n1024_f32_1_alg».proof.Proof.Kernel.Ghost
import proofs.«900628_g7700000000000629_dist_a2a_v7x_xyz2x2x2_z_m16384_n1024_f32_1_alg».proof.Proof.Kernel.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 17 → ℕ)

omit [FloatOps F] in
/-- The block a device sends, written into its partner's rows, is what the PARTNER's result holds there in the end. -/
theorem sent_piece (c : Dev nD) (i : Fin 8) (fd : Buf (Elt F) ((peer c : Thread nD τ).loc main_v1)) :
    ∀ idx ∈ (oRows c i).view.set,
      (oRows c i).view.write (Elt F) fd ((xSend c i).view.read (Elt F) (xOf m c)) Finset.univ idx = outC m (peer c) idx := by
  have h := recv_piece m (peer c) i fd
  rw [peer_peer] at h
  exact h

section Steps

/-- A local copy issued on a semaphore the device holds at zero: source and destination go into the flight. -/
theorem issue_local {α : Type} {Q : α → sProp 𝕄} {k : PUnit → Prog (TpuEff nD τ sig (Elt F) Λ₀ .tc) α} {sp sp' : Space} (c : Dev nD) {src : Memref sig (c : Thread nD τ).2.kind sp S2048x1024 .f32} {dst : Memref sig (c : Thread nD τ).2.kind sp' S2048x1024 .f32} {q : DmaSem sig}
    {hsrc : src.view.WordExact} {hdst : dst.view.WordExact} {hsem : DmaTarget.Typed (nD := nD) sp (.dma q) (.here dst)}
    (fs : Buf (Elt F) (src.view.loc (c : Thread nD τ))) (fd : Buf (Elt F) (dst.view.loc (c : Thread nD τ))) :
    iprop((src.view.loc (c : Thread nD τ) ↦[src.view.set]{fullShare} fs) ∗ (dst.view.loc (c : Thread nD τ) ↦[dst.view.set]{fullShare} fd) ∗ semVal ((c : Thread nD τ), .dma q) 0)
      ⊢ iprop((Transfers.Flight EC (c : Thread nD τ) (.dma q) () N
                iprop((dst.view.loc (c : Thread nD τ) ↦[dst.view.set]{fullShare} (dst.view.write (Elt F) fd (src.view.read (Elt F) fs) Finset.univ))
                  ∗ (src.view.loc (c : Thread nD τ) ↦[src.view.set]{fullShare} fs))
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) hsrc hdst hsem) k) Q) :=
  Transfers.wp_dmaLocal EC 𝒱₀ (c : Thread nD τ) none (src := src) (via := .same) (dst := dst) (sm := .dma q) (q := fullShare) (fs := fs) (Sd := dst.view.set) (fd := fd)
    () N rfl N_pos (Finset.Subset.refl _)

/-- Its wait, by a device that owes receive credit only: what the copy delivers, and the semaphore at zero again. -/
theorem wait_local {α : Type} {Q : α → sProp 𝕄} {k : PUnit → Prog (TpuEff nD τ sig (Elt F) Λ₀ .tc) α} {sp sp' : Space} {κ' : Kind} {s' : Shape} {e' : EltTy} (c : Dev nD) {q : DmaSem sig} (hq : lv ((c : Thread nD τ), .dma q) () < 2) (n : ℕ)
    {srcw : Memref sig (c : Thread nD τ).2.kind sp' s' e'} {dstw : Memref sig κ' sp S2048x1024 .f32} {hsrc : srcw.view.WordExact} {hdst : dstw.view.WordExact}
    (hN : dstw.view.dmaCredit = N) {D : sProp 𝕄} {W : Waits sig Unit} :
    iprop(Transfers.Flight EC (c : Thread nD τ) (.dma q) () N D ∗ owes (c : Thread nD τ) (owedFrom c n) W ∗ levAts L lv)
      ⊢ iprop((iprop(D ∗ semVal ((c : Thread nD τ), .dma q) 0 ∗ owes (c : Thread nD τ) (owedFrom c n) (insert (SemLoc.dma q, ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  iintro ⟨HF, HO, #Hlev⟩
  iapply (Transfers.wp_waitLocalO EC 𝒱₀ (c : Thread nD τ) none () hN)
  isplitl [HF]; · iexact HF
  isplitl [HO]; · iexact HO
  iapply (mayWait_low c (.dma q) hq n); iexact Hlev

/-- The wait for the partner's entry signal, owing receive credit only: the partner's eight row blocks come with it. -/
theorem wait_bar {α : Type} {Q : α → sProp 𝕄} {k : PUnit → Prog (TpuEff nD τ sig (Elt F) Λ₀ .tc) α} (c : Dev nD) {k' : ℕ} (hk' : k' = 1) {W : Waits sig Unit} :
    iprop(cellInv ER (sched m) (K (c, kBar)) (barCell c) ∗ cred (tallyAt (barCell c) () 1) ∗ owes (c : Thread nD τ) (owedFrom c 0) W
        ∗ levAts L lv ∗ atPos ER (barCell c) 0 ∅ 0)
      ⊢ iprop(((owes (c : Thread nD τ) (owedFrom c 0) (insert (SemLoc.reg barS, ()) W) ∗ atPos ER (barCell c) 1 ∅ 0 ∗ barPay c)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  iintro ⟨#HI, Hc, HO, #Hlev, Hat⟩ Hk
  iapply (Rounds.wp_wait_rest_token 𝒱₀ ER (sched m) (c : Thread nD τ) none (κ := K (c, kBar))
      (wpE_semWait_eq 𝒱₀ (c : Thread nD τ) none Set.univ) (Set.mem_univ _) () (O := owedFrom c 0) (W := W) (R := 0) (m := 0) (T := ∅)
      (by rw [Nat.zero_add, expect_bar, hk'])) $$ [Hc HO Hat]
  · isplitr; · iexact HI
    isplitl [Hc]; · rw [hk']; iexact Hc
    isplitl [HO]; · iexact HO
    isplitr; · iapply (mayWait_low c (.reg barS) (by show (1 : ℕ) < 2; decide) 0); iexact Hlev
    iexact Hat
  iintro ⟨HO, Hat, -, Hpay⟩
  iapply Hk
  isplitl [HO]; · iexact HO
  isplitl [Hat]; · iexact Hat
  iapply (Entails.of_eq (rest_bar m c)); iexact Hpay

/-- Chunk `i`'s transfer to the partner `p`: the slot of the send buffer (holding the block) goes to the send cell, the
    partner's rows to the partner's receive cell, at what the partner's result holds there in the end. -/
theorem send_chunk {α : Type} {Q : α → sProp 𝕄} {k : PUnit → Prog (TpuEff nD τ sig (Elt F) Λ₀ .tc) α} (c : Dev nD) (i : Fin 8) (n n' : ℕ) (hO : owedFrom c n = owedFrom c n' + tRecv c i) (p : Dev nD) (hp : p = peer c)
    {hsc : ((oRows c i) : Memref sig (Dev.tc p : Thread nD τ).2.kind .hbm S2048x1024 .f32).view.ref.isScScratch = false}
    {hsrc : (slotOf sM i).view.WordExact} {hdst : (oRows c i).view.WordExact}
    {hsem : DmaTarget.Typed .vmem (.dma (recvS i)) (.remote (Dev.tc p : Thread nD τ) (oRows c i) (.dma (sendS i)) hsc)}
    (f0 : Buf (Elt F) ((c : Thread nD τ).loc cc0_scratch1)) (fd : Buf (Elt F) ((peer c : Thread nD τ).loc main_v1))
    {W : Waits sig Unit} :
    iprop(cellInv ER (sched m) (K (c, kSend i)) (sendCell c i) ∗ cellInv ER (sched m) (K (peer c, kRecv i)) (recvCell (peer c) i)
        ∗ pts c (slotOf sM i) ((slotOf sM i).view.write (Elt F) f0 ((xSend c i).view.read (Elt F) (xOf m c)) Finset.univ) ∗ pts (peer c) (oRows c i) fd
        ∗ owes (c : Thread nD τ) (owedFrom c n) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) (owedFrom c n') W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotOf sM i) (.remote (Dev.tc p : Thread nD τ) (oRows c i) (.dma (sendS i)) hsc) (.dma (recvS i)) hsrc hdst hsem) k) Q) := by
  subst hp
  exact Rounds.wp_send_pointsTo 𝒱₀ ER (sched m) (c : Thread nD τ) none (c' := (Dev.tc (peer c) : Thread nD τ)) (src := slotOf sM i) (dst := oRows c i)
    (sS := .dma (sendS i)) (sem := .dma (recvS i)) (q := fullShare) (κ₁ := K (c, kSend i)) (κ₂ := K (peer c, kRecv i))
    (fs := (slotOf sM i).view.write (Elt F) f0 ((xSend c i).view.read (Elt F) (xOf m c)) Finset.univ)
    (r₁ := 0) (r₂ := 0) (d₁ := ()) (d₂ := ()) (fd := fd)
    (by rw [duties_send]; exact Finset.mem_singleton_self _) (by rw [duties_recv]; exact Finset.mem_singleton_self _)
    () () N rfl (amount_send m c i ()) (amount_recv m (peer c) i ()) (owedFrom c n') hO (W := W)
    (by rw [payload_send]; unfold sendPay; iintro H; iexists _; iexact H)
    (by rw [payload_recv]; unfold recvPay pts; rw [View.read_write_univ, pointsTo_congr (sent_piece m c i fd), peer_peer])

/-- The wait on a send cell: the slot of the send buffer back. -/
theorem wait_send {α : Type} {Q : α → sProp 𝕄} {k : PUnit → Prog (TpuEff nD τ sig (Elt F) Λ₀ .tc) α} (c : Dev nD) (i : Fin 8) (n : ℕ) {sp sp' : Space} {κ' : Kind} {s' : Shape} {e' : EltTy}
    {srcw : Memref sig (c : Thread nD τ).2.kind sp' s' e'} {dstw : Memref sig κ' sp S2048x1024 .f32} {hsrc : srcw.view.WordExact} {hdst : dstw.view.WordExact}
    (hN : dstw.view.dmaCredit = N) {W : Waits sig Unit} :
    iprop(cellInv ER (sched m) (K (c, kSend i)) (sendCell c i) ∗ cred (tallyAt (sendCell c i) () N) ∗ owes (c : Thread nD τ) (owedFrom c n) W
        ∗ levAts L lv ∗ atPos ER (sendCell c i) 0 ∅ 0)
      ⊢ iprop(((owes (c : Thread nD τ) (owedFrom c n) (insert (SemLoc.dma (sendS i), ()) W) ∗ atPos ER (sendCell c i) 1 ∅ 0 ∗ sendPay c i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) srcw dstw hsrc hdst) k) Q) := by
  iintro ⟨#HI, Hc, HO, #Hlev, Hat⟩ Hk
  iapply (Rounds.wp_wait_rest_token 𝒱₀ ER (sched m) (c : Thread nD τ) none (κ := K (c, kSend i))
      (wpE_waitDma2_eq 𝒱₀ (c : Thread nD τ) none Set.univ) (Set.mem_univ _) () (O := owedFrom c n) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · iapply (mayWait_low c (.dma (sendS i)) (by show (if 12 ≤ i.val + 4 then 2 else 0) < 2; rw [if_neg (by have := i.isLt; omega)]; decide) n); iexact Hlev
    iexact Hat
  iintro ⟨HO, Hat, -, Hpay⟩
  iapply Hk
  isplitl [HO]; · iexact HO
  isplitl [Hat]; · iexact Hat
  iapply (Entails.of_eq (rest_send m c i)); iexact Hpay

/-- The wait on a receive cell, by a device that owes nothing any more: the rows its partner wrote. -/
theorem wait_recv {α : Type} {Q : α → sProp 𝕄} {k : PUnit → Prog (TpuEff nD τ sig (Elt F) Λ₀ .tc) α} (c : Dev nD) (i : Fin 8) {sp sp' : Space} {κ' : Kind} {s' : Shape} {e' : EltTy}
    {srcw : Memref sig (c : Thread nD τ).2.kind sp' s' e'} {dstw : Memref sig κ' sp S2048x1024 .f32} {hsrc : srcw.view.WordExact} {hdst : dstw.view.WordExact}
    (hN : dstw.view.dmaCredit = N) {W : Waits sig Unit} :
    iprop(cellInv ER (sched m) (K (c, kRecv i)) (recvCell c i) ∗ cred (tallyAt (recvCell c i) () N) ∗ owes (c : Thread nD τ) 0 W
        ∗ atPos ER (recvCell c i) 0 ∅ 0)
      ⊢ iprop(((owes (c : Thread nD τ) 0 (insert (SemLoc.dma (recvS i), ()) W) ∗ atPos ER (recvCell c i) 1 ∅ 0 ∗ recvPay m c i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) srcw dstw hsrc hdst) k) Q) := by
  iintro ⟨#HI, Hc, HO, Hat⟩ Hk
  iapply (Rounds.wp_wait_rest_token 𝒱₀ ER (sched m) (c : Thread nD τ) none (κ := K (c, kRecv i))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c i)); iexact Hpay

/-- The entry signal: the device hands its partner the eight row blocks of its own result that the partner fills. -/
theorem signal_bar {α : Type} {Q : α → sProp 𝕄} {k : PUnit → Prog (TpuEff nD τ sig (Elt F) Λ₀ .tc) α} (c : Dev nD) {k' : ℕ} (hk' : 1 = k') {W : Waits sig Unit} :
    iprop(cellInv ER (sched m) (K (peer c, kBar)) (barCell (peer c)) ∗ owes (c : Thread nD τ) (O₀ c) W ∗ dutyTok ER (barCell (peer c)) 0 ()
        ∗ barPay (peer c) ∗ reached ER (barCell (peer c)) 0)
      ⊢ iprop((owes (c : Thread nD τ) (owedFrom c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c : Thread nD τ) barS k') k) Q) := by
  subst hk'
  have hr : τ.routes (c : Thread nD τ) (peer c : Thread nD τ) = true := by routes
  exact Rounds.wp_signal 𝒱₀ ER (sched m) (c : Thread nD τ) none (dst := (peer c : Thread nD τ)) (sem := barS) (r := 0) (κ := K (peer c, kBar))
    (d := ()) (by rw [duties_bar]; exact Finset.mem_singleton_self _) (amount_bar m (peer c) ()) () (owedFrom c 0) rfl hr

end Steps

end Cert.Kernel.A2A

end
-- ==== Proof.Kernel.Pieces.lean ====
/-
  The buffers cut into the pieces the copies move, and joined again. A device's rows of `x` are the sixteen blocks its
  copies read (eight chunks of rows, two column halves); its result the sixteen row blocks its own copies and its
  partner's write; each two-slot scratch buffer its two slots.
-/
import proofs.«900628_g7700000000000629_dist_a2a_v7x_xyz2x2x2_z_m16384_n1024_f32_1_alg».proof.Proof.Kernel.Base

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A whole buffer as the pieces of a cover -/

omit [FloatOps F] in
/-- A whole buffer held is two disjoint sets of its elements held, when every element lies in one of them. -/
theorem pointsTo_univ_pair {ℓ : Loc nD τ sig} (f : Buf (Elt F) ℓ) (A B : Finset (Idx ℓ))
    (hAB : Disjoint A B) (hcov : ∀ x, x ∈ A ∨ x ∈ B) :
    ((ℓ ↦{fullShare} f : sProp 𝕄)) ⊣⊢ iprop((ℓ ↦[A]{fullShare} f) ∗ ℓ ↦[B]{fullShare} f) := by
  have hcover : (Finset.univ : Finset (Idx ℓ)) = A ∪ B :=
    (Finset.eq_univ_of_forall fun x => Finset.mem_union.mpr (hcov x)).symm
  rw [hcover]
  exact pointsTo_union hAB

omit [FloatOps F] in
/-- A whole buffer held is two families of sets of its elements held, when the sets are pairwise disjoint and every
    element lies in one of them. -/
theorem pointsTo_univ_families {ℓ : Loc nD τ sig} (f : Buf (Elt F) ℓ) (A B : Fin 8 → Finset (Idx ℓ))
    (hA : ∀ i j, i ≠ j → Disjoint (A i) (A j)) (hB : ∀ i j, i ≠ j → Disjoint (B i) (B j))
    (hAB : ∀ i j, Disjoint (A i) (B j)) (hcov : ∀ x, (∃ i, x ∈ A i) ∨ (∃ i, x ∈ B i)) :
    ((ℓ ↦{fullShare} f : sProp 𝕄))
      ⊣⊢ iprop((bigSep Finset.univ fun i : Fin 8 => ℓ ↦[A i]{fullShare} f) ∗ (bigSep Finset.univ fun i : Fin 8 => ℓ ↦[B i]{fullShare} f)) := by
  have hd : Disjoint (Finset.univ.biUnion A) (Finset.univ.biUnion B) := by
    rw [Finset.disjoint_biUnion_left]; intro i _
    rw [Finset.disjoint_biUnion_right]; intro j _
    exact hAB i j
  refine (pointsTo_univ_pair f (Finset.univ.biUnion A) (Finset.univ.biUnion B) hd fun x => ?_).trans ?_
  · rw [Finset.mem_biUnion, Finset.mem_biUnion]
    rcases hcov x with ⟨i, hi⟩ | ⟨i, hi⟩
    · exact .inl ⟨i, Finset.mem_univ _, hi⟩
    · exact .inr ⟨i, Finset.mem_univ _, hi⟩
  · rw [pointsTo_biUnion _ _ (fun i _ j _ h => hA i j h), pointsTo_biUnion _ _ (fun i _ j _ h => hB i j h)]

/-! ## The pieces' element sets, by coordinates -/

theorem set_xSend (c : Dev nD) (i : Fin 8) :
    (xSend c i).view.set = (Rect.unit (s := S16384x2048) (sendOff c i) S2048x1024.size (sendOff_inb c i)).set :=
  View.set_slice_whole main_arg0 _
theorem set_xKeep (c : Dev nD) (i : Fin 8) :
    (xKeep c i).view.set = (Rect.unit (s := S16384x2048) (keepOff c i) S2048x1024.size (keepOff_inb c i)).set :=
  View.set_slice_whole main_arg0 _
theorem set_oRows (w : Dev nD) (i : Fin 8) :
    (oRows w i).view.set = (Rect.unit (s := S32768x1024) (outOff w i) S2048x1024.size (outOff_inb w i)).set :=
  View.set_slice_whole main_v1 _
/-- A slot's elements are its slab's: dropping the unit axis re-indexes the same elements. -/
theorem set_slotAt_l (k : ℕ) (hk : k < 2) :
    (slotAt lM k hk).view.set = (Rect.unit (s := S2x2048x1024) ![k, 0, 0] S1x2048x1024.size (slot_inb k hk)).set :=
  (View.set_reshape _ _).trans (View.set_slice_whole cc0_scratch0 _)
theorem set_slotAt_s (k : ℕ) (hk : k < 2) :
    (slotAt sM k hk).view.set = (Rect.unit (s := S2x2048x1024) ![k, 0, 0] S1x2048x1024.size (slot_inb k hk)).set :=
  (View.set_reshape _ _).trans (View.set_slice_whole cc0_scratch1 _)

theorem sendOff0 (c : Dev nD) (i : Fin 8) : sendOff c i 0 = 2048 * i.val := by rw [sendOff_eq]; rfl
theorem sendOff1 (c : Dev nD) (i : Fin 8) : sendOff c i 1 = 1024 - 1024 * zc c := by rw [sendOff_eq]; rfl
theorem keepOff0 (c : Dev nD) (i : Fin 8) : keepOff c i 0 = 2048 * i.val := by rw [keepOff_eq]; rfl
theorem keepOff1 (c : Dev nD) (i : Fin 8) : keepOff c i 1 = 1024 * zc c := by rw [keepOff_eq]; rfl
theorem outOff0 (w : Dev nD) (i : Fin 8) : outOff w i 0 = 16384 * zc w + 2048 * i.val := by rw [outOff_eq]; rfl
theorem outOff1 (w : Dev nD) (i : Fin 8) : outOff w i 1 = 0 := by rw [outOff_eq]; rfl

/-- Chunk `i`'s block for the partner: rows `[2048 i, 2048 i + 2048)`, the column half `1 - z`. -/
theorem mem_xSend (c : Dev nD) (i : Fin 8) (idx : S16384x2048.Idx) :
    idx ∈ (xSend c i).view.set ↔ (2048 * i.val ≤ (idx 0).val ∧ (idx 0).val < 2048 * i.val + 2048)
      ∧ (1024 - 1024 * zc c ≤ (idx 1).val ∧ (idx 1).val < 1024 - 1024 * zc c + 1024) := by
  rw [set_xSend, Rect.mem_set_unit, Fin.forall_fin_two, sendOff0, sendOff1]
  exact Iff.rfl
/-- Chunk `i`'s block that stays: the same rows, the column half `z`. -/
theorem mem_xKeep (c : Dev nD) (i : Fin 8) (idx : S16384x2048.Idx) :
    idx ∈ (xKeep c i).view.set ↔ (2048 * i.val ≤ (idx 0).val ∧ (idx 0).val < 2048 * i.val + 2048)
      ∧ (1024 * zc c ≤ (idx 1).val ∧ (idx 1).val < 1024 * zc c + 1024) := by
  rw [set_xKeep, Rect.mem_set_unit, Fin.forall_fin_two, keepOff0, keepOff1]
  exact Iff.rfl
/-- Writer `w`'s chunk `i` of a result: rows `[16384 z + 2048 i, + 2048)`, `z` the writer's position, every column. -/
theorem mem_oRows (w : Dev nD) (i : Fin 8) (idx : S32768x1024.Idx) :
    idx ∈ (oRows w i).view.set ↔ (16384 * zc w + 2048 * i.val ≤ (idx 0).val ∧ (idx 0).val < 16384 * zc w + 2048 * i.val + 2048)
      ∧ (0 ≤ (idx 1).val ∧ (idx 1).val < 0 + 1024) := by
  rw [set_oRows, Rect.mem_set_unit, Fin.forall_fin_two, outOff0, outOff1]
  exact Iff.rfl

omit [FloatOps F] in
/-- `x` whole is its eight blocks that go to the partner and its eight blocks that stay. -/
theorem x_split (c : Dev nD) (f : Buf (Elt F) ((c : Thread nD τ).loc main_arg0)) :
    ((((c : Thread nD τ).loc main_arg0) ↦{fullShare} f : sProp 𝕄))
      ⊣⊢ iprop((bigSep Finset.univ fun i : Fin 8 => pts c (xSend c i) f) ∗ (bigSep Finset.univ fun i : Fin 8 => pts c (xKeep c i) f)) := by
  have hz := zc_lt c
  refine pointsTo_univ_families f (fun i => (xSend c i).view.set) (fun i => (xKeep c i).view.set) ?_ ?_ ?_ ?_
  · intro i j hij
    have hne := Fin.val_ne_of_ne hij
    rw [set_xSend, set_xSend]
    refine Rect.unit_disjoint 0 ?_
    rw [sendOff0, sendOff0]; show _ + 2048 ≤ _ ∨ _ + 2048 ≤ _; omega
  · intro i j hij
    have hne := Fin.val_ne_of_ne hij
    rw [set_xKeep, set_xKeep]
    refine Rect.unit_disjoint 0 ?_
    rw [keepOff0, keepOff0]; show _ + 2048 ≤ _ ∨ _ + 2048 ≤ _; omega
  · intro i j
    rw [set_xSend, set_xKeep]
    refine Rect.unit_disjoint 1 ?_
    rw [sendOff1, keepOff1]; show _ + 1024 ≤ _ ∨ _ + 1024 ≤ _; omega
  · intro (idx : S16384x2048.Idx)
    have h0 : (idx 0).val < 16384 := (idx 0).isLt
    have h1 : (idx 1).val < 2048 := (idx 1).isLt
    have hi : (idx 0).val / 2048 < 8 := by omega
    by_cases hcol : 1024 - 1024 * zc c ≤ (idx 1).val ∧ (idx 1).val < 1024 - 1024 * zc c + 1024
    · refine .inl ⟨⟨(idx 0).val / 2048, hi⟩, (mem_xSend c _ idx).mpr ⟨⟨?_, ?_⟩, hcol⟩⟩ <;> dsimp only <;> omega
    · refine .inr ⟨⟨(idx 0).val / 2048, hi⟩, (mem_xKeep c _ idx).mpr ⟨⟨?_, ?_⟩, ?_, ?_⟩⟩ <;> dsimp only <;> omega

omit [FloatOps F] in
/-- The result whole is the eight row blocks the device itself writes and the eight its partner writes. -/
theorem out_split (c : Dev nD) (f : Buf (Elt F) ((c : Thread nD τ).loc main_v1)) :
    ((((c : Thread nD τ).loc main_v1) ↦{fullShare} f : sProp 𝕄))
      ⊣⊢ iprop((bigSep Finset.univ fun i : Fin 8 => pts c (oRows c i) f) ∗ (bigSep Finset.univ fun i : Fin 8 => pts c (oRows (peer c) i) f)) := by
  have hz := zc_lt c
  have hp := zc_peer c
  refine pointsTo_univ_families f (fun i => (oRows c i).view.set) (fun i => (oRows (peer c) i).view.set) ?_ ?_ ?_ ?_
  · intro i j hij
    have hne := Fin.val_ne_of_ne hij
    rw [set_oRows, set_oRows]
    refine Rect.unit_disjoint 0 ?_
    rw [outOff0, outOff0]; show _ + 2048 ≤ _ ∨ _ + 2048 ≤ _; omega
  · intro i j hij
    have hne := Fin.val_ne_of_ne hij
    rw [set_oRows, set_oRows]
    refine Rect.unit_disjoint 0 ?_
    rw [outOff0, outOff0]; show _ + 2048 ≤ _ ∨ _ + 2048 ≤ _; omega
  · intro i j
    have hi := i.isLt
    have hj := j.isLt
    rw [set_oRows, set_oRows]
    refine Rect.unit_disjoint 0 ?_
    rw [outOff0, outOff0, hp]; show _ + 2048 ≤ _ ∨ _ + 2048 ≤ _; omega
  · intro (idx : S32768x1024.Idx)
    have h0 : (idx 0).val < 32768 := (idx 0).isLt
    have h1 : (idx 1).val < 1024 := (idx 1).isLt
    have hi : (idx 0).val % 16384 / 2048 < 8 := by omega
    by_cases hrow : (idx 0).val / 16384 = zc c
    · refine .inl ⟨⟨(idx 0).val % 16384 / 2048, hi⟩, (mem_oRows c _ idx).mpr ⟨⟨?_, ?_⟩, ?_, ?_⟩⟩ <;> dsimp only <;> omega
    · refine .inr ⟨⟨(idx 0).val % 16384 / 2048, hi⟩, (mem_oRows (peer c) _ idx).mpr ⟨⟨?_, ?_⟩, ?_, ?_⟩⟩ <;> dsimp only <;> omega

/-- A two-slot buffer's elements: the first coordinate is `0` or `1`, and slot `k` holds those where it is `k`. -/
theorem slots_cover (idx : S2x2048x1024.Idx) :
    idx ∈ (Rect.unit (s := S2x2048x1024) ![0, 0, 0] S1x2048x1024.size (slot_inb 0 Nat.zero_lt_two)).set
      ∨ idx ∈ (Rect.unit (s := S2x2048x1024) ![1, 0, 0] S1x2048x1024.size (slot_inb 1 Nat.one_lt_two)).set := by
  have h0 : (idx 0).val < 2 := (idx 0).isLt
  have h1 : (idx 1).val < 2048 := (idx 1).isLt
  have h2 : (idx 2).val < 1024 := (idx 2).isLt
  by_cases hk : (idx 0).val = 0
  · refine .inl (Rect.mem_set_unit.mpr fun a => ?_)
    fin_cases a
    · show 0 ≤ (idx 0).val ∧ (idx 0).val < 0 + 1; omega
    · show 0 ≤ (idx 1).val ∧ (idx 1).val < 0 + 2048; omega
    · show 0 ≤ (idx 2).val ∧ (idx 2).val < 0 + 1024; omega
  · refine .inr (Rect.mem_set_unit.mpr fun a => ?_)
    fin_cases a
    · show 1 ≤ (idx 0).val ∧ (idx 0).val < 1 + 1; omega
    · show 0 ≤ (idx 1).val ∧ (idx 1).val < 0 + 2048; omega
    · show 0 ≤ (idx 2).val ∧ (idx 2).val < 0 + 1024; omega

theorem slots_disjoint :
    Disjoint (Rect.unit (s := S2x2048x1024) ![0, 0, 0] S1x2048x1024.size (slot_inb 0 Nat.zero_lt_two)).set
      (Rect.unit (s := S2x2048x1024) ![1, 0, 0] S1x2048x1024.size (slot_inb 1 Nat.one_lt_two)).set :=
  Rect.unit_disjoint 0 (.inl (by show 0 + 1 ≤ 1; omega))

omit [FloatOps F] in
/-- A two-slot scratch buffer whole is its two slots. -/
theorem lbuf_split (c : Dev nD) (f : Buf (Elt F) ((c : Thread nD τ).loc cc0_scratch0)) :
    ((((c : Thread nD τ).loc cc0_scratch0) ↦{fullShare} f : sProp 𝕄))
      ⊣⊢ iprop(pts c (slotAt lM 0 Nat.zero_lt_two) f ∗ pts c (slotAt lM 1 Nat.one_lt_two) f) := by
  refine pointsTo_univ_pair f _ _ ?_ ?_
  · rw [set_slotAt_l, set_slotAt_l]; exact slots_disjoint
  · intro idx; rw [set_slotAt_l, set_slotAt_l]; exact slots_cover idx
omit [FloatOps F] in
theorem sbuf_split (c : Dev nD) (f : Buf (Elt F) ((c : Thread nD τ).loc cc0_scratch1)) :
    ((((c : Thread nD τ).loc cc0_scratch1) ↦{fullShare} f : sProp 𝕄))
      ⊣⊢ iprop(pts c (slotAt sM 0 Nat.zero_lt_two) f ∗ pts c (slotAt sM 1 Nat.one_lt_two) f) := by
  refine pointsTo_univ_pair f _ _ ?_ ?_
  · rw [set_slotAt_s, set_slotAt_s]; exact slots_disjoint
  · intro idx; rw [set_slotAt_s, set_slotAt_s]; exact slots_cover idx

/-- info: 'Cert.Kernel.A2A.x_split' depends on axioms: [propext, Classical.choice, Quot.sound] -/
#guard_msgs in #print axioms x_split

/-- info: 'Cert.Kernel.A2A.out_split' depends on axioms: [propext, Classical.choice, Quot.sound] -/
#guard_msgs in #print axioms out_split

/-- info: 'Cert.Kernel.A2A.lbuf_split' depends on axioms: [propext, Classical.choice, Quot.sound] -/
#guard_msgs in #print axioms lbuf_split

/-- info: 'Cert.Kernel.A2A.sbuf_split' depends on axioms: [propext, Classical.choice, Quot.sound] -/
#guard_msgs in #print axioms sbuf_split

end Cert.Kernel.A2A

end
-- ==== Proof.Kernel.Finish.lean ====
/-
  The end of a device's body. Its sixteen send and receive cells, each past its one round with nothing taken, are
  closed and their counters come back at zero; its rows of `x` and its result are joined again from their sixteen
  blocks each; each two-slot scratch buffer is joined again from its two slots, held at whatever each holds.
-/
import proofs.«900628_g7700000000000629_dist_a2a_v7x_xyz2x2x2_z_m16384_n1024_f32_1_alg».proof.Proof.Kernel.Ghost
import proofs.«900628_g7700000000000629_dist_a2a_v7x_xyz2x2x2_z_m16384_n1024_f32_1_alg».proof.Proof.Kernel.Pieces

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ)

/-! ## The cells closed -/

omit [FloatOps F] in
/-- The eight send cells, each at round 1 with nothing taken: closed, their counters at zero. -/
theorem close_sends (c : Dev nD) :
    iprop((bigSep Finset.univ fun i : Fin 8 => cellInv ER (sched m) (K (c, kSend i)) (sendCell c i))
        ∗ (bigSep Finset.univ fun i : Fin 8 => atPos ER (sendCell c i) 1 ∅ 0))
      ⊢ (|={Set.univ}=> bigSep Finset.univ fun i : Fin 8 => semVal (sendCell c i) 0 : sProp 𝕄) := by
  rw [← bigSep_sep']
  exact (bigSep_mono fun i _ => Rounds.cell_close ER (sched m) (Set.mem_univ _) (fun h => h) (R := 0 + 1)
    (duties_later m _)).trans (bigSep_fupd _ _)

omit [FloatOps F] in
/-- The eight receive cells likewise. -/
theorem close_recvs (c : Dev nD) :
    iprop((bigSep Finset.univ fun i : Fin 8 => cellInv ER (sched m) (K (c, kRecv i)) (recvCell c i))
        ∗ (bigSep Finset.univ fun i : Fin 8 => atPos ER (recvCell c i) 1 ∅ 0))
      ⊢ (|={Set.univ}=> bigSep Finset.univ fun i : Fin 8 => semVal (recvCell c i) 0 : sProp 𝕄) := by
  rw [← bigSep_sep']
  exact (bigSep_mono fun i _ => Rounds.cell_close ER (sched m) (Set.mem_univ _) (fun h => h) (R := 0 + 1)
    (duties_later m _)).trans (bigSep_fupd _ _)

/-! ## A buffer joined again from two pieces at different contents -/

omit [FloatOps F] in
/-- Two disjoint sets of a buffer's elements that cover it, each held at some contents: the buffer held whole, at the
    contents that are the second's on the second set and the first's elsewhere. -/
theorem pointsTo_univ_pair_join {ℓ : Loc nD τ sig} (A B : Finset (Idx ℓ)) (hAB : Disjoint A B) (hcov : ∀ x, x ∈ A ∨ x ∈ B) :
    iprop((∃ f, ℓ ↦[A]{fullShare} f) ∗ (∃ f, ℓ ↦[B]{fullShare} f)) ⊢ (∃ f, ℓ ↦{fullShare} f : sProp 𝕄) := by
  have hcover : (Finset.univ : Finset (Idx ℓ)) = A ∪ B :=
    (Finset.eq_univ_of_forall fun x => Finset.mem_union.mpr (hcov x)).symm
  iintro ⟨⟨%f, HA⟩, ⟨%g, HB⟩⟩
  iexists (B.piecewise g f)
  rw [hcover]
  iapply (pointsTo_join hAB)
  isplitl [HA] <;> iassumption

omit [FloatOps F] in
theorem lbuf_join (c : Dev nD) :
    iprop((∃ f, pts c (slotAt lM 0 Nat.zero_lt_two) f) ∗ (∃ f, pts c (slotAt lM 1 Nat.one_lt_two) f))
      ⊢ (∃ f, ((c : Thread nD τ).loc cc0_scratch0) ↦{fullShare} f : sProp 𝕄) := by
  refine pointsTo_univ_pair_join _ _ ?_ ?_
  · rw [set_slotAt_l, set_slotAt_l]; exact slots_disjoint
  · intro idx; rw [set_slotAt_l, set_slotAt_l]; exact slots_cover idx
omit [FloatOps F] in
theorem sbuf_join (c : Dev nD) :
    iprop((∃ f, pts c (slotAt sM 0 Nat.zero_lt_two) f) ∗ (∃ f, pts c (slotAt sM 1 Nat.one_lt_two) f))
      ⊢ (∃ f, ((c : Thread nD τ).loc cc0_scratch1) ↦{fullShare} f : sProp 𝕄) := by
  refine pointsTo_univ_pair_join _ _ ?_ ?_
  · rw [set_slotAt_s, set_slotAt_s]; exact slots_disjoint
  · intro idx; rw [set_slotAt_s, set_slotAt_s]; exact slots_cover idx

/-! ## The end -/

omit [FloatOps F] in
/-- From the cells' invariants, the device's positions past every cell's one round, its local semaphores and every
    piece of its buffers, to what it holds at the end. -/
theorem close_all (c : Dev nD) :
    iprop(invs m K c ∗ (bigSep Finset.univ fun i : Fin 8 => atPos ER (sendCell c i) 1 ∅ 0)
        ∗ (bigSep Finset.univ fun i : Fin 8 => atPos ER (recvCell c i) 1 ∅ 0) ∗ localSems c
        ∗ (bigSep Finset.univ fun i : Fin 8 => pts c (xSend c i) (xOf m c))
        ∗ (bigSep Finset.univ fun i : Fin 8 => pts c (xKeep c i) (xOf m c))
        ∗ (bigSep Finset.univ fun i : Fin 8 => pts c (oRows c i) (outC m c))
        ∗ (bigSep Finset.univ fun i : Fin 8 => pts c (oRows (peer c) i) (outC m c))
        ∗ (∃ f, pts c (slotAt lM 0 Nat.zero_lt_two) f) ∗ (∃ f, pts c (slotAt lM 1 Nat.one_lt_two) f)
        ∗ (∃ f, pts c (slotAt sM 0 Nat.zero_lt_two) f) ∗ (∃ f, pts c (slotAt sM 1 Nat.one_lt_two) f))
      ⊢ |={Set.univ}=> Φ₁ m c := by
  unfold Φ₁ bufs₁ sems₁ invs
  iintro ⟨⟨-, HIs, HIr, -, -⟩, Has, Har, Hloc, Hxs, Hxk, Hoc, Hop, Hl0, Hl1, Hs0, Hs1⟩
  imod (close_sends m K c) $$ [HIs Has] with Hzs
  · isplitl [HIs] <;> iassumption
  imod (close_recvs m K c) $$ [HIr Har] with Hzr
  · isplitl [HIr] <;> iassumption
  imodintro
  isplitl [Hxs Hxk Hoc Hop Hl0 Hl1 Hs0 Hs1]
  · isplitl [Hxs Hxk]
    · iapply (x_split c (xOf m c)).2
      isplitl [Hxs] <;> iassumption
    isplitl [Hoc Hop]
    · iapply (out_split c (outC m c)).2
      isplitl [Hoc] <;> iassumption
    isplitl [Hl0 Hl1]
    · iapply (lbuf_join c)
      isplitl [Hl0] <;> iassumption
    · iapply (sbuf_join c)
      isplitl [Hs0] <;> iassumption
  · isplitl [Hloc]; · iexact Hloc
    isplitl [Hzs]; · iexact Hzs
    iexact Hzr

/-- info: 'Cert.Kernel.A2A.close_all' depends on axioms: [propext, Classical.choice, Quot.sound] -/
#guard_msgs in #print axioms close_all

end Cert.Kernel.A2A

end
-- ==== Proof.Kernel.Chain.lean ====
/-
  The body, stepped from what a device holds at its start to what it holds at its end: the entry signal and its wait;
  then, chunk after chunk, the block for the partner copied into a slot of the send buffer and sent on into the
  partner's rows (the slot's previous transfer awaited first), the block that stays copied into a slot of the local
  buffer and on into the device's own rows (that slot's previous copy awaited first); at the end the last transfers,
  the last copies and the eight blocks the partner sent are awaited, the cells closed and the buffers joined again.
-/
import proofs.«900628_g7700000000000629_dist_a2a_v7x_xyz2x2x2_z_m16384_n1024_f32_1_alg».proof.Proof.Kernel.Body
import proofs.«900628_g7700000000000629_dist_a2a_v7x_xyz2x2x2_z_m16384_n1024_f32_1_alg».proof.Proof.Kernel.Pieces
import proofs.«900628_g7700000000000629_dist_a2a_v7x_xyz2x2x2_z_m16384_n1024_f32_1_alg».proof.Proof.Kernel.Finish

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- A block copied into a slot of the local buffer and from there into the device's own rows leaves there what the result holds in the end. -/
theorem kept_piece_pt (c : Dev nD) (i : Fin 8) (f0 : Buf (Elt F) ((c : Thread nD τ).loc cc0_scratch0)) (fd : Buf (Elt F) ((c : Thread nD τ).loc main_v1)) :
    pts c (oRows c i) ((oRows c i).view.write (Elt F) fd ((slotOf lM i).view.read (Elt F)
        ((slotOf lM i).view.write (Elt F) f0 ((xKeep c i).view.read (Elt F) (xOf m c)) Finset.univ)) Finset.univ)
      = (pts c (oRows c i) (outC m c) : sProp 𝕄) := by
  unfold pts; rw [View.read_write_univ]; exact pointsTo_congr (keep_piece m c i fd)

/-- The local copies' and the send cells' semaphores sit below the receive cells. -/
theorem lv_low (c : Dev nD) (q : DmaSem sig) (h : q.val < 12) : lv ((c : Thread nD τ), .dma q) () < 2 := by
  show (if 12 ≤ q.val then 2 else 0) < 2
  rw [if_neg (by omega)]; decide

omit [FloatOps F] in
theorem barPay_eq (c : Dev nD) : (barPay c : sProp 𝕄) = iprop((∃ f, pts (peer c) (oRows c 0) f) ∗ (∃ f, pts (peer c) (oRows c 1) f) ∗ (∃ f, pts (peer c) (oRows c 2) f)
    ∗ (∃ f, pts (peer c) (oRows c 3) f) ∗ (∃ f, pts (peer c) (oRows c 4) f) ∗ (∃ f, pts (peer c) (oRows c 5) f) ∗ (∃ f, pts (peer c) (oRows c 6) f) ∗ (∃ f, pts (peer c) (oRows c 7) f)) := by
  unfold barPay; rw [bigSep_fin8]

set_option hygiene false in
/-- Open the next stretch of the printed body. -/
macro "next_part" e:ident s:ident : tactic => `(tactic| (
  simp only [$e:ident]; unfold $s:ident
  simp only [semSignalWord, semWaitWord, Prog.lift, Prog.bind_op, Prog.bind_ret, Prog.pure_eq_ret, wp_deviceId]))

open Lean in
set_option hygiene false in
/-- A local copy issued (source piece, destination piece, the semaphore at zero) and at once awaited. -/
macro "copy_now" hsrc:ident hdst:ident hsem:ident n:term:max : tactic => do
  let fsrc ← `(frameIdent| $hsrc:ident)
  let fdst ← `(frameIdent| $hdst:ident)
  let fsem ← `(frameIdent| $hsem:ident)
  let psrc ← `(icasesPatAlts| $hsrc:ident)
  let pdst ← `(icasesPatAlts| $hdst:ident)
  let psem ← `(icasesPatAlts| $hsem:ident)
  `(tactic| (
  iapply (issue_local c _ _) $$ [$fsrc $fdst $fsem]
  · isplitl [$hsrc]; · iexact $hsrc
    isplitl [$hdst]; · iexact $hdst
    iexact $hsem
  iintro HF
  iapply (wait_local c (lv_low c _ (by decide)) $n (credit_eq _)) $$ [HF HO]
  · isplitl [HF]; · iexact HF
    isplitl [HO]; · iexact HO
    iexact Hlev
  iintro ⟨⟨$pdst, $psrc⟩, $psem, HO⟩))

open Lean in
set_option hygiene false in
/-- A local copy issued and left in flight. -/
macro "copy_start" hsrc:ident hdst:ident hsem:ident hf:ident : tactic => do
  let fsrc ← `(frameIdent| $hsrc:ident)
  let fdst ← `(frameIdent| $hdst:ident)
  let fsem ← `(frameIdent| $hsem:ident)
  let pf ← `(introPat| $hf:ident)
  `(tactic| (
  iapply (issue_local c _ _) $$ [$fsrc $fdst $fsem]
  · isplitl [$hsrc]; · iexact $hsrc
    isplitl [$hdst]; · iexact $hdst
    iexact $hsem
  iintro $pf))

open Lean in
set_option hygiene false in
/-- … and awaited later: the destination piece (written), the source piece, the semaphore. -/
macro "copy_wait" hf:ident hsrc:ident hdst:ident hsem:ident n:term:max : tactic => do
  let ff ← `(frameIdent| $hf:ident)
  let psrc ← `(icasesPatAlts| $hsrc:ident)
  let pdst ← `(icasesPatAlts| $hdst:ident)
  let psem ← `(icasesPatAlts| $hsem:ident)
  `(tactic| (
  iapply (wait_local c (lv_low c _ (by decide)) $n (credit_eq _)) $$ [$ff HO]
  · isplitl [$hf]; · iexact $hf
    isplitl [HO]; · iexact HO
    iexact Hlev
  iintro ⟨⟨$pdst, $psrc⟩, $psem, HO⟩))

open Lean in
set_option hygiene false in
/-- Chunk `i`'s transfer to the partner. -/
macro "send_now" i:term:max n:term:max n':term:max de:term:max hslot:ident hq:ident his:ident hiq:ident hts:ident hrs:ident htq:ident hrq:ident hcs:ident : tactic => do
  let fslot ← `(frameIdent| $hslot:ident)
  let fq ← `(frameIdent| $hq:ident)
  let fts ← `(frameIdent| $hts:ident)
  let ftq ← `(frameIdent| $htq:ident)
  let pcs ← `(icasesPatAlts| $hcs:ident)
  `(tactic| (
  iapply (send_chunk m K c $i $n $n' rfl _ $de _ _) $$ [$fslot $fq HO $fts $ftq]
  · isplitr; · iexact $his
    isplitr; · iexact $hiq
    isplitl [$hslot]; · iexact $hslot
    isplitl [$hq]; · iexact $hq
    isplitl [HO]; · iexact HO
    isplitl [$hts]; · iexact $hts
    isplitr; · iexact $hrs
    isplitl [$htq]; · iexact $htq
    iexact $hrq
  iintro ⟨$pcs, HO⟩))

open Lean in
set_option hygiene false in
/-- The wait on chunk `i`'s send cell: the slot back (at whatever it holds). -/
macro "send_wait" i:term:max n:term:max his:ident hcs:ident hat:ident hslot:ident : tactic => do
  let fcs ← `(frameIdent| $hcs:ident)
  let fat ← `(frameIdent| $hat:ident)
  let pat ← `(icasesPatAlts| $hat:ident)
  let pslot ← `(icasesPatAlts| $hslot:ident)
  `(tactic| (
  iapply (wait_send m K c $i $n (credit_eq _)) $$ [$fcs HO $fat]
  · isplitr; · iexact $his
    isplitl [$hcs]; · iexact $hcs
    isplitl [HO]; · iexact HO
    isplitr; · iexact Hlev
    iexact $hat
  iintro ⟨HO, $pat, Hpay⟩
  unfold sendPay
  icases Hpay with ⟨%fnew, $pslot⟩))

open Lean in
set_option hygiene false in
/-- The wait on chunk `i`'s receive cell: the rows the partner wrote. -/
macro "recv_wait" i:term:max hir:ident hcr:ident hat:ident hrow:ident : tactic => do
  let fcr ← `(frameIdent| $hcr:ident)
  let fat ← `(frameIdent| $hat:ident)
  let pat ← `(icasesPatAlts| $hat:ident)
  let prow ← `(icasesPatAlts| $hrow:ident)
  `(tactic| (
  iapply (wait_recv m K c $i (credit_eq _)) $$ [$fcr HO $fat]
  · isplitr; · iexact $hir
    isplitl [$hcr]; · iexact $hcr
    isplitl [HO]; · iexact HO
    iexact $hat
  iintro ⟨HO, $pat, $prow⟩
  unfold recvPay))

set_option maxHeartbeats 4000000 in
set_option maxRecDepth 8000 in
theorem sound_body : BodySpec m := by
  intro c Kt
  unfold Φ₀ start ghost invs reacheds linear localSems creds bufs₀
  simp only [bigSep_fin8]
  iintro ⟨⟨⟨⟨⟨%K, ⟨#HIb, ⟨#HIs0, #HIs1, #HIs2, #HIs3, #HIs4, #HIs5, #HIs6, #HIs7⟩, ⟨#HIr0, #HIr1, #HIr2, #HIr3, #HIr4, #HIr5, #HIr6, #HIr7⟩, #HIbP, ⟨#HIq0, #HIq1, #HIq2, #HIq3, #HIq4, #HIq5, #HIq6, #HIq7⟩⟩,
      ⟨#Rb, ⟨#Rs0, #Rs1, #Rs2, #Rs3, #Rs4, #Rs5, #Rs6, #Rs7⟩, ⟨#Rr0, #Rr1, #Rr2, #Rr3, #Rr4, #Rr5, #Rr6, #Rr7⟩, #RbP, ⟨#Rq0, #Rq1, #Rq2, #Rq3, #Rq4, #Rq5, #Rq6, #Rq7⟩⟩,
      ⟨HatB, ⟨HatS0, HatS1, HatS2, HatS3, HatS4, HatS5, HatS6, HatS7⟩, ⟨HatR0, HatR1, HatR2, HatR3, HatR4, HatR5, HatR6, HatR7⟩, HtBP, ⟨HtQ0, HtQ1, HtQ2, HtQ3, HtQ4, HtQ5, HtQ6, HtQ7⟩, ⟨HtS0, HtS1, HtS2, HtS3, HtS4, HtS5, HtS6, HtS7⟩⟩⟩,
      ⟨HsemL, HsemLo0, HsemLo1, HsemS⟩, ⟨HcB, ⟨HcR0, HcR1, HcR2, HcR3, HcR4, HcR5, HcR6, HcR7⟩⟩, #Hlev⟩,
      ⟨Hx, ⟨%fo, Ho⟩, ⟨%fl, Hlb⟩, ⟨%fsb, Hsb⟩⟩⟩, ⟨%W, HO⟩⟩, Hk⟩
  -- the buffers cut into the pieces the copies move
  ihave Hx := (x_split c _).1 $$ Hx
  ihave Ho := (out_split c _).1 $$ Ho
  ihave Hlb := (lbuf_split c _).1 $$ Hlb
  ihave Hsb := (sbuf_split c _).1 $$ Hsb
  simp only [bigSep_fin8]
  icases Hx with ⟨⟨Hxs0, Hxs1, Hxs2, Hxs3, Hxs4, Hxs5, Hxs6, Hxs7⟩, ⟨Hxk0, Hxk1, Hxk2, Hxk3, Hxk4, Hxk5, Hxk6, Hxk7⟩⟩
  icases Ho with ⟨⟨Hoo0, Hoo1, Hoo2, Hoo3, Hoo4, Hoo5, Hoo6, Hoo7⟩, ⟨Hop0, Hop1, Hop2, Hop3, Hop4, Hop5, Hop6, Hop7⟩⟩
  icases Hlb with ⟨Hl0, Hl1⟩
  icases Hsb with ⟨Hs0, Hs1⟩
  -- the printed body, stretch by stretch
  simp only [cc0_body_eq_skeleton]; unfold cc0_body_skel
  next_part k0_part1_eq_skeleton k0_part1_skel
  -- the entry signal: the partner gets the rows of this device's result that the partner fills
  iapply (signal_bar m K c (by decide)) $$ [HO HtBP Hop0 Hop1 Hop2 Hop3 Hop4 Hop5 Hop6 Hop7]
  · isplitr; · iexact HIbP
    isplitl [HO]; · iexact HO
    isplitl [HtBP]; · iexact HtBP
    isplitr [] ; swap; · iexact RbP
    rw [barPay_eq, peer_peer]
    isplitl [Hop0]; · iexists _; iexact Hop0
    isplitl [Hop1]; · iexists _; iexact Hop1
    isplitl [Hop2]; · iexists _; iexact Hop2
    isplitl [Hop3]; · iexists _; iexact Hop3
    isplitl [Hop4]; · iexists _; iexact Hop4
    isplitl [Hop5]; · iexists _; iexact Hop5
    isplitl [Hop6]; · iexists _; iexact Hop6
    iexists _; iexact Hop7
  iintro HO
  -- the wait for the partner's signal: the partner's rows that this device fills
  iapply (wait_bar m K c (by decide)) $$ [HcB HO HatB]
  · isplitr; · iexact HIb
    isplitl [HcB]; · iexact HcB
    isplitl [HO]; · iexact HO
    isplitr; · iexact Hlev
    iexact HatB
  iintro ⟨HO, HatB, Hpay⟩
  ihave Hpay := (Entails.of_eq (barPay_eq c)) $$ Hpay
  icases Hpay with ⟨⟨%fq0, Hq0⟩, ⟨%fq1, Hq1⟩, ⟨%fq2, Hq2⟩, ⟨%fq3, Hq3⟩, ⟨%fq4, Hq4⟩, ⟨%fq5, Hq5⟩, ⟨%fq6, Hq6⟩, ⟨%fq7, Hq7⟩⟩
  -- chunk 0
  copy_now Hxs0 Hs0 HsemS 0
  next_part k0_part2_eq_skeleton k0_part2_skel
  send_now 0 0 1 (dev2_eq c) Hs0 Hq0 HIs0 HIq0 HtS0 Rs0 HtQ0 Rq0 HcS0
  copy_now Hxk0 Hl0 HsemL 1
  copy_start Hl0 Hoo0 HsemLo0 HFlo0
  -- chunk 1
  next_part k0_part3_eq_skeleton k0_part3_skel
  copy_now Hxs1 Hs1 HsemS 1
  send_now 1 1 2 (dev3_eq c) Hs1 Hq1 HIs1 HIq1 HtS1 Rs1 HtQ1 Rq1 HcS1
  copy_start Hxk1 Hl1 HsemL HF
  next_part k0_part4_eq_skeleton k0_part4_skel
  copy_wait HF Hxk1 Hl1 HsemL 2
  copy_start Hl1 Hoo1 HsemLo1 HFlo1
  -- chunk 2
  send_wait 0 2 HIs0 HcS0 HatS0 Hs0
  copy_now Hxs2 Hs0 HsemS 2
  next_part k0_part5_eq_skeleton k0_part5_skel
  send_now 2 2 3 (dev4_eq c) Hs0 Hq2 HIs2 HIq2 HtS2 Rs2 HtQ2 Rq2 HcS2
  copy_wait HFlo0 Hl0 Hoo0 HsemLo0 3
  copy_now Hxk2 Hl0 HsemL 3
  next_part k0_part6_eq_skeleton k0_part6_skel
  copy_start Hl0 Hoo2 HsemLo0 HFlo0
  -- chunk 3
  send_wait 1 3 HIs1 HcS1 HatS1 Hs1
  copy_now Hxs3 Hs1 HsemS 3
  next_part k0_part7_eq_skeleton k0_part7_skel
  send_now 3 3 4 (dev5_eq c) Hs1 Hq3 HIs3 HIq3 HtS3 Rs3 HtQ3 Rq3 HcS3
  copy_wait HFlo1 Hl1 Hoo1 HsemLo1 4
  copy_now Hxk3 Hl1 HsemL 4
  copy_start Hl1 Hoo3 HsemLo1 HFlo1
  -- chunk 4
  send_wait 2 4 HIs2 HcS2 HatS2 Hs0
  next_part k0_part8_eq_skeleton k0_part8_skel
  copy_now Hxs4 Hs0 HsemS 4
  send_now 4 4 5 (dev6_eq c) Hs0 Hq4 HIs4 HIq4 HtS4 Rs4 HtQ4 Rq4 HcS4
  copy_wait HFlo0 Hl0 Hoo2 HsemLo0 5
  next_part k0_part9_eq_skeleton k0_part9_skel
  copy_now Hxk4 Hl0 HsemL 5
  copy_start Hl0 Hoo4 HsemLo0 HFlo0
  -- chunk 5
  send_wait 3 5 HIs3 HcS3 HatS3 Hs1
  copy_start Hxs5 Hs1 HsemS HF
  next_part k0_part10_eq_skeleton k0_part10_skel
  copy_wait HF Hxs5 Hs1 HsemS 5
  send_now 5 5 6 (dev7_eq c) Hs1 Hq5 HIs5 HIq5 HtS5 Rs5 HtQ5 Rq5 HcS5
  copy_wait HFlo1 Hl1 Hoo3 HsemLo1 6
  copy_start Hxk5 Hl1 HsemL HF
  next_part k0_part11_eq_skeleton k0_part11_skel
  copy_wait HF Hxk5 Hl1 HsemL 6
  copy_start Hl1 Hoo5 HsemLo1 HFlo1
  -- chunk 6
  send_wait 4 6 HIs4 HcS4 HatS4 Hs0
  copy_now Hxs6 Hs0 HsemS 6
  next_part k0_part12_eq_skeleton k0_part12_skel
  send_now 6 6 7 (dev8_eq c) Hs0 Hq6 HIs6 HIq6 HtS6 Rs6 HtQ6 Rq6 HcS6
  copy_wait HFlo0 Hl0 Hoo4 HsemLo0 7
  copy_now Hxk6 Hl0 HsemL 7
  next_part k0_part13_eq_skeleton k0_part13_skel
  copy_start Hl0 Hoo6 HsemLo0 HFlo0
  -- chunk 7
  send_wait 5 7 HIs5 HcS5 HatS5 Hs1
  copy_now Hxs7 Hs1 HsemS 7
  next_part k0_part14_eq_skeleton k0_part14_skel
  send_now 7 7 8 (dev9_eq c) Hs1 Hq7 HIs7 HIq7 HtS7 Rs7 HtQ7 Rq7 HcS7
  copy_wait HFlo1 Hl1 Hoo5 HsemLo1 8
  copy_now Hxk7 Hl1 HsemL 8
  copy_start Hl1 Hoo7 HsemLo1 HFlo1
  -- the last two transfers read out, the last two copies landed
  send_wait 6 8 HIs6 HcS6 HatS6 Hs0
  next_part k0_part15_eq_skeleton k0_part15_skel
  send_wait 7 8 HIs7 HcS7 HatS7 Hs1
  copy_wait HFlo0 Hl0 Hoo6 HsemLo0 8
  copy_wait HFlo1 Hl1 Hoo7 HsemLo1 8
  -- the eight blocks the partner sent
  next_part k0_part16_eq_skeleton k0_part16_skel
  recv_wait 0 HIr0 HcR0 HatR0 Hor0
  recv_wait 1 HIr1 HcR1 HatR1 Hor1
  recv_wait 2 HIr2 HcR2 HatR2 Hor2
  next_part k0_part17_eq_skeleton k0_part17_skel
  recv_wait 3 HIr3 HcR3 HatR3 Hor3
  recv_wait 4 HIr4 HcR4 HatR4 Hor4
  next_part k0_part18_eq_skeleton k0_part18_skel
  recv_wait 5 HIr5 HcR5 HatR5 Hor5
  recv_wait 6 HIr6 HcR6 HatR6 Hor6
  recv_wait 7 HIr7 HcR7 HatR7 Hor7
  -- the body returns: the cells closed, the buffers joined again
  rw [wp_ret]
  imod (close_all m K c) $$ [HatS0 HatS1 HatS2 HatS3 HatS4 HatS5 HatS6 HatS7 HatR0 HatR1 HatR2 HatR3 HatR4 HatR5 HatR6 HatR7 HsemL HsemLo0 HsemLo1 HsemS Hxs0 Hxs1 Hxs2 Hxs3 Hxs4 Hxs5 Hxs6 Hxs7 Hxk0 Hxk1 Hxk2 Hxk3 Hxk4 Hxk5 Hxk6 Hxk7 Hoo0 Hoo1 Hoo2 Hoo3 Hoo4 Hoo5 Hoo6 Hoo7 Hor0 Hor1 Hor2 Hor3 Hor4 Hor5 Hor6 Hor7 Hl0 Hl1 Hs0 Hs1] with HΦ
  · unfold invs localSems
    simp only [bigSep_fin8]
    isplitr
    · isplitr; · iexact HIb
      isplitr
      · isplitr; · iexact HIs0
        isplitr; · iexact HIs1
        isplitr; · iexact HIs2
        isplitr; · iexact HIs3
        isplitr; · iexact HIs4
        isplitr; · iexact HIs5
        isplitr; · iexact HIs6
        iexact HIs7
      isplitr
      · isplitr; · iexact HIr0
        isplitr; · iexact HIr1
        isplitr; · iexact HIr2
        isplitr; · iexact HIr3
        isplitr; · iexact HIr4
        isplitr; · iexact HIr5
        isplitr; · iexact HIr6
        iexact HIr7
      isplitr; · iexact HIbP
      isplitr; · iexact HIq0
      isplitr; · iexact HIq1
      isplitr; · iexact HIq2
      isplitr; · iexact HIq3
      isplitr; · iexact HIq4
      isplitr; · iexact HIq5
      isplitr; · iexact HIq6
      iexact HIq7
    isplitl [HatS0 HatS1 HatS2 HatS3 HatS4 HatS5 HatS6 HatS7]
    · isplitl [HatS0]; · iexact HatS0
      isplitl [HatS1]; · iexact HatS1
      isplitl [HatS2]; · iexact HatS2
      isplitl [HatS3]; · iexact HatS3
      isplitl [HatS4]; · iexact HatS4
      isplitl [HatS5]; · iexact HatS5
      isplitl [HatS6]; · iexact HatS6
      iexact HatS7
    isplitl [HatR0 HatR1 HatR2 HatR3 HatR4 HatR5 HatR6 HatR7]
    · isplitl [HatR0]; · iexact HatR0
      isplitl [HatR1]; · iexact HatR1
      isplitl [HatR2]; · iexact HatR2
      isplitl [HatR3]; · iexact HatR3
      isplitl [HatR4]; · iexact HatR4
      isplitl [HatR5]; · iexact HatR5
      isplitl [HatR6]; · iexact HatR6
      iexact HatR7
    isplitl [HsemL HsemLo0 HsemLo1 HsemS]
    · isplitl [HsemL]; · iexact HsemL
      isplitl [HsemLo0]; · iexact HsemLo0
      isplitl [HsemLo1]; · iexact HsemLo1
      iexact HsemS
    isplitl [Hxs0 Hxs1 Hxs2 Hxs3 Hxs4 Hxs5 Hxs6 Hxs7]
    · isplitl [Hxs0]; · iexact Hxs0
      isplitl [Hxs1]; · iexact Hxs1
      isplitl [Hxs2]; · iexact Hxs2
      isplitl [Hxs3]; · iexact Hxs3
      isplitl [Hxs4]; · iexact Hxs4
      isplitl [Hxs5]; · iexact Hxs5
      isplitl [Hxs6]; · iexact Hxs6
      iexact Hxs7
    isplitl [Hxk0 Hxk1 Hxk2 Hxk3 Hxk4 Hxk5 Hxk6 Hxk7]
    · isplitl [Hxk0]; · iexact Hxk0
      isplitl [Hxk1]; · iexact Hxk1
      isplitl [Hxk2]; · iexact Hxk2
      isplitl [Hxk3]; · iexact Hxk3
      isplitl [Hxk4]; · iexact Hxk4
      isplitl [Hxk5]; · iexact Hxk5
      isplitl [Hxk6]; · iexact Hxk6
      iexact Hxk7
    isplitl [Hoo0 Hoo1 Hoo2 Hoo3 Hoo4 Hoo5 Hoo6 Hoo7]
    · isplitl [Hoo0]; · iapply (Entails.of_eq (kept_piece_pt m c 0 _ _)); iexact Hoo0
      isplitl [Hoo1]; · iapply (Entails.of_eq (kept_piece_pt m c 1 _ _)); iexact Hoo1
      isplitl [Hoo2]; · iapply (Entails.of_eq (kept_piece_pt m c 2 _ _)); iexact Hoo2
      isplitl [Hoo3]; · iapply (Entails.of_eq (kept_piece_pt m c 3 _ _)); iexact Hoo3
      isplitl [Hoo4]; · iapply (Entails.of_eq (kept_piece_pt m c 4 _ _)); iexact Hoo4
      isplitl [Hoo5]; · iapply (Entails.of_eq (kept_piece_pt m c 5 _ _)); iexact Hoo5
      isplitl [Hoo6]; · iapply (Entails.of_eq (kept_piece_pt m c 6 _ _)); iexact Hoo6
      iapply (Entails.of_eq (kept_piece_pt m c 7 _ _)); iexact Hoo7
    isplitl [Hor0 Hor1 Hor2 Hor3 Hor4 Hor5 Hor6 Hor7]
    · isplitl [Hor0]; · iexact Hor0
      isplitl [Hor1]; · iexact Hor1
      isplitl [Hor2]; · iexact Hor2
      isplitl [Hor3]; · iexact Hor3
      isplitl [Hor4]; · iexact Hor4
      isplitl [Hor5]; · iexact Hor5
      isplitl [Hor6]; · iexact Hor6
      iexact Hor7
    isplitl [Hl0]; · iexists _; iexact Hl0
    isplitl [Hl1]; · iexists _; iexact Hl1
    isplitl [Hs0]; · iexists _; iexact Hs0
    iexists _; iexact Hs1
  imodintro
  iapply Hk
  isplitl [HΦ]; · iexact HΦ
  iexists _; iexact HO

end Cert.Kernel.A2A

end
-- ==== Proof.Kernel.Run.lean ====
/-
  The exchange run on every device at once: every weakly fair execution ends, no access faults, each device's result holds
  `outC` and its rows of `x` are as launched.
-/
import proofs.«900628_g7700000000000629_dist_a2a_v7x_xyz2x2x2_z_m16384_n1024_f32_1_alg».proof.Proof.Kernel.Launch
import proofs.«900628_g7700000000000629_dist_a2a_v7x_xyz2x2x2_z_m16384_n1024_f32_1_alg».proof.Proof.Kernel.Chain

noncomputable section

namespace Cert.Kernel.A2A

open Cert.Kernel Cert.Kernel.Gen

open Idealize.ShloMosaic
open Idealize.ShloMosaic.TcCoe
open Idealize.SL Idealize.SL.Sem

theorem run_main {F : FTy → Type} [FloatOps F] (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c.tc : Thread nD τ).loc main_v1) = outC m c
        ∧ r.2.mem ((c.tc : Thread nD τ).loc main_arg0) = m ((c.tc : Thread nD τ).loc main_arg0)) :=
  run_of_body m ρ (sound_body m)

/-- info: 'Cert.Kernel.A2A.run_main' depends on axioms: [propext, Classical.choice, Quot.sound] -/
#guard_msgs in #print axioms run_main

end Cert.Kernel.A2A

end
-- ==== Proof.KernelIdeal.Base.lean ====
/-
  The all-to-all exchange between the two devices of a pair along the mesh's last axis: the shared vocabulary.
  Device `c` (position `z = c mod 2` on that axis) holds rows `[16384 z, 16384 z + 16384)` of the whole
  `x : f32[32768, 2048]` and must end holding columns `[1024 z, 1024 z + 1024)` of it. Its partner `peer c` differs
  from it in `z` only. In eight chunks of 2048 rows, `c` copies the column half its partner needs into a two-slot send
  buffer and from there into the partner's result (rows `16384 z + 2048 i` on), and the column half it keeps into a
  two-slot local buffer and from there into its own result at the same rows.
  Here: the partner, the memrefs the body names, and the contents every buffer piece is known to hold.
-/
import proofs.«900628_g7700000000000629_dist_a2a_v7x_xyz2x2x2_z_m16384_n1024_f32_1_alg».proof.Proof.Gen.KernelIdeal
import proofs.«900628_g7700000000000629_dist_a2a_v7x_xyz2x2x2_z_m16384_n1024_f32_1_alg».proof.Proof.Gen.KernelIdeal.Skeleton
import proofs.«900628_g7700000000000629_dist_a2a_v7x_xyz2x2x2_z_m16384_n1024_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic
import Idealize.ShloMosaic.Lib.Transfers

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's copy, the protocol's (one duty a round: duties `Unit`), and the counters of
the local copies in flight -/

abbrev UB : Type := URounds (GSem nD τ sig) Unit
abbrev UX : Type := UB × Counters
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR
abbrev ER : Emb UB (MT nD τ sig Unit (Elt F) ℕ UU ℕ) := (Emb.inl : Emb UB UX).trans embR
abbrev EC : UEmb Counters (MT nD τ sig Unit (Elt F) ℕ UU ℕ) := countersEmb

omit [FloatOps F] in
instance ER_landsIn : (ER (F := F)).LandsIn (upEmb : UEmb _ (MT nD τ sig Unit (Elt F) ℕ UU ℕ)) := by
  unfold ER embR; infer_instance
omit [FloatOps F] in
instance EC_landsIn : (EC (F := F)).LandsIn (upEmb : UEmb _ (MT nD τ sig Unit (Elt F) ℕ UU ℕ)) := by
  unfold EC countersEmb; infer_instance

variable (m : (ℓ : Loc nD τ sig) → Buf (Elt F) ℓ)

/-! ## The partner -/

/-- The device the body addresses: the same `x` and `y`, the other `z`. -/
def peer (c : Dev nD) : Dev nD := ⟨k0_dev1 c, k0_dev1_lt c⟩

theorem peer_val (c : Dev nD) : (peer c).val = (4 * (c.val / 4) + 2 * ((c.val / 2) % 2) + 1) - (c.val % 2) := k0_dev1_eq c
theorem peer_peer (c : Dev nD) : peer (peer c) = c := by
  apply Fin.ext; rw [peer_val, peer_val]; revert c; decide
theorem peer_ne (c : Dev nD) : peer c ≠ c := by
  intro h; have := congrArg Fin.val h; rw [peer_val] at this; revert c; decide

theorem dev1_eq (c : Dev nD) : (⟨k0_dev1 c, k0_dev1_lt c⟩ : Dev nD) = peer c := rfl
theorem dev2_eq (c : Dev nD) : (⟨k0_dev2 c, k0_dev2_lt c⟩ : Dev nD) = peer c := Fin.ext ((k0_dev2_eq c).trans (k0_dev1_eq c).symm)
theorem dev3_eq (c : Dev nD) : (⟨k0_dev3 c, k0_dev3_lt c⟩ : Dev nD) = peer c := Fin.ext ((k0_dev3_eq c).trans (k0_dev1_eq c).symm)
theorem dev4_eq (c : Dev nD) : (⟨k0_dev4 c, k0_dev4_lt c⟩ : Dev nD) = peer c := Fin.ext ((k0_dev4_eq c).trans (k0_dev1_eq c).symm)
theorem dev5_eq (c : Dev nD) : (⟨k0_dev5 c, k0_dev5_lt c⟩ : Dev nD) = peer c := Fin.ext ((k0_dev5_eq c).trans (k0_dev1_eq c).symm)
theorem dev6_eq (c : Dev nD) : (⟨k0_dev6 c, k0_dev6_lt c⟩ : Dev nD) = peer c := Fin.ext ((k0_dev6_eq c).trans (k0_dev1_eq c).symm)
theorem dev7_eq (c : Dev nD) : (⟨k0_dev7 c, k0_dev7_lt c⟩ : Dev nD) = peer c := Fin.ext ((k0_dev7_eq c).trans (k0_dev1_eq c).symm)
theorem dev8_eq (c : Dev nD) : (⟨k0_dev8 c, k0_dev8_lt c⟩ : Dev nD) = peer c := Fin.ext ((k0_dev8_eq c).trans (k0_dev1_eq c).symm)
theorem dev9_eq (c : Dev nD) : (⟨k0_dev9 c, k0_dev9_lt c⟩ : Dev nD) = peer c := Fin.ext ((k0_dev9_eq c).trans (k0_dev1_eq c).symm)

/-- The device's position on the axis the exchange runs along. -/
def zc (c : Dev nD) : ℕ := c.val % 2
theorem zc_lt (c : Dev nD) : zc c < 2 := Nat.mod_lt _ (by decide)
theorem zc_peer (c : Dev nD) : zc (peer c) = 1 - zc c := by unfold zc; rw [peer_val]; revert c; decide

/-! ## The memrefs -/

abbrev xM : Memref sig .tc .hbm S16384x2048 .f32 := Memref.whole main_arg0
abbrev oM : Memref sig .tc .hbm S32768x1024 .f32 := Memref.whole main_v1
abbrev lM : Memref sig .tc .vmem S2x2048x1024 .f32 := Memref.whole cc0_scratch0
abbrev sM : Memref sig .tc .vmem S2x2048x1024 .f32 := Memref.whole cc0_scratch1

/-- Slot `k` of a two-slot scratch buffer, as the body spells it (`k` a literal `0` or `1` there). -/
theorem slot_inb (k : ℕ) (hk : k < 2) : ∀ a, (![k, 0, 0] : Fin 3 → Nat) a + S1x2048x1024.size a ≤ S2x2048x1024.size a := by
  intro a; fin_cases a
  · show k + 1 ≤ 2; omega
  · show 0 + 2048 ≤ 2048; omega
  · show 0 + 1024 ≤ 1024; omega
abbrev slotAt (M : Memref sig .tc .vmem S2x2048x1024 .f32) (k : ℕ) (hk : k < 2) : Memref sig .tc .vmem S2048x1024 .f32 :=
  (M.slice (Rect.unit (s := S2x2048x1024) ![k, 0, 0] S1x2048x1024.size (slot_inb k hk)) (fun _ => rfl)).squeeze S2048x1024 squeezes_S1x2048x1024_S2048x1024
/-- Chunk `i` goes through slot `i mod 2`. -/
abbrev slotOf (M : Memref sig .tc .vmem S2x2048x1024 .f32) (i : Fin 8) : Memref sig .tc .vmem S2048x1024 .f32 :=
  slotAt M (i.val % 2) (Nat.mod_lt _ (by decide))

/-- A 2048 × 1024 block of this device's rows of `x`, and of its result, at an offset. -/
abbrev xSl (o : Fin 2 → Nat) (h : ∀ a, o a + S2048x1024.size a ≤ S16384x2048.size a) : Memref sig .tc .hbm S2048x1024 .f32 :=
  xM.slice (Rect.unit (s := S16384x2048) o S2048x1024.size h) (fun _ => rfl)
abbrev oSl (o : Fin 2 → Nat) (h : ∀ a, o a + S2048x1024.size a ≤ S32768x1024.size a) : Memref sig .tc .hbm S2048x1024 .f32 :=
  oM.slice (Rect.unit (s := S32768x1024) o S2048x1024.size h) (fun _ => rfl)

/-- Chunk `i`'s block of `x` that goes to the partner (the column half `1 - z`), by the body's own offset chains. -/
def sendOff (c : Dev nD) : Fin 8 → (Fin 2 → Nat)
  | 0 => k0_off1 c | 1 => k0_off4 c | 2 => k0_off6 c | 3 => k0_off8 c | 4 => k0_off10 c | 5 => k0_off12 c | 6 => k0_off14 c | 7 => k0_off16 c
theorem sendOff_inb (c : Dev nD) : ∀ (i : Fin 8) a, sendOff c i a + S2048x1024.size a ≤ S16384x2048.size a
  | 0 => k0_off1_inb c | 1 => k0_off4_inb c | 2 => k0_off6_inb c | 3 => k0_off8_inb c | 4 => k0_off10_inb c | 5 => k0_off12_inb c | 6 => k0_off14_inb c | 7 => k0_off16_inb c
/-- Chunk `i`'s block of `x` that stays (the column half `z`). -/
def keepOff (c : Dev nD) : Fin 8 → (Fin 2 → Nat)
  | 0 => k0_off3 c | 1 => k0_off5 c | 2 => k0_off7 c | 3 => k0_off9 c | 4 => k0_off11 c | 5 => k0_off13 c | 6 => k0_off15 c | 7 => k0_off17 c
theorem keepOff_inb (c : Dev nD) : ∀ (i : Fin 8) a, keepOff c i a + S2048x1024.size a ≤ S16384x2048.size a
  | 0 => k0_off3_inb c | 1 => k0_off5_inb c | 2 => k0_off7_inb c | 3 => k0_off9_inb c | 4 => k0_off11_inb c | 5 => k0_off13_inb c | 6 => k0_off15_inb c | 7 => k0_off17_inb c
/-- Chunk `i`'s rows of a result: rows `16384 z + 2048 i` on, `z` the WRITER's position — device `c` writes them in its
    own result (from the local buffer) and in its partner's (from the send buffer). -/
def outOff (c : Dev nD) (i : Fin 8) : Fin 2 → Nat := k0_off2 c (BitVec.ofNat 32 (2048 * i.val))
theorem outOff_inb (c : Dev nD) (i : Fin 8) : ∀ a, outOff c i a + S2048x1024.size a ≤ S32768x1024.size a := k0_off2_inb c i

theorem sendOff_eq (c : Dev nD) (i : Fin 8) : sendOff c i = ![2048 * i.val, 1024 - 1024 * zc c] := by
  unfold zc; fin_cases i
  · exact k0_off1_eq c
  · exact k0_off4_eq c
  · exact k0_off6_eq c
  · exact k0_off8_eq c
  · exact k0_off10_eq c
  · exact k0_off12_eq c
  · exact k0_off14_eq c
  · exact k0_off16_eq c
theorem keepOff_eq (c : Dev nD) (i : Fin 8) : keepOff c i = ![2048 * i.val, 1024 * zc c] := by
  unfold zc; fin_cases i
  · exact k0_off3_eq c
  · exact k0_off5_eq c
  · exact k0_off7_eq c
  · exact k0_off9_eq c
  · exact k0_off11_eq c
  · exact k0_off13_eq c
  · exact k0_off15_eq c
  · exact k0_off17_eq c
theorem outOff_eq (c : Dev nD) (i : Fin 8) : outOff c i = ![16384 * zc c + 2048 * i.val, 0] := k0_off2_eq c i

abbrev xSend (c : Dev nD) (i : Fin 8) : Memref sig .tc .hbm S2048x1024 .f32 := xSl (sendOff c i) (sendOff_inb c i)
abbrev xKeep (c : Dev nD) (i : Fin 8) : Memref sig .tc .hbm S2048x1024 .f32 := xSl (keepOff c i) (keepOff_inb c i)
/-- Chunk `i`'s rows of a result as WRITER `w` addresses them. -/
abbrev oRows (w : Dev nD) (i : Fin 8) : Memref sig .tc .hbm S2048x1024 .f32 := oSl (outOff w i) (outOff_inb w i)

/-! ## Contents -/

/-- Device `c`'s rows of `x`, as launched. -/
def xOf (c : Dev nD) : Buf (Elt F) ((c : Thread nD τ).loc main_arg0) := m ((c : Thread nD τ).loc main_arg0)

/-- What device `c`'s result holds at the end: at a row of its own half (`row / 16384 = z`) its own `x` at that row's
    offset in the half, column `1024 z + col`; at a row of the other half the partner's. -/
def outC (c : Dev nD) : Buf (Elt F) ((c : Thread nD τ).loc main_v1) :=
  fun idx : S32768x1024.Idx =>
    if (idx 0).val / 16384 = zc c then
      xOf m c (ValueIdx.ix2 (⟨(idx 0).val % 16384, Nat.mod_lt _ (by decide)⟩ : Fin 16384) (⟨1024 * zc c + (idx 1).val, by have := zc_lt c; have h1 : (idx 1).val < 1024 := (idx 1).isLt; show _ < 2048; omega⟩ : Fin 2048))
    else
      xOf m (peer c) (ValueIdx.ix2 (⟨(idx 0).val % 16384, Nat.mod_lt _ (by decide)⟩ : Fin 16384) (⟨1024 * zc c + (idx 1).val, by have := zc_lt c; have h1 : (idx 1).val < 1024 := (idx 1).isLt; show _ < 2048; omega⟩ : Fin 2048))

/-! ## A piece of a buffer, held -/

/-- The elements of a memref's view on thread `c`, held outright at the buffer contents `f` (which matter on those
    elements only). -/
abbrev pts {sp : Space} {s : Shape} (c : Dev nD) (M : Memref sig .tc sp s .f32) (f : Buf (Elt F) (M.view.loc (c : Thread nD τ))) : sProp 𝕄 :=
  M.view.loc (c : Thread nD τ) ↦[M.view.set]{fullShare} f

omit [FloatOps F] in
/-- A write through a view on every index leaves, on the view's own elements, contents that do not depend on what was there. -/
theorem write_univ_congr {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := by
  intro i hi
  obtain ⟨y, rfl⟩ := View.exists_emb_of_mem_set v hi
  rw [View.write_emb_of_mem _ _ (Finset.mem_univ _), View.write_emb_of_mem _ _ (Finset.mem_univ _)]

end Cert.KernelIdeal.A2A

end
-- ==== Proof.KernelIdeal.Proto.lean ====
/-
  The protocol of the exchange, under the rounds discipline. Per device seventeen cells, each with ONE round of ONE
  duty: its barrier cell (the partner's entry signal, one unit, which hands over the partner's permission to write the
  eight row blocks of the partner's result that this device fills); its eight send cells (chunk `i`'s transfer has been
  read out of its send-buffer slot: the slot back, at any contents); its eight receive cells (the partner's chunk `i`
  has landed in this device's result: those rows, holding what the result must hold there). The four semaphores of the
  local copies belong to no cell: one copy at a time is in flight on each, issued and awaited by the device itself.
  A device owes, from launch, its partner's barrier cell one unit and each of its partner's receive cells a block's
  credit. Levels: barrier cells below receive cells, everything else at the bottom; a device waits on its barrier
  owing only receive credit, on its local and send semaphores likewise, and on its receive cells owing nothing.
-/
import proofs.«900628_g7700000000000629_dist_a2a_v7x_xyz2x2x2_z_m16384_n1024_f32_1_alg».proof.Proof.KernelIdeal.Base

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Semaphores and cells -/

abbrev barS : Sem sig := (SemArray.scalar (sig.barrier 0 rfl) : Sems sig S_).sem
/-- The local copies' semaphores, as the body spells them: into the local buffer, out of its two slots, into the send buffer. -/
abbrev lsemS : DmaSem sig := (cc0_scratch2 : DmaSems sig S_).sem
abbrev loutS0 : DmaSem sig := ((cc0_scratch3.slice (Rect.unit (s := S2) ![0] S1.size inb_S2_S1_0)).squeeze S_ squeezes_S1_S_ : DmaSems sig S_).sem
abbrev loutS1 : DmaSem sig := ((cc0_scratch3.slice (Rect.unit (s := S2) ![1] S1.size inb_S2_S1_1)).squeeze S_ squeezes_S1_S_ : DmaSems sig S_).sem
abbrev ssemS : DmaSem sig := (cc0_scratch4 : DmaSems sig S_).sem
/-- Chunk `i`'s send and receive semaphores: entries `i` of the two arrays of eight. -/
def sendS (i : Fin 8) : DmaSem sig := ⟨i.val + 4, by have := i.isLt; show i.val + 4 < 20; omega⟩
def recvS (i : Fin 8) : DmaSem sig := ⟨i.val + 12, by have := i.isLt; show i.val + 12 < 20; omega⟩

abbrev barCell (c : Dev nD) : GSem nD τ sig := ((c : Thread nD τ), .reg barS)
abbrev sendCell (c : Dev nD) (i : Fin 8) : GSem nD τ sig := ((c : Thread nD τ), .dma (sendS i))
abbrev recvCell (c : Dev nD) (i : Fin 8) : GSem nD τ sig := ((c : Thread nD τ), .dma (recvS i))

/-- A block's credit: the same for every 2048 × 1024 `f32` view. -/
abbrev N : ℕ := (slotAt sM 0 (by decide)).view.dmaCredit
theorem N_pos : 0 < N := View.dmaCredit_pos _ (by decide)
theorem credit_eq {sp : Space} (M : Memref sig .tc sp S2048x1024 .f32) : M.view.dmaCredit = N := rfl

/-! ## The schedule -/

/-- The cells of the protocol: the barrier semaphore, and the DMA semaphores from the send array on. -/
def isProto : SemLoc sig → Prop
  | .reg _ => True
  | .dma q => 4 ≤ q.val
instance : DecidablePred (isProto) := fun sm => by cases sm <;> unfold isProto <;> infer_instance

/-- The chunk a send or receive semaphore belongs to. -/
def chunkOf (q : DmaSem sig) : Fin 8 := ⟨(q.val - 4) % 8, Nat.mod_lt _ (by decide)⟩
theorem chunkOf_send (i : Fin 8) : chunkOf (sendS i) = i := by
  apply Fin.ext; show (i.val + 4 - 4) % 8 = i.val; have := i.isLt; omega
theorem chunkOf_recv (i : Fin 8) : chunkOf (recvS i) = i := by
  apply Fin.ext; show (i.val + 12 - 4) % 8 = i.val; have := i.isLt; omega

/-- What the partner's entry signal hands `c`: the eight row blocks of the PARTNER's result that `c` fills (at whatever they hold). -/
def barPay (c : Dev nD) : sProp 𝕄 := bigSep Finset.univ fun i : Fin 8 => iprop(∃ f, pts (peer c) (oRows c i) f)
/-- Chunk `i` read out of the send buffer: its slot back. -/
def sendPay (c : Dev nD) (i : Fin 8) : sProp 𝕄 := iprop(∃ f, pts c (slotOf sM i) f)
/-- The partner's chunk `i` landed: those rows of `c`'s result, at what the result holds there in the end. -/
def recvPay (c : Dev nD) (i : Fin 8) : sProp 𝕄 := pts c (oRows (peer c) i) (outC m c)

def sched : Rounds.Schedule (GSem nD τ sig) Unit 𝕄 where
  duties g r := if r = 0 ∧ g.1.2 = .tc ∧ isProto g.2 then {()} else ∅
  unitless _ := False
  amount g _ _ := match g.2 with
    | .reg _ => 1
    | .dma _ => N
  payload g _ _ := match g.2 with
    | .reg _ => barPay g.1.1
    | .dma q => if q.val < 12 then sendPay g.1.1 (chunkOf q) else recvPay m g.1.1 (chunkOf q)
  amount_pos g _ _ _ := by
    cases h : g.2 with
    | reg _ => simp only [h]; exact Nat.one_pos
    | dma _ => simp only [h]; exact N_pos

instance sched_payload_storable (g : GSem nD τ sig) (r : ℕ) (d : Unit) :
    BI.Storable (upEmb : UEmb _ 𝕄) ((sched (F := F) m).payload g r d) := by
  show BI.Storable upEmb (match g.2 with
    | .reg _ => barPay g.1.1
    | .dma q => if q.val < 12 then sendPay g.1.1 (chunkOf q) else recvPay m g.1.1 (chunkOf q))
  unfold barPay sendPay recvPay
  (repeat' split) <;> infer_instance

section Sched
variable (c : Dev nD) (i : Fin 8)

omit [FloatOps F] in
theorem duties_bar : (sched (F := F) m).duties (barCell c) 0 = {()} := by dsimp only [sched]; exact if_pos ⟨rfl, rfl, trivial⟩
omit [FloatOps F] in
theorem duties_send : (sched (F := F) m).duties (sendCell c i) 0 = {()} := by
  dsimp only [sched]; exact if_pos ⟨rfl, rfl, show 4 ≤ i.val + 4 by omega⟩
omit [FloatOps F] in
theorem duties_recv : (sched (F := F) m).duties (recvCell c i) 0 = {()} := by
  dsimp only [sched]; exact if_pos ⟨rfl, rfl, show 4 ≤ i.val + 12 by omega⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := rfl
omit [FloatOps F] in
theorem amount_send (d : Unit) : (sched (F := F) m).amount (sendCell c i) 0 d = N := rfl
omit [FloatOps F] in
theorem amount_recv (d : Unit) : (sched (F := F) m).amount (recvCell c i) 0 d = N := rfl

omit [FloatOps F] in
/-- A round of one duty expects that duty's amount. -/
theorem expect_of_single (g : GSem nD τ sig) (h : (sched (F := F) m).duties g 0 = {()}) : (sched (F := F) m).expect g 0 = (sched (F := F) m).amount g 0 () := by
  unfold Schedule.expect Schedule.amountOf
  rw [h, Finset.sum_singleton]
omit [FloatOps F] in
theorem expect_bar : (sched (F := F) m).expect (barCell c) 0 = 1 :=
  (expect_of_single m (barCell c) (duties_bar m c)).trans (amount_bar m c ())
omit [FloatOps F] in
theorem expect_send : (sched (F := F) m).expect (sendCell c i) 0 = N :=
  (expect_of_single m (sendCell c i) (duties_send m c i)).trans (amount_send m c i ())
omit [FloatOps F] in
theorem expect_recv : (sched (F := F) m).expect (recvCell c i) 0 = N :=
  (expect_of_single m (recvCell c i) (duties_recv m c i)).trans (amount_recv m c i ())

omit [FloatOps F] in
theorem payload_bar (d : Unit) : (sched (F := F) m).payload (barCell c) 0 d = barPay c := rfl
omit [FloatOps F] in
theorem payload_send (d : Unit) : (sched (F := F) m).payload (sendCell c i) 0 d = sendPay c i := by
  show (if i.val + 4 < 12 then sendPay c (chunkOf (sendS i)) else recvPay m c (chunkOf (sendS i))) = _
  rw [if_pos (by have := i.isLt; omega), chunkOf_send]
omit [FloatOps F] in
theorem payload_recv (d : Unit) : (sched (F := F) m).payload (recvCell c i) 0 d = recvPay m c i := by
  show (if i.val + 12 < 12 then sendPay c (chunkOf (recvS i)) else recvPay m c (chunkOf (recvS i))) = _
  rw [if_neg (by omega), chunkOf_recv]

omit [FloatOps F] in
theorem rest_bar : bigSep ((sched (F := F) m).duties (barCell c) 0 \ ∅) (fun d => (sched (F := F) m).payload (barCell c) 0 d) = barPay c := by
  rw [Finset.sdiff_empty, duties_bar, bigSep_singleton, payload_bar]
omit [FloatOps F] in
theorem rest_send : bigSep ((sched (F := F) m).duties (sendCell c i) 0 \ ∅) (fun d => (sched (F := F) m).payload (sendCell c i) 0 d) = sendPay c i := by
  rw [Finset.sdiff_empty, duties_send, bigSep_singleton, payload_send]
omit [FloatOps F] in
theorem rest_recv : bigSep ((sched (F := F) m).duties (recvCell c i) 0 \ ∅) (fun d => (sched (F := F) m).payload (recvCell c i) 0 d) = recvPay m c i := by
  rw [Finset.sdiff_empty, duties_recv, bigSep_singleton, payload_recv]

end Sched

/-! ## What each device owes at launch; the levels -/

/-- The block's credit device `c` owes its partner's receive cell `i`. -/
abbrev tRecv (c : Dev nD) (i : Fin 8) : CellTallies nD τ sig Unit := tallyAt (recvCell (peer c) i) () N
/-- The receive credit of the last `k` chunks, the earliest of them the LAST summand (each transfer peels the last summand). -/
def owedUp (c : Dev nD) : ℕ → CellTallies nD τ sig Unit
  | 0 => 0
  | k + 1 => owedUp c k + tRecv c ⟨(7 - k) % 8, Nat.mod_lt _ (by decide)⟩
/-- What `c` still owes once chunks `0 … n - 1` are on their way. -/
def owedFrom (c : Dev nD) (n : ℕ) : CellTallies nD τ sig Unit := owedUp c (8 - n)
/-- At launch: all eight, and the entry signal's unit (paid first). -/
def O₀ (c : Dev nD) : CellTallies nD τ sig Unit := owedFrom c 0 + tallyAt (barCell (peer c)) () 1

def L (g : GSem nD τ sig) : Finset Unit := if g.1.2 = .tc then {()} else ∅
/-- Barrier cells at 1, receive cells at 2, every other cell at 0. -/
def lv (g : GSem nD τ sig) (_ : Unit) : ℕ := match g.2 with
  | .reg _ => 1
  | .dma q => if 12 ≤ q.val then 2 else 0

/-- Everything a device owes once its entry signal is sent is receive credit of its partner's cells. -/
theorem owedUp_pos (c : Dev nD) : ∀ (k : ℕ) {g : GSem nD τ sig} {u : Unit}, 0 < owedUp c k g u → ∃ i, g = recvCell (peer c) i
  | 0, g, u, h => absurd h (Nat.lt_irrefl 0)
  | k + 1, g, u, h => by
    have h' : 0 < (owedUp c k + tRecv c ⟨(7 - k) % 8, Nat.mod_lt _ (by decide)⟩) g u := h
    rcases Pipeline.add_pos_cases h' with h | h
    · exact owedUp_pos c k h
    · exact ⟨_, (Pipeline.tallyAt_pos h).1⟩
theorem owedFrom_pos (c : Dev nD) (n : ℕ) {g : GSem nD τ sig} {u : Unit} (h : 0 < owedFrom c n g u) : ∃ i, g = recvCell (peer c) i :=
  owedUp_pos c (8 - n) h

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 8) : lv (recvCell c i) () = 2 := by
  show (if 12 ≤ i.val + 12 then 2 else 0) = 2; rw [if_pos (by omega)]

omit [FloatOps F] in
/-- A wait on a cell below the receive cells, by a device that owes receive credit only. -/
theorem mayWait_low (c : Dev nD) (sm : SemLoc sig) (hsm : lv ((c : Thread nD τ), sm) () < 2) (n : ℕ) :
    (levAts L lv : sProp 𝕄) ⊢ MayWait (c : Thread nD τ) sm () (owedFrom c n) :=
  Pipeline.mayWait_of_levAts (by rw [L_tc]; exact Finset.mem_singleton_self _) fun g u hg => by
    obtain ⟨i, rfl⟩ := owedFrom_pos c n hg
    exact ⟨by rw [L_tc]; exact Finset.mem_singleton_self _, by cases u; rw [lv_recv]; exact hsm⟩

end Cert.KernelIdeal.A2A

end
-- ==== Proof.KernelIdeal.Ghost.lean ====
/-
  What a device holds when its body starts and when it ends, and the pipeline library's proof data (a region with no
  window and one point).
-/
import proofs.«900628_g7700000000000629_dist_a2a_v7x_xyz2x2x2_z_m16384_n1024_f32_1_alg».proof.Proof.KernelIdeal.Proto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Names of the cells' invariants -/

/-- A device's seventeen cells by number: its barrier cell, its send cells, its receive cells. -/
def csem (k : Fin 17) : SemLoc sig := if h0 : k.val = 0 then .reg barS else .dma ⟨k.val + 3, by have := k.isLt; show k.val + 3 < 20; omega⟩
abbrev kcell (ck : Dev nD × Fin 17) : GSem nD τ sig := ((ck.1 : Thread nD τ), csem ck.2)
def kBar : Fin 17 := 0
def kSend (i : Fin 8) : Fin 17 := ⟨i.val + 1, by have := i.isLt; omega⟩
def kRecv (i : Fin 8) : Fin 17 := ⟨i.val + 9, by have := i.isLt; omega⟩
theorem kcell_bar (c : Dev nD) : kcell (c, kBar) = barCell c := rfl
theorem kcell_send (c : Dev nD) (i : Fin 8) : kcell (c, kSend i) = sendCell c i := by
  unfold kcell csem kSend; rw [dif_neg (Nat.succ_ne_zero _)]; rfl
theorem kcell_recv (c : Dev nD) (i : Fin 8) : kcell (c, kRecv i) = recvCell c i := by
  unfold kcell csem kRecv; rw [dif_neg (Nat.succ_ne_zero _)]; rfl

/-! ## The ghost state a device starts from -/

variable (K : Dev nD × Fin 17 → ℕ)

/-- The invariants device `c`'s body opens: its own seventeen cells', its partner's barrier cell's (its signal) and its
    partner's receive cells' (its transfers). -/
def invs (c : Dev nD) : sProp 𝕄 :=
  iprop(cellInv ER (sched m) (K (c, kBar)) (barCell c)
    ∗ (bigSep Finset.univ fun i : Fin 8 => cellInv ER (sched m) (K (c, kSend i)) (sendCell c i))
    ∗ (bigSep Finset.univ fun i : Fin 8 => cellInv ER (sched m) (K (c, kRecv i)) (recvCell c i))
    ∗ cellInv ER (sched m) (K (peer c, kBar)) (barCell (peer c))
    ∗ (bigSep Finset.univ fun i : Fin 8 => cellInv ER (sched m) (K (peer c, kRecv i)) (recvCell (peer c) i)))

instance invs_persistent (c : Dev nD) : BI.Persistent (invs m K c) := by unfold invs; infer_instance

/-- Round 0 of every cell the device touches is reached. -/
def reacheds (c : Dev nD) : sProp 𝕄 :=
  iprop(reached ER (barCell c) 0 ∗ (bigSep Finset.univ fun i : Fin 8 => reached ER (sendCell c i) 0)
    ∗ (bigSep Finset.univ fun i : Fin 8 => reached ER (recvCell c i) 0)
    ∗ reached ER (barCell (peer c)) 0 ∗ (bigSep Finset.univ fun i : Fin 8 => reached ER (recvCell (peer c) i) 0))

instance reacheds_persistent (c : Dev nD) : BI.Persistent (reacheds (F := F) c) := by unfold reacheds; infer_instance

/-- Its positions at round 0 of its own cells, and the tokens of the duties IT pays: its partner's barrier duty, its
    partner's eight receive duties, its own eight send duties. -/
def linear (c : Dev nD) : sProp 𝕄 :=
  iprop(atPos ER (barCell c) 0 ∅ 0 ∗ (bigSep Finset.univ fun i : Fin 8 => atPos ER (sendCell c i) 0 ∅ 0)
    ∗ (bigSep Finset.univ fun i : Fin 8 => atPos ER (recvCell c i) 0 ∅ 0)
    ∗ dutyTok ER (barCell (peer c)) 0 () ∗ (bigSep Finset.univ fun i : Fin 8 => dutyTok ER (recvCell (peer c) i) 0 ())
    ∗ (bigSep Finset.univ fun i : Fin 8 => dutyTok ER (sendCell c i) 0 ()))

def ghost (c : Dev nD) : sProp 𝕄 := iprop(invs m K c ∗ reacheds c ∗ linear c)

/-- The four local semaphores, at zero, in the device's hand. -/
def localSems (c : Dev nD) : sProp 𝕄 :=
  iprop(semVal ((c : Thread nD τ), .dma lsemS) 0 ∗ semVal ((c : Thread nD τ), .dma loutS0) 0 ∗ semVal ((c : Thread nD τ), .dma loutS1) 0
    ∗ semVal ((c : Thread nD τ), .dma ssemS) 0)

/-- The credit on its own cells for what the partner owes them. -/
def creds (c : Dev nD) : sProp 𝕄 :=
  iprop(cred (tallyAt (barCell c) () 1) ∗ (bigSep Finset.univ fun i : Fin 8 => cred (tallyAt (recvCell c i) () N)))

/-- What device `c`'s body starts from, besides its buffers. -/
def start (c : Dev nD) : sProp 𝕄 :=
  iprop((∃ K, ghost m K c) ∗ localSems c ∗ creds c ∗ levAts L lv)

/-- The buffers: `x` as launched, the result and the two scratch buffers at whatever they hold. -/
def bufs₀ (c : Dev nD) : sProp 𝕄 :=
  iprop((((c : Thread nD τ).loc main_arg0) ↦{fullShare} xOf m c) ∗ (∃ f, ((c : Thread nD τ).loc main_v1) ↦{fullShare} f)
    ∗ (∃ f, ((c : Thread nD τ).loc cc0_scratch0) ↦{fullShare} f) ∗ (∃ f, ((c : Thread nD τ).loc cc0_scratch1) ↦{fullShare} f))
/-- At the end: `x` unchanged, the result at its final contents. -/
def bufs₁ (c : Dev nD) : sProp 𝕄 :=
  iprop((((c : Thread nD τ).loc main_arg0) ↦{fullShare} xOf m c) ∗ (((c : Thread nD τ).loc main_v1) ↦{fullShare} outC m c)
    ∗ (∃ f, ((c : Thread nD τ).loc cc0_scratch0) ↦{fullShare} f) ∗ (∃ f, ((c : Thread nD τ).loc cc0_scratch1) ↦{fullShare} f))

/-- Every scoped semaphore of the device back at zero: the four local ones, the eight send and the eight receive cells' (closed). -/
def sems₁ (c : Dev nD) : sProp 𝕄 :=
  iprop(localSems c ∗ (bigSep Finset.univ fun i : Fin 8 => semVal (sendCell c i) 0) ∗ (bigSep Finset.univ fun i : Fin 8 => semVal (recvCell c i) 0))

def Φ₀ (c : Dev nD) : sProp 𝕄 := iprop(start m c ∗ bufs₀ m c)
def Φ₁ (c : Dev nD) : sProp 𝕄 := iprop(bufs₁ m c ∗ sems₁ c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The body, from what a device holds at its start and what it owes, to what it holds at its end, owing nothing. -/
def BodySpec : Prop := ∀ (c : Dev nD) (Kt : PUnit → sProp 𝕄),
    iprop((Φ₀ m c ∗ (∃ W, owes (c : Thread nD τ) (O₀ c) W)) ∗ ((Φ₁ m c ∗ (∃ W, owes (c : Thread nD τ) 0 W)) -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6) Kt

end Cert.KernelIdeal.A2A

end
-- ==== Proof.KernelIdeal.Alloc.lean ====
/-
  The launch's ghost state: the protocol's cells funded for all devices at once, each device's own semaphores turned
  into its cells' invariants (the four local ones kept in hand), the duty tokens dealt to the devices that pay them,
  and the launch credit read as each device's credit on its own cells.
-/
import proofs.«900628_g7700000000000629_dist_a2a_v7x_xyz2x2x2_z_m16384_n1024_f32_1_alg».proof.Proof.KernelIdeal.Ghost

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's own (scoped) semaphores, as the launch theorem indexes them: all twenty DMA semaphores. -/
abbrev osem : Fin 20 → SemLoc sig := fun q => .dma q

theorem ownSemFacts : Pipeline.OwnSemFacts cfg0.spec osem := by decide

/-! ## The protocol's cells and tokens -/

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's seventeen cells. -/
def ringCells : Finset (GSem nD τ sig) := Finset.univ.map ⟨kcell, kcell_injective⟩

/-- A cell's one duty token as minted: round 0, the one duty. -/
abbrev tokOf (ck : Dev nD × Fin 17) : GSem nD τ sig × ℕ × Unit := (kcell ck, 0, ())
theorem tokOf_injective : Function.Injective (tokOf : Dev nD × Fin 17 → GSem nD τ sig × ℕ × Unit) :=
  fun _ _ h => kcell_injective (congrArg Prod.fst h)
def ringToks : Finset (GSem nD τ sig × ℕ × Unit) := Finset.univ.map ⟨tokOf, tokOf_injective⟩

/-- The launch element: the pipeline library's copy, the protocol's cells and tokens, no counter. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 := bigSep Finset.univ fun k : Fin 17 => dutyTok ER (kcell (c, k)) 0 ()

/-- What the launch element deals device `c`. -/
def G (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ toks c)
/-- What the global step makes of it. -/
def G' (c : Dev nD) : sProp 𝕄 := iprop((∃ K, ghost m K c) ∗ localSems c)

/-! ## Seventeen cells: the barrier cell, eight send cells, eight receive cells -/

theorem kSend_injective : Function.Injective kSend := by decide
theorem kRecv_injective : Function.Injective kRecv := by decide

theorem univ17 : (Finset.univ : Finset (Fin 17))
    = insert kBar (Finset.univ.map ⟨kSend, kSend_injective⟩ ∪ Finset.univ.map ⟨kRecv, kRecv_injective⟩) := by decide

omit [FloatOps F] in
theorem bigSep_fin17 (Φ : Fin 17 → sProp 𝕄) :
    bigSep Finset.univ Φ = iprop(Φ kBar ∗ (bigSep Finset.univ fun i : Fin 8 => Φ (kSend i)) ∗ (bigSep Finset.univ fun i : Fin 8 => Φ (kRecv i))) := by
  rw [univ17, bigSep_insert (by decide), bigSep_union (by decide), bigSep_map, bigSep_map]
  rfl

omit [FloatOps F] in
/-- An assertion about each of a device's seventeen cells, by kind of cell. -/
theorem bigSep_cells (c : Dev nD) (Φ : GSem nD τ sig → sProp 𝕄) :
    (bigSep Finset.univ fun k : Fin 17 => Φ (kcell (c, k)))
      = iprop(Φ (barCell c) ∗ (bigSep Finset.univ fun i : Fin 8 => Φ (sendCell c i)) ∗ (bigSep Finset.univ fun i : Fin 8 => Φ (recvCell c i))) := by
  rw [bigSep_fin17, kcell_bar, funext fun i => congrArg Φ (kcell_send c i), funext fun i => congrArg Φ (kcell_recv c i)]

/-! ## Funding -/

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (own_pair_emb (EX (F := F)) _ _) $$ HX
  icases HX' with ⟨HR, -⟩
  imod (fund_ring m) $$ HR with HG
  imodintro
  isplitl [HP] <;> iassumption

/-! ## The semaphores at zero -/

theorem sendS_injective : Function.Injective sendS := by decide
theorem recvS_injective : Function.Injective recvS := by decide

theorem univ20 : (Finset.univ : Finset (Fin 20))
    = insert 0 (insert 1 (insert 2 (insert 3 (Finset.univ.map ⟨sendS, sendS_injective⟩ ∪ Finset.univ.map ⟨recvS, recvS_injective⟩)))) := by decide

omit [FloatOps F] in
/-- An assertion about each of the twenty DMA semaphores: the four local ones, the send array's, the receive array's. -/
theorem bigSep_fin20 (Φ : Fin 20 → sProp 𝕄) :
    bigSep Finset.univ Φ = iprop(Φ 0 ∗ Φ 1 ∗ Φ 2 ∗ Φ 3 ∗ (bigSep Finset.univ fun i : Fin 8 => Φ (sendS i)) ∗ (bigSep Finset.univ fun i : Fin 8 => Φ (recvS i))) := by
  rw [univ20, bigSep_insert (by decide), bigSep_insert (by decide), bigSep_insert (by decide), bigSep_insert (by decide), bigSep_union (by decide),
    bigSep_map, bigSep_map]
  rfl

omit [FloatOps F] in
/-- The device's own twenty semaphores: the four local ones, the eight send cells', the eight receive cells'. -/
theorem ownSems0_eq (c : Dev nD) : (Pipeline.ownSems0 (Ix := Unit) (Name := ℕ) (U := UU) (Lvl := ℕ) (Val := Elt F) (τ := τ) osem c : sProp 𝕄)
    = iprop(localSems c ∗ (bigSep Finset.univ fun i : Fin 8 => semVal (sendCell c i) 0) ∗ (bigSep Finset.univ fun i : Fin 8 => semVal (recvCell c i) 0)) := by
  unfold Pipeline.ownSems0 localSems
  rw [bigSep_fin20]
  refine BI.Entails.antisymm (show _ ⊢ (_ : sProp 𝕄) from ?_) (show _ ⊢ (_ : sProp 𝕄) from ?_)
  · iintro ⟨H0, H1, H2, H3, HS, HV⟩
    isplitl [H0 H1 H2 H3]
    · isplitl [H0]; · iexact H0
      isplitl [H1]; · iexact H1
      isplitl [H2]; · iexact H2
      iexact H3
    isplitl [HS]; · iexact HS
    iexact HV
  · iintro ⟨⟨H0, H1, H2, H3⟩, HS, HV⟩
    isplitl [H0]; · iexact H0
    isplitl [H1]; · iexact H1
    isplitl [H2]; · iexact H2
    isplitl [H3]; · iexact H3
    isplitl [HS]; · iexact HS
    iexact HV

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : Fin 17 => semVal (kcell (c, k)) 0) : sProp 𝕄) := by
  rw [ownSems0_eq, unscopedSems0_eq, bigSep_cells c (fun g => semVal g 0)]
  iintro ⟨⟨HL, HS, HV⟩, HB⟩
  isplitl [HL]; · iexact HL
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : Fin 17 => semVal (kcell (c, k)) 0) ∗ bigSep Finset.univ fun k : Fin 17 => roundState ER (sched m) (kcell (c, k)) 0)
      ⊢ (|={Set.univ}=> bigSep Finset.univ fun k : Fin 17 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## The records every device reads, and what stays with each -/

def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)

instance records_persistent (K : Dev nD × Fin 17 → ℕ) : BI.Persistent (records m K) := by unfold records; infer_instance

omit [FloatOps F] in
theorem inv_at (K : Dev nD × Fin 17 → ℕ) (ck : Dev nD × Fin 17) :
    (bigSep Finset.univ fun ck : Dev nD × Fin 17 => (cellInv ER (sched m) (K ck) (kcell ck) : sProp 𝕄)) ⊢ cellInv ER (sched m) (K ck) (kcell ck) :=
  bigSep_elim (Finset.mem_univ ck)
omit [FloatOps F] in
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

omit [FloatOps F] in
theorem inv_send (K : Dev nD × Fin 17 → ℕ) (c : Dev nD) (i : Fin 8) :
    (bigSep Finset.univ fun ck : Dev nD × Fin 17 => (cellInv ER (sched m) (K ck) (kcell ck) : sProp 𝕄)) ⊢ cellInv ER (sched m) (K (c, kSend i)) (sendCell c i) := by
  have h := inv_at m K (c, kSend i); rw [kcell_send] at h; exact h
omit [FloatOps F] in
theorem inv_recv (K : Dev nD × Fin 17 → ℕ) (c : Dev nD) (i : Fin 8) :
    (bigSep Finset.univ fun ck : Dev nD × Fin 17 => (cellInv ER (sched m) (K ck) (kcell ck) : sProp 𝕄)) ⊢ cellInv ER (sched m) (K (c, kRecv i)) (recvCell c i) := by
  have h := inv_at m K (c, kRecv i); rw [kcell_recv] at h; exact h
omit [FloatOps F] in
theorem reached_send (c : Dev nD) (i : Fin 8) :
    (bigSep Finset.univ fun ck : Dev nD × Fin 17 => (reached ER (kcell ck) 0 : sProp 𝕄)) ⊢ reached ER (sendCell c i) 0 := by
  have h := reached_at (F := F) (c, kSend i); rw [kcell_send] at h; exact h
omit [FloatOps F] in
theorem reached_recv (c : Dev nD) (i : Fin 8) :
    (bigSep Finset.univ fun ck : Dev nD × Fin 17 => (reached ER (kcell ck) 0 : sProp 𝕄)) ⊢ reached ER (recvCell c i) 0 := by
  have h := reached_at (F := F) (c, kRecv i); rw [kcell_recv] at h; exact h

omit [FloatOps F] in
theorem invs_intro (K : Dev nD × Fin 17 → ℕ) (c : Dev nD) : records m K ⊢ invs m K c := by
  unfold records invs
  iintro ⟨#HI, -⟩
  isplitr; · iapply (inv_at m K (c, kBar)); iexact HI
  isplitr; · iapply (bigSep_intro_persistent fun i _ => inv_send m K c i); iexact HI
  isplitr; · iapply (bigSep_intro_persistent fun i _ => inv_recv m K c i); iexact HI
  isplitr; · iapply (inv_at m K (peer c, kBar)); iexact HI
  iapply (bigSep_intro_persistent fun i _ => inv_recv m K (peer c) i); iexact HI

omit [FloatOps F] in
theorem reacheds_intro (K : Dev nD × Fin 17 → ℕ) (c : Dev nD) : records m K ⊢ reacheds c := by
  unfold records reacheds
  iintro ⟨-, #HR⟩
  isplitr; · iapply (reached_at (F := F) (c, kBar)); iexact HR
  isplitr; · iapply (bigSep_intro_persistent fun i _ => reached_send (F := F) c i); iexact HR
  isplitr; · iapply (bigSep_intro_persistent fun i _ => reached_recv (F := F) c i); iexact HR
  isplitr; · iapply (reached_at (F := F) (peer c, kBar)); iexact HR
  iapply (bigSep_intro_persistent fun i _ => reached_recv (F := F) (peer c) i); iexact HR

/-- The tokens of the duties device `c` pays: its partner's barrier duty, its partner's eight receive duties, its own
    eight send duties. -/
def payToks (c : Dev nD) : sProp 𝕄 :=
  iprop(dutyTok ER (barCell (peer c)) 0 () ∗ (bigSep Finset.univ fun i : Fin 8 => dutyTok ER (recvCell (peer c) i) 0 ())
    ∗ (bigSep Finset.univ fun i : Fin 8 => dutyTok ER (sendCell c i) 0 ()))

omit [FloatOps F] in
/-- A device's positions on its seventeen cells and the tokens it pays with are its linear ghost state. -/
theorem deal (c : Dev nD) :
    iprop((bigSep Finset.univ fun k : Fin 17 => atPos ER (kcell (c, k)) 0 ∅ 0) ∗ payToks c ∗ localSems c) ⊢ (iprop(linear c ∗ localSems c) : sProp 𝕄) := by
  rw [bigSep_cells c (fun g => atPos ER g 0 ∅ 0)]
  unfold linear payToks
  iintro ⟨⟨HaB, HaS, HaV⟩, ⟨HtB, HtV, HtS⟩, HL⟩
  isplitr [HL]
  · isplitl [HaB]; · iexact HaB
    isplitl [HaS]; · iexact HaS
    isplitl [HaV]; · iexact HaV
    isplitl [HtB]; · iexact HtB
    isplitl [HtV] <;> iassumption
  · iexact HL

omit [FloatOps F] in
theorem ghost_intro (K : Dev nD × Fin 17 → ℕ) (c : Dev nD) : iprop(records m K ∗ linear c ∗ localSems c) ⊢ G' m c := by
  unfold G' ghost
  iintro ⟨#HR, HL, HS⟩
  isplitl [HL]
  · iexists K
    isplitr; · iapply (invs_intro m K c); iexact HR
    isplitr; · iapply (reacheds_intro m K c); iexact HR
    iexact HL
  · iexact HS

/-- The partner map as a permutation of the devices. -/
def pair : Dev nD ≃ Dev nD := ⟨peer, peer, peer_peer, peer_peer⟩

omit [FloatOps F] in
/-- The tokens dealt across each pair: a barrier cell's token and the eight receive cells' tokens go to the partner, the
    eight send cells' tokens stay. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_cells c (fun g => (dutyTok ER g 0 () : sProp 𝕄))),
    bigSep_sep', bigSep_sep', bigSep_sep', bigSep_sep',
    bigSep_univ_equiv pair (fun c : Dev nD => (dutyTok ER (barCell c) 0 () : sProp 𝕄)),
    bigSep_univ_equiv pair (fun c : Dev nD => (bigSep Finset.univ fun i : Fin 8 => dutyTok ER (recvCell c i) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem deal_all :
    iprop((bigSep Finset.univ fun c : Dev nD => bigSep Finset.univ fun k : Fin 17 => (atPos ER (kcell (c, k)) 0 ∅ 0 : sProp 𝕄))
        ∗ (bigSep Finset.univ fun c : Dev nD => payToks c) ∗ (bigSep Finset.univ fun c : Dev nD => localSems c))
      ⊢ (bigSep Finset.univ fun c : Dev nD => iprop(linear c ∗ localSems c) : sProp 𝕄) := by
  rw [← bigSep_sep', ← bigSep_sep']; exact bigSep_mono fun c _ => deal c

omit [FloatOps F] in
theorem regroup :
    (bigSep Finset.univ fun c : Dev nD => iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 17 => iprop(∃ κ : ℕ, cellInv ER (sched m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok, HLs⟩
  ihave HK := (BI.bigSep_exists_pi Finset.univ (fun (ck : Dev nD × Fin 17) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (deal_all (F := F))
    isplitl [Hat]; · iexact Hat
    isplitl [Htk] <;> iassumption

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes its partner's receive cells at launch, as a sum over the chunks. -/
theorem owedFrom_zero (d : Dev nD) : owedFrom d 0 = ∑ i : Fin 8, tRecv d i := by
  rw [Fin.sum_univ_eight]
  show 0 + tRecv d 7 + tRecv d 6 + tRecv d 5 + tRecv d 4 + tRecv d 3 + tRecv d 2 + tRecv d 1 + tRecv d 0 = _
  abel

omit [FloatOps F] in
/-- The receive credit every device owes its partner, read at device `c`'s own receive cells. -/
theorem recv_creds (c : Dev nD) :
    (bigSep Finset.univ fun i : Fin 8 => Pipeline.launchCred (fun d => tRecv d i) c : sProp 𝕄)
      ⊢ bigSep Finset.univ fun i : Fin 8 => cred (tallyAt (recvCell c i) () N) :=
  bigSep_mono fun i _ => Pipeline.launchCred_tallyAt (.dma (recvS i)) peer peer peer_peer peer_peer () N c

omit [FloatOps F] in
/-- The launch credit of device `c`: one unit on its barrier cell and a block's credit on each of its receive cells. -/
theorem creds_of_launch (c : Dev nD) : (Pipeline.launchCred O₀ c : sProp 𝕄) ⊢ creds c := by
  rw [show (O₀ : Dev nD → CellTallies nD τ sig Unit) = fun d => (∑ i : Fin 8, tRecv d i) + tallyAt (barCell (peer d)) () 1 from
      funext fun d => by rw [← owedFrom_zero]; rfl,
    Pipeline.launchCred_add, Pipeline.launchCred_sum]
  unfold creds
  iintro ⟨HR, HB⟩
  isplitl [HB]
  · iapply (Pipeline.launchCred_tallyAt (.reg barS) peer peer peer_peer peer_peer () 1 c); iexact HB
  · iapply (recv_creds (F := F) c); iexact HR

/-- info: 'Cert.KernelIdeal.A2A.fund_all' depends on axioms: [propext, Classical.choice, Quot.sound] -/
#guard_msgs in #print axioms fund_all
/-- info: 'Cert.KernelIdeal.A2A.glob' depends on axioms: [propext, Classical.choice, Quot.sound] -/
#guard_msgs in #print axioms glob
/-- info: 'Cert.KernelIdeal.A2A.creds_of_launch' depends on axioms: [propext, Classical.choice, Quot.sound] -/
#guard_msgs in #print axioms creds_of_launch

end Cert.KernelIdeal.A2A

end
-- ==== Proof.KernelIdeal.Launch.lean ====
/-
  The launch: from the body's specification on one device to the run of the whole mesh. The region has one point and no
  window; a device enters it with the protocol's start, its rows of `x` and its result, and leaves it with `x` unchanged,
  the result at its final contents and its twenty semaphores back at zero; the final memory is read off those two arrays.
-/
import proofs.«900628_g7700000000000629_dist_a2a_v7x_xyz2x2x2_z_m16384_n1024_f32_1_alg».proof.Proof.KernelIdeal.Alloc

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The library's body obligation on device `c`, from the body's own specification: the region has one point and no
    window, so the obligation is the specification with the bound on the recorded waits dropped and restored. -/
theorem body_obligation (hbody : BodySpec m) (c : Dev nD) :
    BodyObligation (dats (F := F) m 0 c) (defs₀ (F := F)) 𝒱₀ () Set.univ := fun t => by
  rw [fin_N t]
  refine BIBase.Entails.trans ?_ (hbody c _)
  unfold Dat.owesAt Pipeline.owesWithin
  rw [show (dats m 0 c).Φ t₀.castSucc = Φ₀ m c from rfl, show (dats m 0 c).Φ t₀.succ = Φ₁ m c from rfl,
    show (dats m 0 c).owed t₀.castSucc = O₀ c from rfl, show (dats m 0 c).owed t₀.succ = 0 from rfl]
  iintro ⟨HΦ, ⟨%W, -, HO⟩, -⟩
  isplitl [HΦ HO]
  · isplitl [HΦ]; · iexact HΦ
    iexists W; iexact HO
  · iintro ⟨HΦ1, %W1, HO1⟩
    isplitl [HΦ1]; · iexact HΦ1
    isplitl [HO1]
    · iexists W1
      isplitr; · ipureintro; exact fun _ _ => Or.inl trivial
      iexact HO1
    · rw [Finset.univ_eq_empty, bigSep_empty]; iempintro

/-! ## What a device holds around its region -/

/-- Entering the region: the protocol's start, its rows of `x` as launched, its result at whatever it holds. -/
def X (c : Dev nD) : sProp 𝕄 :=
  iprop(start m c ∗ (((c : Thread nD τ).loc main_arg0) ↦{fullShare} xOf m c) ∗ (∃ f, ((c : Thread nD τ).loc main_v1) ↦{fullShare} f))
/-- Leaving it: its rows of `x` unchanged, its result at its final contents. -/
def Y (c : Dev nD) : sProp 𝕄 :=
  iprop((((c : Thread nD τ).loc main_arg0) ↦{fullShare} xOf m c) ∗ (((c : Thread nD τ).loc main_v1) ↦{fullShare} outC m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds_of_launch (F := F) c) $$ Hcr
  imodintro
  unfold X start G' xOf
  icases HG with ⟨HK, Hls⟩
  isplitl
  · isplitl [HK Hls Hc Hlev]
    · isplitl [HK]; · iexact HK
      isplitl [Hls]; · iexact Hls
      isplitl [Hc]; · iexact Hc
      iexact Hlev
    · isplitl [Hx]; · iexact Hx
      iexists _; iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X bufs₀
  iintro ⟨⟨Hs, Hx, Ho⟩, -, Hs0, Hs1⟩
  isplitl [Hs]; · iexact Hs
  isplitl [Hx]; · iexact Hx
  isplitl [Ho]; · iexact Ho
  isplitl [Hs0]; · iexact Hs0
  iexact Hs1

theorem waits (c : Dev nD) : (levAts L lv : sProp 𝕄) ⊢ Pipeline.cellsWaits cfgs (dats m) () 0 c :=
  Pipeline.cellsWaits_intro cfgs (dats m) () 0 c fun w s t => w.elim0

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ bufs₁ sems₁ Y
  iintro ⟨⟨Hx, Ho, Hs0, Hs1⟩, Hsems⟩
  isplitl [Hx Ho]
  · isplitl [Hx]; · iexact Hx
    iexact Ho
  isplitl [Hsems]; · iexact Hsems
  isplitl [Hs0]; · iexact Hs0
  iexact Hs1

/-! ## The run -/

set_option maxRecDepth 8000 in
/-- At the compiled mesh of eight devices, for any float values, from any memory with zero counters, given the body's
    specification: every weakly fair execution of @main — each device signalling its partner, exchanging the eight
    chunks with it and copying its own — ends, and every final state has each device's result at `outC` and its rows
    of `x` as launched. -/
theorem run_of_body (hbody : BodySpec m) :
    θ_run defs (onTc (τ := τ) (main (F := F))) ⟨m, fun _ => 0, ρ⟩
      (fun r => ∀ c : Dev nD, r.2.mem ((c.tc : Thread nD τ).loc main_v1) = outC m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c.tc : Thread nD τ).loc main_v1) = outC m c
      ∧ s.mem ((c.tc : Thread nD τ).loc main_arg0) = m ((c.tc : Thread nD τ).loc main_arg0))
    (hY := fun c s' => by
      unfold Y xOf
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

end Cert.KernelIdeal.A2A

end
-- ==== Proof.KernelIdeal.Value.lean ====
/-
  What the copies leave in the result, index by index: a block written from the rows of `x` a device keeps, and a
  block written from the rows its partner sends, hold on their own elements what the result holds there in the end.
-/
import proofs.«900628_g7700000000000629_dist_a2a_v7x_xyz2x2x2_z_m16384_n1024_f32_1_alg».proof.Proof.KernelIdeal.Base

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A statement about every element under a view follows from the statement at the image of every index. -/
theorem forall_mem_set_of_emb {κ : Kind} {sp : Space} {s : Shape} {e : EltTy} (v : View sig κ sp s e) (P : v.ty.Idx → Prop)
    (h : ∀ y : s.Idx, P (v.emb y)) : ∀ i ∈ v.set, P i := by
  intro i hi
  obtain ⟨y, rfl⟩ := View.exists_emb_of_mem_set v hi
  exact h y

/-- Where an index of a block of the result sits in the result: the block's offset plus the index. -/
theorem oSl_emb_val (o : Fin 2 → Nat) (h : ∀ a, o a + S2048x1024.size a ≤ S32768x1024.size a) (y : S2048x1024.Idx) (a : Fin 2) :
    (((oSl o h).view.emb y) a).val = o a + 1 * (y a).val := rfl

/-- Where an index of a block of `x` sits in `x`. -/
theorem xSl_emb_val (o : Fin 2 → Nat) (h : ∀ a, o a + S2048x1024.size a ≤ S16384x2048.size a) (y : S2048x1024.Idx) (a : Fin 2) :
    (((xSl o h).view.emb y) a).val = o a + 1 * (y a).val := rfl

omit [FloatOps F] in
/-- A block of the result written, on every index, with a block read from contents `X` of `x`'s type holds at the
    place of index `y` what `X` holds at the place of `y` in the block read. -/
theorem write_read_emb (oo ox : Fin 2 → Nat) (ho : ∀ a, oo a + S2048x1024.size a ≤ S32768x1024.size a)
    (hx : ∀ a, ox a + S2048x1024.size a ≤ S16384x2048.size a) (c d : Dev nD)
    (fd : Buf (Elt F) ((c : Thread nD τ).loc main_v1)) (X : Buf (Elt F) ((d : Thread nD τ).loc main_arg0)) (y : S2048x1024.Idx) :
    (oSl oo ho).view.write (Elt F) fd ((xSl ox hx).view.read (Elt F) X) Finset.univ ((oSl oo ho).view.emb y)
      = X ((xSl ox hx).view.emb y) := by
  rw [View.write_emb_of_mem _ _ (Finset.mem_univ _), View.read_apply]
  rfl

omit [FloatOps F] in
/-- The result at a row of the device's own half: its own `x` at the row's offset in the half, in its own column half. -/
theorem outC_own (c : Dev nD) (j : S32768x1024.Idx) (k : S16384x2048.Idx)
    (h0 : (j 0).val / 16384 = zc c) (hr : (k 0).val = (j 0).val % 16384) (hc : (k 1).val = 1024 * zc c + (j 1).val) :
    outC m c j = xOf m c k := by
  unfold outC
  rw [if_pos h0]
  congr 1
  funext a
  match a with
  | ⟨0, _⟩ => exact Fin.ext hr.symm
  | ⟨1, _⟩ => exact Fin.ext hc.symm

omit [FloatOps F] in
/-- The result at a row of the other half: the partner's `x` at the row's offset in that half, in this device's column half. -/
theorem outC_other (c : Dev nD) (j : S32768x1024.Idx) (k : S16384x2048.Idx)
    (h0 : (j 0).val / 16384 ≠ zc c) (hr : (k 0).val = (j 0).val % 16384) (hc : (k 1).val = 1024 * zc c + (j 1).val) :
    outC m c j = xOf m (peer c) k := by
  unfold outC
  rw [if_neg h0]
  congr 1
  funext a
  match a with
  | ⟨0, _⟩ => exact Fin.ext hr.symm
  | ⟨1, _⟩ => exact Fin.ext hc.symm

omit [FloatOps F] in
/-- The kept chunk over abstract offsets: rows `16384 z + 2048 i` on of the result, from rows `2048 i` on and columns
    `1024 z` on of the device's own `x`. -/
theorem keep_piece_at (c : Dev nD) (i : Fin 8) (oo ox : Fin 2 → Nat)
    (ho : ∀ a, oo a + S2048x1024.size a ≤ S32768x1024.size a) (hx : ∀ a, ox a + S2048x1024.size a ≤ S16384x2048.size a)
    (eo : oo = ![16384 * zc c + 2048 * i.val, 0]) (ex : ox = ![2048 * i.val, 1024 * zc c])
    (fd : Buf (Elt F) ((c : Thread nD τ).loc main_v1)) :
    ∀ idx ∈ (oSl oo ho).view.set,
      (oSl oo ho).view.write (Elt F) fd ((xSl ox hx).view.read (Elt F) (xOf m c)) Finset.univ idx = outC m c idx := by
  refine forall_mem_set_of_emb _ _ fun y => ?_
  rw [write_read_emb]
  have hz := zc_lt c
  have hi : i.val < 8 := i.isLt
  have y0 : (y 0).val < 2048 := (y 0).isLt
  have y1 : (y 1).val < 1024 := (y 1).isLt
  have o0 := oSl_emb_val oo ho y 0
  have o1 := oSl_emb_val oo ho y 1
  have x0 := xSl_emb_val ox hx y 0
  have x1 := xSl_emb_val ox hx y 1
  subst eo ex
  refine (outC_own m c _ _ ?_ ?_ ?_).symm
  · rw [o0]; show (16384 * zc c + 2048 * i.val + 1 * (y 0).val) / 16384 = zc c; omega
  · rw [o0, x0]; show 2048 * i.val + 1 * (y 0).val = (16384 * zc c + 2048 * i.val + 1 * (y 0).val) % 16384; omega
  · rw [o1, x1]; show 1024 * zc c + 1 * (y 1).val = 1024 * zc c + (0 + 1 * (y 1).val); omega

omit [FloatOps F] in
/-- The received chunk over abstract offsets: rows `16384 (1 - z) + 2048 i` on of the result, from rows `2048 i` on and
    columns `1024 z` on of the partner's `x` (the partner's position is `1 - z`, the column half it sends `1 - (1 - z)`). -/
theorem recv_piece_at (c : Dev nD) (i : Fin 8) (oo ox : Fin 2 → Nat)
    (ho : ∀ a, oo a + S2048x1024.size a ≤ S32768x1024.size a) (hx : ∀ a, ox a + S2048x1024.size a ≤ S16384x2048.size a)
    (eo : oo = ![16384 * zc (peer c) + 2048 * i.val, 0]) (ex : ox = ![2048 * i.val, 1024 - 1024 * zc (peer c)])
    (fd : Buf (Elt F) ((c : Thread nD τ).loc main_v1)) :
    ∀ idx ∈ (oSl oo ho).view.set,
      (oSl oo ho).view.write (Elt F) fd ((xSl ox hx).view.read (Elt F) (xOf m (peer c))) Finset.univ idx = outC m c idx := by
  refine forall_mem_set_of_emb _ _ fun y => ?_
  rw [write_read_emb]
  have hz := zc_lt c
  have hp := zc_peer c
  have hi : i.val < 8 := i.isLt
  have y0 : (y 0).val < 2048 := (y 0).isLt
  have y1 : (y 1).val < 1024 := (y 1).isLt
  have o0 := oSl_emb_val oo ho y 0
  have o1 := oSl_emb_val oo ho y 1
  have x0 := xSl_emb_val ox hx y 0
  have x1 := xSl_emb_val ox hx y 1
  subst eo ex
  refine (outC_other m c _ _ ?_ ?_ ?_).symm
  · rw [o0]; show (16384 * zc (peer c) + 2048 * i.val + 1 * (y 0).val) / 16384 ≠ zc c; omega
  · rw [o0, x0]; show 2048 * i.val + 1 * (y 0).val = (16384 * zc (peer c) + 2048 * i.val + 1 * (y 0).val) % 16384; omega
  · rw [o1, x1]; show 1024 - 1024 * zc (peer c) + 1 * (y 1).val = 1024 * zc c + (0 + 1 * (y 1).val); omega

omit [FloatOps F] in
/-- Chunk `i` of the column half that stays, written to the device's own rows `16384 z + 2048 i` on. -/
theorem keep_piece (c : Dev nD) (i : Fin 8) (fd : Buf (Elt F) ((c : Thread nD τ).loc main_v1)) :
    ∀ idx ∈ (oRows c i).view.set,
      (oRows c i).view.write (Elt F) fd ((xKeep c i).view.read (Elt F) (xOf m c)) Finset.univ idx = outC m c idx :=
  keep_piece_at m c i _ _ _ _ (outOff_eq c i) (keepOff_eq c i) fd

omit [FloatOps F] in
/-- Chunk `i` of the column half the partner sends, written to rows `16384 (1 - z) + 2048 i` on. -/
theorem recv_piece (c : Dev nD) (i : Fin 8) (fd : Buf (Elt F) ((c : Thread nD τ).loc main_v1)) :
    ∀ idx ∈ (oRows (peer c) i).view.set,
      (oRows (peer c) i).view.write (Elt F) fd ((xSend (peer c) i).view.read (Elt F) (xOf m (peer c))) Finset.univ idx = outC m c idx :=
  recv_piece_at m c i _ _ _ _ (outOff_eq (peer c) i) (sendOff_eq (peer c) i) fd

/-- info: 'Cert.KernelIdeal.A2A.keep_piece' depends on axioms: [propext, Classical.choice, Quot.sound] -/
#guard_msgs in #print axioms keep_piece
/-- info: 'Cert.KernelIdeal.A2A.recv_piece' depends on axioms: [propext, Classical.choice, Quot.sound] -/
#guard_msgs in #print axioms recv_piece

end Cert.KernelIdeal.A2A

end
-- ==== Proof.KernelIdeal.Body.lean ====
/-
  The rules the body is stepped with, at the exchange's schedule: a local copy issued and awaited by the device
  itself on a semaphore it holds at zero; the entry signal and its wait; a chunk's transfer to the partner; the waits
  on a send cell and on a receive cell.
-/
import proofs.«900628_g7700000000000629_dist_a2a_v7x_xyz2x2x2_z_m16384_n1024_f32_1_alg».proof.Proof.KernelIdeal.Ghost
import proofs.«900628_g7700000000000629_dist_a2a_v7x_xyz2x2x2_z_m16384_n1024_f32_1_alg».proof.Proof.KernelIdeal.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 17 → ℕ)

omit [FloatOps F] in
/-- The block a device sends, written into its partner's rows, is what the PARTNER's result holds there in the end. -/
theorem sent_piece (c : Dev nD) (i : Fin 8) (fd : Buf (Elt F) ((peer c : Thread nD τ).loc main_v1)) :
    ∀ idx ∈ (oRows c i).view.set,
      (oRows c i).view.write (Elt F) fd ((xSend c i).view.read (Elt F) (xOf m c)) Finset.univ idx = outC m (peer c) idx := by
  have h := recv_piece m (peer c) i fd
  rw [peer_peer] at h
  exact h

section Steps

/-- A local copy issued on a semaphore the device holds at zero: source and destination go into the flight. -/
theorem issue_local {α : Type} {Q : α → sProp 𝕄} {k : PUnit → Prog (TpuEff nD τ sig (Elt F) Λ₀ .tc) α} {sp sp' : Space} (c : Dev nD) {src : Memref sig (c : Thread nD τ).2.kind sp S2048x1024 .f32} {dst : Memref sig (c : Thread nD τ).2.kind sp' S2048x1024 .f32} {q : DmaSem sig}
    {hsrc : src.view.WordExact} {hdst : dst.view.WordExact} {hsem : DmaTarget.Typed (nD := nD) sp (.dma q) (.here dst)}
    (fs : Buf (Elt F) (src.view.loc (c : Thread nD τ))) (fd : Buf (Elt F) (dst.view.loc (c : Thread nD τ))) :
    iprop((src.view.loc (c : Thread nD τ) ↦[src.view.set]{fullShare} fs) ∗ (dst.view.loc (c : Thread nD τ) ↦[dst.view.set]{fullShare} fd) ∗ semVal ((c : Thread nD τ), .dma q) 0)
      ⊢ iprop((Transfers.Flight EC (c : Thread nD τ) (.dma q) () N
                iprop((dst.view.loc (c : Thread nD τ) ↦[dst.view.set]{fullShare} (dst.view.write (Elt F) fd (src.view.read (Elt F) fs) Finset.univ))
                  ∗ (src.view.loc (c : Thread nD τ) ↦[src.view.set]{fullShare} fs))
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) hsrc hdst hsem) k) Q) :=
  Transfers.wp_dmaLocal EC 𝒱₀ (c : Thread nD τ) none (src := src) (via := .same) (dst := dst) (sm := .dma q) (q := fullShare) (fs := fs) (Sd := dst.view.set) (fd := fd)
    () N rfl N_pos (Finset.Subset.refl _)

/-- Its wait, by a device that owes receive credit only: what the copy delivers, and the semaphore at zero again. -/
theorem wait_local {α : Type} {Q : α → sProp 𝕄} {k : PUnit → Prog (TpuEff nD τ sig (Elt F) Λ₀ .tc) α} {sp sp' : Space} {κ' : Kind} {s' : Shape} {e' : EltTy} (c : Dev nD) {q : DmaSem sig} (hq : lv ((c : Thread nD τ), .dma q) () < 2) (n : ℕ)
    {srcw : Memref sig (c : Thread nD τ).2.kind sp' s' e'} {dstw : Memref sig κ' sp S2048x1024 .f32} {hsrc : srcw.view.WordExact} {hdst : dstw.view.WordExact}
    (hN : dstw.view.dmaCredit = N) {D : sProp 𝕄} {W : Waits sig Unit} :
    iprop(Transfers.Flight EC (c : Thread nD τ) (.dma q) () N D ∗ owes (c : Thread nD τ) (owedFrom c n) W ∗ levAts L lv)
      ⊢ iprop((iprop(D ∗ semVal ((c : Thread nD τ), .dma q) 0 ∗ owes (c : Thread nD τ) (owedFrom c n) (insert (SemLoc.dma q, ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  iintro ⟨HF, HO, #Hlev⟩
  iapply (Transfers.wp_waitLocalO EC 𝒱₀ (c : Thread nD τ) none () hN)
  isplitl [HF]; · iexact HF
  isplitl [HO]; · iexact HO
  iapply (mayWait_low c (.dma q) hq n); iexact Hlev

/-- The wait for the partner's entry signal, owing receive credit only: the partner's eight row blocks come with it. -/
theorem wait_bar {α : Type} {Q : α → sProp 𝕄} {k : PUnit → Prog (TpuEff nD τ sig (Elt F) Λ₀ .tc) α} (c : Dev nD) {k' : ℕ} (hk' : k' = 1) {W : Waits sig Unit} :
    iprop(cellInv ER (sched m) (K (c, kBar)) (barCell c) ∗ cred (tallyAt (barCell c) () 1) ∗ owes (c : Thread nD τ) (owedFrom c 0) W
        ∗ levAts L lv ∗ atPos ER (barCell c) 0 ∅ 0)
      ⊢ iprop(((owes (c : Thread nD τ) (owedFrom c 0) (insert (SemLoc.reg barS, ()) W) ∗ atPos ER (barCell c) 1 ∅ 0 ∗ barPay c)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  iintro ⟨#HI, Hc, HO, #Hlev, Hat⟩ Hk
  iapply (Rounds.wp_wait_rest_token 𝒱₀ ER (sched m) (c : Thread nD τ) none (κ := K (c, kBar))
      (wpE_semWait_eq 𝒱₀ (c : Thread nD τ) none Set.univ) (Set.mem_univ _) () (O := owedFrom c 0) (W := W) (R := 0) (m := 0) (T := ∅)
      (by rw [Nat.zero_add, expect_bar, hk'])) $$ [Hc HO Hat]
  · isplitr; · iexact HI
    isplitl [Hc]; · rw [hk']; iexact Hc
    isplitl [HO]; · iexact HO
    isplitr; · iapply (mayWait_low c (.reg barS) (by show (1 : ℕ) < 2; decide) 0); iexact Hlev
    iexact Hat
  iintro ⟨HO, Hat, -, Hpay⟩
  iapply Hk
  isplitl [HO]; · iexact HO
  isplitl [Hat]; · iexact Hat
  iapply (Entails.of_eq (rest_bar m c)); iexact Hpay

/-- Chunk `i`'s transfer to the partner `p`: the slot of the send buffer (holding the block) goes to the send cell, the
    partner's rows to the partner's receive cell, at what the partner's result holds there in the end. -/
theorem send_chunk {α : Type} {Q : α → sProp 𝕄} {k : PUnit → Prog (TpuEff nD τ sig (Elt F) Λ₀ .tc) α} (c : Dev nD) (i : Fin 8) (n n' : ℕ) (hO : owedFrom c n = owedFrom c n' + tRecv c i) (p : Dev nD) (hp : p = peer c)
    {hsc : ((oRows c i) : Memref sig (Dev.tc p : Thread nD τ).2.kind .hbm S2048x1024 .f32).view.ref.isScScratch = false}
    {hsrc : (slotOf sM i).view.WordExact} {hdst : (oRows c i).view.WordExact}
    {hsem : DmaTarget.Typed .vmem (.dma (recvS i)) (.remote (Dev.tc p : Thread nD τ) (oRows c i) (.dma (sendS i)) hsc)}
    (f0 : Buf (Elt F) ((c : Thread nD τ).loc cc0_scratch1)) (fd : Buf (Elt F) ((peer c : Thread nD τ).loc main_v1))
    {W : Waits sig Unit} :
    iprop(cellInv ER (sched m) (K (c, kSend i)) (sendCell c i) ∗ cellInv ER (sched m) (K (peer c, kRecv i)) (recvCell (peer c) i)
        ∗ pts c (slotOf sM i) ((slotOf sM i).view.write (Elt F) f0 ((xSend c i).view.read (Elt F) (xOf m c)) Finset.univ) ∗ pts (peer c) (oRows c i) fd
        ∗ owes (c : Thread nD τ) (owedFrom c n) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) (owedFrom c n') W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotOf sM i) (.remote (Dev.tc p : Thread nD τ) (oRows c i) (.dma (sendS i)) hsc) (.dma (recvS i)) hsrc hdst hsem) k) Q) := by
  subst hp
  exact Rounds.wp_send_pointsTo 𝒱₀ ER (sched m) (c : Thread nD τ) none (c' := (Dev.tc (peer c) : Thread nD τ)) (src := slotOf sM i) (dst := oRows c i)
    (sS := .dma (sendS i)) (sem := .dma (recvS i)) (q := fullShare) (κ₁ := K (c, kSend i)) (κ₂ := K (peer c, kRecv i))
    (fs := (slotOf sM i).view.write (Elt F) f0 ((xSend c i).view.read (Elt F) (xOf m c)) Finset.univ)
    (r₁ := 0) (r₂ := 0) (d₁ := ()) (d₂ := ()) (fd := fd)
    (by rw [duties_send]; exact Finset.mem_singleton_self _) (by rw [duties_recv]; exact Finset.mem_singleton_self _)
    () () N rfl (amount_send m c i ()) (amount_recv m (peer c) i ()) (owedFrom c n') hO (W := W)
    (by rw [payload_send]; unfold sendPay; iintro H; iexists _; iexact H)
    (by rw [payload_recv]; unfold recvPay pts; rw [View.read_write_univ, pointsTo_congr (sent_piece m c i fd), peer_peer])

/-- The wait on a send cell: the slot of the send buffer back. -/
theorem wait_send {α : Type} {Q : α → sProp 𝕄} {k : PUnit → Prog (TpuEff nD τ sig (Elt F) Λ₀ .tc) α} (c : Dev nD) (i : Fin 8) (n : ℕ) {sp sp' : Space} {κ' : Kind} {s' : Shape} {e' : EltTy}
    {srcw : Memref sig (c : Thread nD τ).2.kind sp' s' e'} {dstw : Memref sig κ' sp S2048x1024 .f32} {hsrc : srcw.view.WordExact} {hdst : dstw.view.WordExact}
    (hN : dstw.view.dmaCredit = N) {W : Waits sig Unit} :
    iprop(cellInv ER (sched m) (K (c, kSend i)) (sendCell c i) ∗ cred (tallyAt (sendCell c i) () N) ∗ owes (c : Thread nD τ) (owedFrom c n) W
        ∗ levAts L lv ∗ atPos ER (sendCell c i) 0 ∅ 0)
      ⊢ iprop(((owes (c : Thread nD τ) (owedFrom c n) (insert (SemLoc.dma (sendS i), ()) W) ∗ atPos ER (sendCell c i) 1 ∅ 0 ∗ sendPay c i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) srcw dstw hsrc hdst) k) Q) := by
  iintro ⟨#HI, Hc, HO, #Hlev, Hat⟩ Hk
  iapply (Rounds.wp_wait_rest_token 𝒱₀ ER (sched m) (c : Thread nD τ) none (κ := K (c, kSend i))
      (wpE_waitDma2_eq 𝒱₀ (c : Thread nD τ) none Set.univ) (Set.mem_univ _) () (O := owedFrom c n) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · iapply (mayWait_low c (.dma (sendS i)) (by show (if 12 ≤ i.val + 4 then 2 else 0) < 2; rw [if_neg (by have := i.isLt; omega)]; decide) n); iexact Hlev
    iexact Hat
  iintro ⟨HO, Hat, -, Hpay⟩
  iapply Hk
  isplitl [HO]; · iexact HO
  isplitl [Hat]; · iexact Hat
  iapply (Entails.of_eq (rest_send m c i)); iexact Hpay

/-- The wait on a receive cell, by a device that owes nothing any more: the rows its partner wrote. -/
theorem wait_recv {α : Type} {Q : α → sProp 𝕄} {k : PUnit → Prog (TpuEff nD τ sig (Elt F) Λ₀ .tc) α} (c : Dev nD) (i : Fin 8) {sp sp' : Space} {κ' : Kind} {s' : Shape} {e' : EltTy}
    {srcw : Memref sig (c : Thread nD τ).2.kind sp' s' e'} {dstw : Memref sig κ' sp S2048x1024 .f32} {hsrc : srcw.view.WordExact} {hdst : dstw.view.WordExact}
    (hN : dstw.view.dmaCredit = N) {W : Waits sig Unit} :
    iprop(cellInv ER (sched m) (K (c, kRecv i)) (recvCell c i) ∗ cred (tallyAt (recvCell c i) () N) ∗ owes (c : Thread nD τ) 0 W
        ∗ atPos ER (recvCell c i) 0 ∅ 0)
      ⊢ iprop(((owes (c : Thread nD τ) 0 (insert (SemLoc.dma (recvS i), ()) W) ∗ atPos ER (recvCell c i) 1 ∅ 0 ∗ recvPay m c i)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) srcw dstw hsrc hdst) k) Q) := by
  iintro ⟨#HI, Hc, HO, Hat⟩ Hk
  iapply (Rounds.wp_wait_rest_token 𝒱₀ ER (sched m) (c : Thread nD τ) none (κ := K (c, kRecv i))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c i)); iexact Hpay

/-- The entry signal: the device hands its partner the eight row blocks of its own result that the partner fills. -/
theorem signal_bar {α : Type} {Q : α → sProp 𝕄} {k : PUnit → Prog (TpuEff nD τ sig (Elt F) Λ₀ .tc) α} (c : Dev nD) {k' : ℕ} (hk' : 1 = k') {W : Waits sig Unit} :
    iprop(cellInv ER (sched m) (K (peer c, kBar)) (barCell (peer c)) ∗ owes (c : Thread nD τ) (O₀ c) W ∗ dutyTok ER (barCell (peer c)) 0 ()
        ∗ barPay (peer c) ∗ reached ER (barCell (peer c)) 0)
      ⊢ iprop((owes (c : Thread nD τ) (owedFrom c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c : Thread nD τ) barS k') k) Q) := by
  subst hk'
  have hr : τ.routes (c : Thread nD τ) (peer c : Thread nD τ) = true := by routes
  exact Rounds.wp_signal 𝒱₀ ER (sched m) (c : Thread nD τ) none (dst := (peer c : Thread nD τ)) (sem := barS) (r := 0) (κ := K (peer c, kBar))
    (d := ()) (by rw [duties_bar]; exact Finset.mem_singleton_self _) (amount_bar m (peer c) ()) () (owedFrom c 0) rfl hr

end Steps

end Cert.KernelIdeal.A2A

end
-- ==== Proof.KernelIdeal.Pieces.lean ====
/-
  The buffers cut into the pieces the copies move, and joined again. A device's rows of `x` are the sixteen blocks its
  copies read (eight chunks of rows, two column halves); its result the sixteen row blocks its own copies and its
  partner's write; each two-slot scratch buffer its two slots.
-/
import proofs.«900628_g7700000000000629_dist_a2a_v7x_xyz2x2x2_z_m16384_n1024_f32_1_alg».proof.Proof.KernelIdeal.Base

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A whole buffer as the pieces of a cover -/

omit [FloatOps F] in
/-- A whole buffer held is two disjoint sets of its elements held, when every element lies in one of them. -/
theorem pointsTo_univ_pair {ℓ : Loc nD τ sig} (f : Buf (Elt F) ℓ) (A B : Finset (Idx ℓ))
    (hAB : Disjoint A B) (hcov : ∀ x, x ∈ A ∨ x ∈ B) :
    ((ℓ ↦{fullShare} f : sProp 𝕄)) ⊣⊢ iprop((ℓ ↦[A]{fullShare} f) ∗ ℓ ↦[B]{fullShare} f) := by
  have hcover : (Finset.univ : Finset (Idx ℓ)) = A ∪ B :=
    (Finset.eq_univ_of_forall fun x => Finset.mem_union.mpr (hcov x)).symm
  rw [hcover]
  exact pointsTo_union hAB

omit [FloatOps F] in
/-- A whole buffer held is two families of sets of its elements held, when the sets are pairwise disjoint and every
    element lies in one of them. -/
theorem pointsTo_univ_families {ℓ : Loc nD τ sig} (f : Buf (Elt F) ℓ) (A B : Fin 8 → Finset (Idx ℓ))
    (hA : ∀ i j, i ≠ j → Disjoint (A i) (A j)) (hB : ∀ i j, i ≠ j → Disjoint (B i) (B j))
    (hAB : ∀ i j, Disjoint (A i) (B j)) (hcov : ∀ x, (∃ i, x ∈ A i) ∨ (∃ i, x ∈ B i)) :
    ((ℓ ↦{fullShare} f : sProp 𝕄))
      ⊣⊢ iprop((bigSep Finset.univ fun i : Fin 8 => ℓ ↦[A i]{fullShare} f) ∗ (bigSep Finset.univ fun i : Fin 8 => ℓ ↦[B i]{fullShare} f)) := by
  have hd : Disjoint (Finset.univ.biUnion A) (Finset.univ.biUnion B) := by
    rw [Finset.disjoint_biUnion_left]; intro i _
    rw [Finset.disjoint_biUnion_right]; intro j _
    exact hAB i j
  refine (pointsTo_univ_pair f (Finset.univ.biUnion A) (Finset.univ.biUnion B) hd fun x => ?_).trans ?_
  · rw [Finset.mem_biUnion, Finset.mem_biUnion]
    rcases hcov x with ⟨i, hi⟩ | ⟨i, hi⟩
    · exact .inl ⟨i, Finset.mem_univ _, hi⟩
    · exact .inr ⟨i, Finset.mem_univ _, hi⟩
  · rw [pointsTo_biUnion _ _ (fun i _ j _ h => hA i j h), pointsTo_biUnion _ _ (fun i _ j _ h => hB i j h)]

/-! ## The pieces' element sets, by coordinates -/

theorem set_xSend (c : Dev nD) (i : Fin 8) :
    (xSend c i).view.set = (Rect.unit (s := S16384x2048) (sendOff c i) S2048x1024.size (sendOff_inb c i)).set :=
  View.set_slice_whole main_arg0 _
theorem set_xKeep (c : Dev nD) (i : Fin 8) :
    (xKeep c i).view.set = (Rect.unit (s := S16384x2048) (keepOff c i) S2048x1024.size (keepOff_inb c i)).set :=
  View.set_slice_whole main_arg0 _
theorem set_oRows (w : Dev nD) (i : Fin 8) :
    (oRows w i).view.set = (Rect.unit (s := S32768x1024) (outOff w i) S2048x1024.size (outOff_inb w i)).set :=
  View.set_slice_whole main_v1 _
/-- A slot's elements are its slab's: dropping the unit axis re-indexes the same elements. -/
theorem set_slotAt_l (k : ℕ) (hk : k < 2) :
    (slotAt lM k hk).view.set = (Rect.unit (s := S2x2048x1024) ![k, 0, 0] S1x2048x1024.size (slot_inb k hk)).set :=
  (View.set_reshape _ _).trans (View.set_slice_whole cc0_scratch0 _)
theorem set_slotAt_s (k : ℕ) (hk : k < 2) :
    (slotAt sM k hk).view.set = (Rect.unit (s := S2x2048x1024) ![k, 0, 0] S1x2048x1024.size (slot_inb k hk)).set :=
  (View.set_reshape _ _).trans (View.set_slice_whole cc0_scratch1 _)

theorem sendOff0 (c : Dev nD) (i : Fin 8) : sendOff c i 0 = 2048 * i.val := by rw [sendOff_eq]; rfl
theorem sendOff1 (c : Dev nD) (i : Fin 8) : sendOff c i 1 = 1024 - 1024 * zc c := by rw [sendOff_eq]; rfl
theorem keepOff0 (c : Dev nD) (i : Fin 8) : keepOff c i 0 = 2048 * i.val := by rw [keepOff_eq]; rfl
theorem keepOff1 (c : Dev nD) (i : Fin 8) : keepOff c i 1 = 1024 * zc c := by rw [keepOff_eq]; rfl
theorem outOff0 (w : Dev nD) (i : Fin 8) : outOff w i 0 = 16384 * zc w + 2048 * i.val := by rw [outOff_eq]; rfl
theorem outOff1 (w : Dev nD) (i : Fin 8) : outOff w i 1 = 0 := by rw [outOff_eq]; rfl

/-- Chunk `i`'s block for the partner: rows `[2048 i, 2048 i + 2048)`, the column half `1 - z`. -/
theorem mem_xSend (c : Dev nD) (i : Fin 8) (idx : S16384x2048.Idx) :
    idx ∈ (xSend c i).view.set ↔ (2048 * i.val ≤ (idx 0).val ∧ (idx 0).val < 2048 * i.val + 2048)
      ∧ (1024 - 1024 * zc c ≤ (idx 1).val ∧ (idx 1).val < 1024 - 1024 * zc c + 1024) := by
  rw [set_xSend, Rect.mem_set_unit, Fin.forall_fin_two, sendOff0, sendOff1]
  exact Iff.rfl
/-- Chunk `i`'s block that stays: the same rows, the column half `z`. -/
theorem mem_xKeep (c : Dev nD) (i : Fin 8) (idx : S16384x2048.Idx) :
    idx ∈ (xKeep c i).view.set ↔ (2048 * i.val ≤ (idx 0).val ∧ (idx 0).val < 2048 * i.val + 2048)
      ∧ (1024 * zc c ≤ (idx 1).val ∧ (idx 1).val < 1024 * zc c + 1024) := by
  rw [set_xKeep, Rect.mem_set_unit, Fin.forall_fin_two, keepOff0, keepOff1]
  exact Iff.rfl
/-- Writer `w`'s chunk `i` of a result: rows `[16384 z + 2048 i, + 2048)`, `z` the writer's position, every column. -/
theorem mem_oRows (w : Dev nD) (i : Fin 8) (idx : S32768x1024.Idx) :
    idx ∈ (oRows w i).view.set ↔ (16384 * zc w + 2048 * i.val ≤ (idx 0).val ∧ (idx 0).val < 16384 * zc w + 2048 * i.val + 2048)
      ∧ (0 ≤ (idx 1).val ∧ (idx 1).val < 0 + 1024) := by
  rw [set_oRows, Rect.mem_set_unit, Fin.forall_fin_two, outOff0, outOff1]
  exact Iff.rfl

omit [FloatOps F] in
/-- `x` whole is its eight blocks that go to the partner and its eight blocks that stay. -/
theorem x_split (c : Dev nD) (f : Buf (Elt F) ((c : Thread nD τ).loc main_arg0)) :
    ((((c : Thread nD τ).loc main_arg0) ↦{fullShare} f : sProp 𝕄))
      ⊣⊢ iprop((bigSep Finset.univ fun i : Fin 8 => pts c (xSend c i) f) ∗ (bigSep Finset.univ fun i : Fin 8 => pts c (xKeep c i) f)) := by
  have hz := zc_lt c
  refine pointsTo_univ_families f (fun i => (xSend c i).view.set) (fun i => (xKeep c i).view.set) ?_ ?_ ?_ ?_
  · intro i j hij
    have hne := Fin.val_ne_of_ne hij
    rw [set_xSend, set_xSend]
    refine Rect.unit_disjoint 0 ?_
    rw [sendOff0, sendOff0]; show _ + 2048 ≤ _ ∨ _ + 2048 ≤ _; omega
  · intro i j hij
    have hne := Fin.val_ne_of_ne hij
    rw [set_xKeep, set_xKeep]
    refine Rect.unit_disjoint 0 ?_
    rw [keepOff0, keepOff0]; show _ + 2048 ≤ _ ∨ _ + 2048 ≤ _; omega
  · intro i j
    rw [set_xSend, set_xKeep]
    refine Rect.unit_disjoint 1 ?_
    rw [sendOff1, keepOff1]; show _ + 1024 ≤ _ ∨ _ + 1024 ≤ _; omega
  · intro (idx : S16384x2048.Idx)
    have h0 : (idx 0).val < 16384 := (idx 0).isLt
    have h1 : (idx 1).val < 2048 := (idx 1).isLt
    have hi : (idx 0).val / 2048 < 8 := by omega
    by_cases hcol : 1024 - 1024 * zc c ≤ (idx 1).val ∧ (idx 1).val < 1024 - 1024 * zc c + 1024
    · refine .inl ⟨⟨(idx 0).val / 2048, hi⟩, (mem_xSend c _ idx).mpr ⟨⟨?_, ?_⟩, hcol⟩⟩ <;> dsimp only <;> omega
    · refine .inr ⟨⟨(idx 0).val / 2048, hi⟩, (mem_xKeep c _ idx).mpr ⟨⟨?_, ?_⟩, ?_, ?_⟩⟩ <;> dsimp only <;> omega

omit [FloatOps F] in
/-- The result whole is the eight row blocks the device itself writes and the eight its partner writes. -/
theorem out_split (c : Dev nD) (f : Buf (Elt F) ((c : Thread nD τ).loc main_v1)) :
    ((((c : Thread nD τ).loc main_v1) ↦{fullShare} f : sProp 𝕄))
      ⊣⊢ iprop((bigSep Finset.univ fun i : Fin 8 => pts c (oRows c i) f) ∗ (bigSep Finset.univ fun i : Fin 8 => pts c (oRows (peer c) i) f)) := by
  have hz := zc_lt c
  have hp := zc_peer c
  refine pointsTo_univ_families f (fun i => (oRows c i).view.set) (fun i => (oRows (peer c) i).view.set) ?_ ?_ ?_ ?_
  · intro i j hij
    have hne := Fin.val_ne_of_ne hij
    rw [set_oRows, set_oRows]
    refine Rect.unit_disjoint 0 ?_
    rw [outOff0, outOff0]; show _ + 2048 ≤ _ ∨ _ + 2048 ≤ _; omega
  · intro i j hij
    have hne := Fin.val_ne_of_ne hij
    rw [set_oRows, set_oRows]
    refine Rect.unit_disjoint 0 ?_
    rw [outOff0, outOff0]; show _ + 2048 ≤ _ ∨ _ + 2048 ≤ _; omega
  · intro i j
    have hi := i.isLt
    have hj := j.isLt
    rw [set_oRows, set_oRows]
    refine Rect.unit_disjoint 0 ?_
    rw [outOff0, outOff0, hp]; show _ + 2048 ≤ _ ∨ _ + 2048 ≤ _; omega
  · intro (idx : S32768x1024.Idx)
    have h0 : (idx 0).val < 32768 := (idx 0).isLt
    have h1 : (idx 1).val < 1024 := (idx 1).isLt
    have hi : (idx 0).val % 16384 / 2048 < 8 := by omega
    by_cases hrow : (idx 0).val / 16384 = zc c
    · refine .inl ⟨⟨(idx 0).val % 16384 / 2048, hi⟩, (mem_oRows c _ idx).mpr ⟨⟨?_, ?_⟩, ?_, ?_⟩⟩ <;> dsimp only <;> omega
    · refine .inr ⟨⟨(idx 0).val % 16384 / 2048, hi⟩, (mem_oRows (peer c) _ idx).mpr ⟨⟨?_, ?_⟩, ?_, ?_⟩⟩ <;> dsimp only <;> omega

/-- A two-slot buffer's elements: the first coordinate is `0` or `1`, and slot `k` holds those where it is `k`. -/
theorem slots_cover (idx : S2x2048x1024.Idx) :
    idx ∈ (Rect.unit (s := S2x2048x1024) ![0, 0, 0] S1x2048x1024.size (slot_inb 0 Nat.zero_lt_two)).set
      ∨ idx ∈ (Rect.unit (s := S2x2048x1024) ![1, 0, 0] S1x2048x1024.size (slot_inb 1 Nat.one_lt_two)).set := by
  have h0 : (idx 0).val < 2 := (idx 0).isLt
  have h1 : (idx 1).val < 2048 := (idx 1).isLt
  have h2 : (idx 2).val < 1024 := (idx 2).isLt
  by_cases hk : (idx 0).val = 0
  · refine .inl (Rect.mem_set_unit.mpr fun a => ?_)
    fin_cases a
    · show 0 ≤ (idx 0).val ∧ (idx 0).val < 0 + 1; omega
    · show 0 ≤ (idx 1).val ∧ (idx 1).val < 0 + 2048; omega
    · show 0 ≤ (idx 2).val ∧ (idx 2).val < 0 + 1024; omega
  · refine .inr (Rect.mem_set_unit.mpr fun a => ?_)
    fin_cases a
    · show 1 ≤ (idx 0).val ∧ (idx 0).val < 1 + 1; omega
    · show 0 ≤ (idx 1).val ∧ (idx 1).val < 0 + 2048; omega
    · show 0 ≤ (idx 2).val ∧ (idx 2).val < 0 + 1024; omega

theorem slots_disjoint :
    Disjoint (Rect.unit (s := S2x2048x1024) ![0, 0, 0] S1x2048x1024.size (slot_inb 0 Nat.zero_lt_two)).set
      (Rect.unit (s := S2x2048x1024) ![1, 0, 0] S1x2048x1024.size (slot_inb 1 Nat.one_lt_two)).set :=
  Rect.unit_disjoint 0 (.inl (by show 0 + 1 ≤ 1; omega))

omit [FloatOps F] in
/-- A two-slot scratch buffer whole is its two slots. -/
theorem lbuf_split (c : Dev nD) (f : Buf (Elt F) ((c : Thread nD τ).loc cc0_scratch0)) :
    ((((c : Thread nD τ).loc cc0_scratch0) ↦{fullShare} f : sProp 𝕄))
      ⊣⊢ iprop(pts c (slotAt lM 0 Nat.zero_lt_two) f ∗ pts c (slotAt lM 1 Nat.one_lt_two) f) := by
  refine pointsTo_univ_pair f _ _ ?_ ?_
  · rw [set_slotAt_l, set_slotAt_l]; exact slots_disjoint
  · intro idx; rw [set_slotAt_l, set_slotAt_l]; exact slots_cover idx
omit [FloatOps F] in
theorem sbuf_split (c : Dev nD) (f : Buf (Elt F) ((c : Thread nD τ).loc cc0_scratch1)) :
    ((((c : Thread nD τ).loc cc0_scratch1) ↦{fullShare} f : sProp 𝕄))
      ⊣⊢ iprop(pts c (slotAt sM 0 Nat.zero_lt_two) f ∗ pts c (slotAt sM 1 Nat.one_lt_two) f) := by
  refine pointsTo_univ_pair f _ _ ?_ ?_
  · rw [set_slotAt_s, set_slotAt_s]; exact slots_disjoint
  · intro idx; rw [set_slotAt_s, set_slotAt_s]; exact slots_cover idx

/-- info: 'Cert.KernelIdeal.A2A.x_split' depends on axioms: [propext, Classical.choice, Quot.sound] -/
#guard_msgs in #print axioms x_split

/-- info: 'Cert.KernelIdeal.A2A.out_split' depends on axioms: [propext, Classical.choice, Quot.sound] -/
#guard_msgs in #print axioms out_split

/-- info: 'Cert.KernelIdeal.A2A.lbuf_split' depends on axioms: [propext, Classical.choice, Quot.sound] -/
#guard_msgs in #print axioms lbuf_split

/-- info: 'Cert.KernelIdeal.A2A.sbuf_split' depends on axioms: [propext, Classical.choice, Quot.sound] -/
#guard_msgs in #print axioms sbuf_split

end Cert.KernelIdeal.A2A

end
-- ==== Proof.KernelIdeal.Finish.lean ====
/-
  The end of a device's body. Its sixteen send and receive cells, each past its one round with nothing taken, are
  closed and their counters come back at zero; its rows of `x` and its result are joined again from their sixteen
  blocks each; each two-slot scratch buffer is joined again from its two slots, held at whatever each holds.
-/
import proofs.«900628_g7700000000000629_dist_a2a_v7x_xyz2x2x2_z_m16384_n1024_f32_1_alg».proof.Proof.KernelIdeal.Ghost
import proofs.«900628_g7700000000000629_dist_a2a_v7x_xyz2x2x2_z_m16384_n1024_f32_1_alg».proof.Proof.KernelIdeal.Pieces

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 17 → ℕ)

/-! ## The cells closed -/

omit [FloatOps F] in
/-- The eight send cells, each at round 1 with nothing taken: closed, their counters at zero. -/
theorem close_sends (c : Dev nD) :
    iprop((bigSep Finset.univ fun i : Fin 8 => cellInv ER (sched m) (K (c, kSend i)) (sendCell c i))
        ∗ (bigSep Finset.univ fun i : Fin 8 => atPos ER (sendCell c i) 1 ∅ 0))
      ⊢ (|={Set.univ}=> bigSep Finset.univ fun i : Fin 8 => semVal (sendCell c i) 0 : sProp 𝕄) := by
  rw [← bigSep_sep']
  exact (bigSep_mono fun i _ => Rounds.cell_close ER (sched m) (Set.mem_univ _) (fun h => h) (R := 0 + 1)
    (duties_later m _)).trans (bigSep_fupd _ _)

omit [FloatOps F] in
/-- The eight receive cells likewise. -/
theorem close_recvs (c : Dev nD) :
    iprop((bigSep Finset.univ fun i : Fin 8 => cellInv ER (sched m) (K (c, kRecv i)) (recvCell c i))
        ∗ (bigSep Finset.univ fun i : Fin 8 => atPos ER (recvCell c i) 1 ∅ 0))
      ⊢ (|={Set.univ}=> bigSep Finset.univ fun i : Fin 8 => semVal (recvCell c i) 0 : sProp 𝕄) := by
  rw [← bigSep_sep']
  exact (bigSep_mono fun i _ => Rounds.cell_close ER (sched m) (Set.mem_univ _) (fun h => h) (R := 0 + 1)
    (duties_later m _)).trans (bigSep_fupd _ _)

/-! ## A buffer joined again from two pieces at different contents -/

omit [FloatOps F] in
/-- Two disjoint sets of a buffer's elements that cover it, each held at some contents: the buffer held whole, at the
    contents that are the second's on the second set and the first's elsewhere. -/
theorem pointsTo_univ_pair_join {ℓ : Loc nD τ sig} (A B : Finset (Idx ℓ)) (hAB : Disjoint A B) (hcov : ∀ x, x ∈ A ∨ x ∈ B) :
    iprop((∃ f, ℓ ↦[A]{fullShare} f) ∗ (∃ f, ℓ ↦[B]{fullShare} f)) ⊢ (∃ f, ℓ ↦{fullShare} f : sProp 𝕄) := by
  have hcover : (Finset.univ : Finset (Idx ℓ)) = A ∪ B :=
    (Finset.eq_univ_of_forall fun x => Finset.mem_union.mpr (hcov x)).symm
  iintro ⟨⟨%f, HA⟩, ⟨%g, HB⟩⟩
  iexists (B.piecewise g f)
  rw [hcover]
  iapply (pointsTo_join hAB)
  isplitl [HA] <;> iassumption

omit [FloatOps F] in
theorem lbuf_join (c : Dev nD) :
    iprop((∃ f, pts c (slotAt lM 0 Nat.zero_lt_two) f) ∗ (∃ f, pts c (slotAt lM 1 Nat.one_lt_two) f))
      ⊢ (∃ f, ((c : Thread nD τ).loc cc0_scratch0) ↦{fullShare} f : sProp 𝕄) := by
  refine pointsTo_univ_pair_join _ _ ?_ ?_
  · rw [set_slotAt_l, set_slotAt_l]; exact slots_disjoint
  · intro idx; rw [set_slotAt_l, set_slotAt_l]; exact slots_cover idx
omit [FloatOps F] in
theorem sbuf_join (c : Dev nD) :
    iprop((∃ f, pts c (slotAt sM 0 Nat.zero_lt_two) f) ∗ (∃ f, pts c (slotAt sM 1 Nat.one_lt_two) f))
      ⊢ (∃ f, ((c : Thread nD τ).loc cc0_scratch1) ↦{fullShare} f : sProp 𝕄) := by
  refine pointsTo_univ_pair_join _ _ ?_ ?_
  · rw [set_slotAt_s, set_slotAt_s]; exact slots_disjoint
  · intro idx; rw [set_slotAt_s, set_slotAt_s]; exact slots_cover idx

/-! ## The end -/

omit [FloatOps F] in
/-- From the cells' invariants, the device's positions past every cell's one round, its local semaphores and every
    piece of its buffers, to what it holds at the end. -/
theorem close_all (c : Dev nD) :
    iprop(invs m K c ∗ (bigSep Finset.univ fun i : Fin 8 => atPos ER (sendCell c i) 1 ∅ 0)
        ∗ (bigSep Finset.univ fun i : Fin 8 => atPos ER (recvCell c i) 1 ∅ 0) ∗ localSems c
        ∗ (bigSep Finset.univ fun i : Fin 8 => pts c (xSend c i) (xOf m c))
        ∗ (bigSep Finset.univ fun i : Fin 8 => pts c (xKeep c i) (xOf m c))
        ∗ (bigSep Finset.univ fun i : Fin 8 => pts c (oRows c i) (outC m c))
        ∗ (bigSep Finset.univ fun i : Fin 8 => pts c (oRows (peer c) i) (outC m c))
        ∗ (∃ f, pts c (slotAt lM 0 Nat.zero_lt_two) f) ∗ (∃ f, pts c (slotAt lM 1 Nat.one_lt_two) f)
        ∗ (∃ f, pts c (slotAt sM 0 Nat.zero_lt_two) f) ∗ (∃ f, pts c (slotAt sM 1 Nat.one_lt_two) f))
      ⊢ |={Set.univ}=> Φ₁ m c := by
  unfold Φ₁ bufs₁ sems₁ invs
  iintro ⟨⟨-, HIs, HIr, -, -⟩, Has, Har, Hloc, Hxs, Hxk, Hoc, Hop, Hl0, Hl1, Hs0, Hs1⟩
  imod (close_sends m K c) $$ [HIs Has] with Hzs
  · isplitl [HIs] <;> iassumption
  imod (close_recvs m K c) $$ [HIr Har] with Hzr
  · isplitl [HIr] <;> iassumption
  imodintro
  isplitl [Hxs Hxk Hoc Hop Hl0 Hl1 Hs0 Hs1]
  · isplitl [Hxs Hxk]
    · iapply (x_split c (xOf m c)).2
      isplitl [Hxs] <;> iassumption
    isplitl [Hoc Hop]
    · iapply (out_split c (outC m c)).2
      isplitl [Hoc] <;> iassumption
    isplitl [Hl0 Hl1]
    · iapply (lbuf_join c)
      isplitl [Hl0] <;> iassumption
    · iapply (sbuf_join c)
      isplitl [Hs0] <;> iassumption
  · isplitl [Hloc]; · iexact Hloc
    isplitl [Hzs]; · iexact Hzs
    iexact Hzr

/-- info: 'Cert.KernelIdeal.A2A.close_all' depends on axioms: [propext, Classical.choice, Quot.sound] -/
#guard_msgs in #print axioms close_all

end Cert.KernelIdeal.A2A

end
-- ==== Proof.KernelIdeal.Chain.lean ====
/-
  The body, stepped from what a device holds at its start to what it holds at its end: the entry signal and its wait;
  then, chunk after chunk, the block for the partner copied into a slot of the send buffer and sent on into the
  partner's rows (the slot's previous transfer awaited first), the block that stays copied into a slot of the local
  buffer and on into the device's own rows (that slot's previous copy awaited first); at the end the last transfers,
  the last copies and the eight blocks the partner sent are awaited, the cells closed and the buffers joined again.
-/
import proofs.«900628_g7700000000000629_dist_a2a_v7x_xyz2x2x2_z_m16384_n1024_f32_1_alg».proof.Proof.KernelIdeal.Body
import proofs.«900628_g7700000000000629_dist_a2a_v7x_xyz2x2x2_z_m16384_n1024_f32_1_alg».proof.Proof.KernelIdeal.Pieces
import proofs.«900628_g7700000000000629_dist_a2a_v7x_xyz2x2x2_z_m16384_n1024_f32_1_alg».proof.Proof.KernelIdeal.Finish

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- A block copied into a slot of the local buffer and from there into the device's own rows leaves there what the result holds in the end. -/
theorem kept_piece_pt (c : Dev nD) (i : Fin 8) (f0 : Buf (Elt F) ((c : Thread nD τ).loc cc0_scratch0)) (fd : Buf (Elt F) ((c : Thread nD τ).loc main_v1)) :
    pts c (oRows c i) ((oRows c i).view.write (Elt F) fd ((slotOf lM i).view.read (Elt F)
        ((slotOf lM i).view.write (Elt F) f0 ((xKeep c i).view.read (Elt F) (xOf m c)) Finset.univ)) Finset.univ)
      = (pts c (oRows c i) (outC m c) : sProp 𝕄) := by
  unfold pts; rw [View.read_write_univ]; exact pointsTo_congr (keep_piece m c i fd)

/-- The local copies' and the send cells' semaphores sit below the receive cells. -/
theorem lv_low (c : Dev nD) (q : DmaSem sig) (h : q.val < 12) : lv ((c : Thread nD τ), .dma q) () < 2 := by
  show (if 12 ≤ q.val then 2 else 0) < 2
  rw [if_neg (by omega)]; decide

omit [FloatOps F] in
theorem barPay_eq (c : Dev nD) : (barPay c : sProp 𝕄) = iprop((∃ f, pts (peer c) (oRows c 0) f) ∗ (∃ f, pts (peer c) (oRows c 1) f) ∗ (∃ f, pts (peer c) (oRows c 2) f)
    ∗ (∃ f, pts (peer c) (oRows c 3) f) ∗ (∃ f, pts (peer c) (oRows c 4) f) ∗ (∃ f, pts (peer c) (oRows c 5) f) ∗ (∃ f, pts (peer c) (oRows c 6) f) ∗ (∃ f, pts (peer c) (oRows c 7) f)) := by
  unfold barPay; rw [bigSep_fin8]

set_option hygiene false in
/-- Open the next stretch of the printed body. -/
macro "next_part" e:ident s:ident : tactic => `(tactic| (
  simp only [$e:ident]; unfold $s:ident
  simp only [semSignalWord, semWaitWord, Prog.lift, Prog.bind_op, Prog.bind_ret, Prog.pure_eq_ret, wp_deviceId]))

open Lean in
set_option hygiene false in
/-- A local copy issued (source piece, destination piece, the semaphore at zero) and at once awaited. -/
macro "copy_now" hsrc:ident hdst:ident hsem:ident n:term:max : tactic => do
  let fsrc ← `(frameIdent| $hsrc:ident)
  let fdst ← `(frameIdent| $hdst:ident)
  let fsem ← `(frameIdent| $hsem:ident)
  let psrc ← `(icasesPatAlts| $hsrc:ident)
  let pdst ← `(icasesPatAlts| $hdst:ident)
  let psem ← `(icasesPatAlts| $hsem:ident)
  `(tactic| (
  iapply (issue_local c _ _) $$ [$fsrc $fdst $fsem]
  · isplitl [$hsrc]; · iexact $hsrc
    isplitl [$hdst]; · iexact $hdst
    iexact $hsem
  iintro HF
  iapply (wait_local c (lv_low c _ (by decide)) $n (credit_eq _)) $$ [HF HO]
  · isplitl [HF]; · iexact HF
    isplitl [HO]; · iexact HO
    iexact Hlev
  iintro ⟨⟨$pdst, $psrc⟩, $psem, HO⟩))

open Lean in
set_option hygiene false in
/-- A local copy issued and left in flight. -/
macro "copy_start" hsrc:ident hdst:ident hsem:ident hf:ident : tactic => do
  let fsrc ← `(frameIdent| $hsrc:ident)
  let fdst ← `(frameIdent| $hdst:ident)
  let fsem ← `(frameIdent| $hsem:ident)
  let pf ← `(introPat| $hf:ident)
  `(tactic| (
  iapply (issue_local c _ _) $$ [$fsrc $fdst $fsem]
  · isplitl [$hsrc]; · iexact $hsrc
    isplitl [$hdst]; · iexact $hdst
    iexact $hsem
  iintro $pf))

open Lean in
set_option hygiene false in
/-- … and awaited later: the destination piece (written), the source piece, the semaphore. -/
macro "copy_wait" hf:ident hsrc:ident hdst:ident hsem:ident n:term:max : tactic => do
  let ff ← `(frameIdent| $hf:ident)
  let psrc ← `(icasesPatAlts| $hsrc:ident)
  let pdst ← `(icasesPatAlts| $hdst:ident)
  let psem ← `(icasesPatAlts| $hsem:ident)
  `(tactic| (
  iapply (wait_local c (lv_low c _ (by decide)) $n (credit_eq _)) $$ [$ff HO]
  · isplitl [$hf]; · iexact $hf
    isplitl [HO]; · iexact HO
    iexact Hlev
  iintro ⟨⟨$pdst, $psrc⟩, $psem, HO⟩))

open Lean in
set_option hygiene false in
/-- Chunk `i`'s transfer to the partner. -/
macro "send_now" i:term:max n:term:max n':term:max de:term:max hslot:ident hq:ident his:ident hiq:ident hts:ident hrs:ident htq:ident hrq:ident hcs:ident : tactic => do
  let fslot ← `(frameIdent| $hslot:ident)
  let fq ← `(frameIdent| $hq:ident)
  let fts ← `(frameIdent| $hts:ident)
  let ftq ← `(frameIdent| $htq:ident)
  let pcs ← `(icasesPatAlts| $hcs:ident)
  `(tactic| (
  iapply (send_chunk m K c $i $n $n' rfl _ $de _ _) $$ [$fslot $fq HO $fts $ftq]
  · isplitr; · iexact $his
    isplitr; · iexact $hiq
    isplitl [$hslot]; · iexact $hslot
    isplitl [$hq]; · iexact $hq
    isplitl [HO]; · iexact HO
    isplitl [$hts]; · iexact $hts
    isplitr; · iexact $hrs
    isplitl [$htq]; · iexact $htq
    iexact $hrq
  iintro ⟨$pcs, HO⟩))

open Lean in
set_option hygiene false in
/-- The wait on chunk `i`'s send cell: the slot back (at whatever it holds). -/
macro "send_wait" i:term:max n:term:max his:ident hcs:ident hat:ident hslot:ident : tactic => do
  let fcs ← `(frameIdent| $hcs:ident)
  let fat ← `(frameIdent| $hat:ident)
  let pat ← `(icasesPatAlts| $hat:ident)
  let pslot ← `(icasesPatAlts| $hslot:ident)
  `(tactic| (
  iapply (wait_send m K c $i $n (credit_eq _)) $$ [$fcs HO $fat]
  · isplitr; · iexact $his
    isplitl [$hcs]; · iexact $hcs
    isplitl [HO]; · iexact HO
    isplitr; · iexact Hlev
    iexact $hat
  iintro ⟨HO, $pat, Hpay⟩
  unfold sendPay
  icases Hpay with ⟨%fnew, $pslot⟩))

open Lean in
set_option hygiene false in
/-- The wait on chunk `i`'s receive cell: the rows the partner wrote. -/
macro "recv_wait" i:term:max hir:ident hcr:ident hat:ident hrow:ident : tactic => do
  let fcr ← `(frameIdent| $hcr:ident)
  let fat ← `(frameIdent| $hat:ident)
  let pat ← `(icasesPatAlts| $hat:ident)
  let prow ← `(icasesPatAlts| $hrow:ident)
  `(tactic| (
  iapply (wait_recv m K c $i (credit_eq _)) $$ [$fcr HO $fat]
  · isplitr; · iexact $hir
    isplitl [$hcr]; · iexact $hcr
    isplitl [HO]; · iexact HO
    iexact $hat
  iintro ⟨HO, $pat, $prow⟩
  unfold recvPay))

set_option maxHeartbeats 4000000 in
set_option maxRecDepth 8000 in
theorem sound_body : BodySpec m := by
  intro c Kt
  unfold Φ₀ start ghost invs reacheds linear localSems creds bufs₀
  simp only [bigSep_fin8]
  iintro ⟨⟨⟨⟨⟨%K, ⟨#HIb, ⟨#HIs0, #HIs1, #HIs2, #HIs3, #HIs4, #HIs5, #HIs6, #HIs7⟩, ⟨#HIr0, #HIr1, #HIr2, #HIr3, #HIr4, #HIr5, #HIr6, #HIr7⟩, #HIbP, ⟨#HIq0, #HIq1, #HIq2, #HIq3, #HIq4, #HIq5, #HIq6, #HIq7⟩⟩,
      ⟨#Rb, ⟨#Rs0, #Rs1, #Rs2, #Rs3, #Rs4, #Rs5, #Rs6, #Rs7⟩, ⟨#Rr0, #Rr1, #Rr2, #Rr3, #Rr4, #Rr5, #Rr6, #Rr7⟩, #RbP, ⟨#Rq0, #Rq1, #Rq2, #Rq3, #Rq4, #Rq5, #Rq6, #Rq7⟩⟩,
      ⟨HatB, ⟨HatS0, HatS1, HatS2, HatS3, HatS4, HatS5, HatS6, HatS7⟩, ⟨HatR0, HatR1, HatR2, HatR3, HatR4, HatR5, HatR6, HatR7⟩, HtBP, ⟨HtQ0, HtQ1, HtQ2, HtQ3, HtQ4, HtQ5, HtQ6, HtQ7⟩, ⟨HtS0, HtS1, HtS2, HtS3, HtS4, HtS5, HtS6, HtS7⟩⟩⟩,
      ⟨HsemL, HsemLo0, HsemLo1, HsemS⟩, ⟨HcB, ⟨HcR0, HcR1, HcR2, HcR3, HcR4, HcR5, HcR6, HcR7⟩⟩, #Hlev⟩,
      ⟨Hx, ⟨%fo, Ho⟩, ⟨%fl, Hlb⟩, ⟨%fsb, Hsb⟩⟩⟩, ⟨%W, HO⟩⟩, Hk⟩
  -- the buffers cut into the pieces the copies move
  ihave Hx := (x_split c _).1 $$ Hx
  ihave Ho := (out_split c _).1 $$ Ho
  ihave Hlb := (lbuf_split c _).1 $$ Hlb
  ihave Hsb := (sbuf_split c _).1 $$ Hsb
  simp only [bigSep_fin8]
  icases Hx with ⟨⟨Hxs0, Hxs1, Hxs2, Hxs3, Hxs4, Hxs5, Hxs6, Hxs7⟩, ⟨Hxk0, Hxk1, Hxk2, Hxk3, Hxk4, Hxk5, Hxk6, Hxk7⟩⟩
  icases Ho with ⟨⟨Hoo0, Hoo1, Hoo2, Hoo3, Hoo4, Hoo5, Hoo6, Hoo7⟩, ⟨Hop0, Hop1, Hop2, Hop3, Hop4, Hop5, Hop6, Hop7⟩⟩
  icases Hlb with ⟨Hl0, Hl1⟩
  icases Hsb with ⟨Hs0, Hs1⟩
  -- the printed body, stretch by stretch
  simp only [cc0_body_eq_skeleton]; unfold cc0_body_skel
  next_part k0_part1_eq_skeleton k0_part1_skel
  -- the entry signal: the partner gets the rows of this device's result that the partner fills
  iapply (signal_bar m K c (by decide)) $$ [HO HtBP Hop0 Hop1 Hop2 Hop3 Hop4 Hop5 Hop6 Hop7]
  · isplitr; · iexact HIbP
    isplitl [HO]; · iexact HO
    isplitl [HtBP]; · iexact HtBP
    isplitr [] ; swap; · iexact RbP
    rw [barPay_eq, peer_peer]
    isplitl [Hop0]; · iexists _; iexact Hop0
    isplitl [Hop1]; · iexists _; iexact Hop1
    isplitl [Hop2]; · iexists _; iexact Hop2
    isplitl [Hop3]; · iexists _; iexact Hop3
    isplitl [Hop4]; · iexists _; iexact Hop4
    isplitl [Hop5]; · iexists _; iexact Hop5
    isplitl [Hop6]; · iexists _; iexact Hop6
    iexists _; iexact Hop7
  iintro HO
  -- the wait for the partner's signal: the partner's rows that this device fills
  iapply (wait_bar m K c (by decide)) $$ [HcB HO HatB]
  · isplitr; · iexact HIb
    isplitl [HcB]; · iexact HcB
    isplitl [HO]; · iexact HO
    isplitr; · iexact Hlev
    iexact HatB
  iintro ⟨HO, HatB, Hpay⟩
  ihave Hpay := (Entails.of_eq (barPay_eq c)) $$ Hpay
  icases Hpay with ⟨⟨%fq0, Hq0⟩, ⟨%fq1, Hq1⟩, ⟨%fq2, Hq2⟩, ⟨%fq3, Hq3⟩, ⟨%fq4, Hq4⟩, ⟨%fq5, Hq5⟩, ⟨%fq6, Hq6⟩, ⟨%fq7, Hq7⟩⟩
  -- chunk 0
  copy_now Hxs0 Hs0 HsemS 0
  next_part k0_part2_eq_skeleton k0_part2_skel
  send_now 0 0 1 (dev2_eq c) Hs0 Hq0 HIs0 HIq0 HtS0 Rs0 HtQ0 Rq0 HcS0
  copy_now Hxk0 Hl0 HsemL 1
  copy_start Hl0 Hoo0 HsemLo0 HFlo0
  -- chunk 1
  next_part k0_part3_eq_skeleton k0_part3_skel
  copy_now Hxs1 Hs1 HsemS 1
  send_now 1 1 2 (dev3_eq c) Hs1 Hq1 HIs1 HIq1 HtS1 Rs1 HtQ1 Rq1 HcS1
  copy_start Hxk1 Hl1 HsemL HF
  next_part k0_part4_eq_skeleton k0_part4_skel
  copy_wait HF Hxk1 Hl1 HsemL 2
  copy_start Hl1 Hoo1 HsemLo1 HFlo1
  -- chunk 2
  send_wait 0 2 HIs0 HcS0 HatS0 Hs0
  copy_now Hxs2 Hs0 HsemS 2
  next_part k0_part5_eq_skeleton k0_part5_skel
  send_now 2 2 3 (dev4_eq c) Hs0 Hq2 HIs2 HIq2 HtS2 Rs2 HtQ2 Rq2 HcS2
  copy_wait HFlo0 Hl0 Hoo0 HsemLo0 3
  copy_now Hxk2 Hl0 HsemL 3
  next_part k0_part6_eq_skeleton k0_part6_skel
  copy_start Hl0 Hoo2 HsemLo0 HFlo0
  -- chunk 3
  send_wait 1 3 HIs1 HcS1 HatS1 Hs1
  copy_now Hxs3 Hs1 HsemS 3
  next_part k0_part7_eq_skeleton k0_part7_skel
  send_now 3 3 4 (dev5_eq c) Hs1 Hq3 HIs3 HIq3 HtS3 Rs3 HtQ3 Rq3 HcS3
  copy_wait HFlo1 Hl1 Hoo1 HsemLo1 4
  copy_now Hxk3 Hl1 HsemL 4
  copy_start Hl1 Hoo3 HsemLo1 HFlo1
  -- chunk 4
  send_wait 2 4 HIs2 HcS2 HatS2 Hs0
  next_part k0_part8_eq_skeleton k0_part8_skel
  copy_now Hxs4 Hs0 HsemS 4
  send_now 4 4 5 (dev6_eq c) Hs0 Hq4 HIs4 HIq4 HtS4 Rs4 HtQ4 Rq4 HcS4
  copy_wait HFlo0 Hl0 Hoo2 HsemLo0 5
  next_part k0_part9_eq_skeleton k0_part9_skel
  copy_now Hxk4 Hl0 HsemL 5
  copy_start Hl0 Hoo4 HsemLo0 HFlo0
  -- chunk 5
  send_wait 3 5 HIs3 HcS3 HatS3 Hs1
  copy_start Hxs5 Hs1 HsemS HF
  next_part k0_part10_eq_skeleton k0_part10_skel
  copy_wait HF Hxs5 Hs1 HsemS 5
  send_now 5 5 6 (dev7_eq c) Hs1 Hq5 HIs5 HIq5 HtS5 Rs5 HtQ5 Rq5 HcS5
  copy_wait HFlo1 Hl1 Hoo3 HsemLo1 6
  copy_start Hxk5 Hl1 HsemL HF
  next_part k0_part11_eq_skeleton k0_part11_skel
  copy_wait HF Hxk5 Hl1 HsemL 6
  copy_start Hl1 Hoo5 HsemLo1 HFlo1
  -- chunk 6
  send_wait 4 6 HIs4 HcS4 HatS4 Hs0
  copy_now Hxs6 Hs0 HsemS 6
  next_part k0_part12_eq_skeleton k0_part12_skel
  send_now 6 6 7 (dev8_eq c) Hs0 Hq6 HIs6 HIq6 HtS6 Rs6 HtQ6 Rq6 HcS6
  copy_wait HFlo0 Hl0 Hoo4 HsemLo0 7
  copy_now Hxk6 Hl0 HsemL 7
  next_part k0_part13_eq_skeleton k0_part13_skel
  copy_start Hl0 Hoo6 HsemLo0 HFlo0
  -- chunk 7
  send_wait 5 7 HIs5 HcS5 HatS5 Hs1
  copy_now Hxs7 Hs1 HsemS 7
  next_part k0_part14_eq_skeleton k0_part14_skel
  send_now 7 7 8 (dev9_eq c) Hs1 Hq7 HIs7 HIq7 HtS7 Rs7 HtQ7 Rq7 HcS7
  copy_wait HFlo1 Hl1 Hoo5 HsemLo1 8
  copy_now Hxk7 Hl1 HsemL 8
  copy_start Hl1 Hoo7 HsemLo1 HFlo1
  -- the last two transfers read out, the last two copies landed
  send_wait 6 8 HIs6 HcS6 HatS6 Hs0
  next_part k0_part15_eq_skeleton k0_part15_skel
  send_wait 7 8 HIs7 HcS7 HatS7 Hs1
  copy_wait HFlo0 Hl0 Hoo6 HsemLo0 8
  copy_wait HFlo1 Hl1 Hoo7 HsemLo1 8
  -- the eight blocks the partner sent
  next_part k0_part16_eq_skeleton k0_part16_skel
  recv_wait 0 HIr0 HcR0 HatR0 Hor0
  recv_wait 1 HIr1 HcR1 HatR1 Hor1
  recv_wait 2 HIr2 HcR2 HatR2 Hor2
  next_part k0_part17_eq_skeleton k0_part17_skel
  recv_wait 3 HIr3 HcR3 HatR3 Hor3
  recv_wait 4 HIr4 HcR4 HatR4 Hor4
  next_part k0_part18_eq_skeleton k0_part18_skel
  recv_wait 5 HIr5 HcR5 HatR5 Hor5
  recv_wait 6 HIr6 HcR6 HatR6 Hor6
  recv_wait 7 HIr7 HcR7 HatR7 Hor7
  -- the body returns: the cells closed, the buffers joined again
  rw [wp_ret]
  imod (close_all m K c) $$ [HatS0 HatS1 HatS2 HatS3 HatS4 HatS5 HatS6 HatS7 HatR0 HatR1 HatR2 HatR3 HatR4 HatR5 HatR6 HatR7 HsemL HsemLo0 HsemLo1 HsemS Hxs0 Hxs1 Hxs2 Hxs3 Hxs4 Hxs5 Hxs6 Hxs7 Hxk0 Hxk1 Hxk2 Hxk3 Hxk4 Hxk5 Hxk6 Hxk7 Hoo0 Hoo1 Hoo2 Hoo3 Hoo4 Hoo5 Hoo6 Hoo7 Hor0 Hor1 Hor2 Hor3 Hor4 Hor5 Hor6 Hor7 Hl0 Hl1 Hs0 Hs1] with HΦ
  · unfold invs localSems
    simp only [bigSep_fin8]
    isplitr
    · isplitr; · iexact HIb
      isplitr
      · isplitr; · iexact HIs0
        isplitr; · iexact HIs1
        isplitr; · iexact HIs2
        isplitr; · iexact HIs3
        isplitr; · iexact HIs4
        isplitr; · iexact HIs5
        isplitr; · iexact HIs6
        iexact HIs7
      isplitr
      · isplitr; · iexact HIr0
        isplitr; · iexact HIr1
        isplitr; · iexact HIr2
        isplitr; · iexact HIr3
        isplitr; · iexact HIr4
        isplitr; · iexact HIr5
        isplitr; · iexact HIr6
        iexact HIr7
      isplitr; · iexact HIbP
      isplitr; · iexact HIq0
      isplitr; · iexact HIq1
      isplitr; · iexact HIq2
      isplitr; · iexact HIq3
      isplitr; · iexact HIq4
      isplitr; · iexact HIq5
      isplitr; · iexact HIq6
      iexact HIq7
    isplitl [HatS0 HatS1 HatS2 HatS3 HatS4 HatS5 HatS6 HatS7]
    · isplitl [HatS0]; · iexact HatS0
      isplitl [HatS1]; · iexact HatS1
      isplitl [HatS2]; · iexact HatS2
      isplitl [HatS3]; · iexact HatS3
      isplitl [HatS4]; · iexact HatS4
      isplitl [HatS5]; · iexact HatS5
      isplitl [HatS6]; · iexact HatS6
      iexact HatS7
    isplitl [HatR0 HatR1 HatR2 HatR3 HatR4 HatR5 HatR6 HatR7]
    · isplitl [HatR0]; · iexact HatR0
      isplitl [HatR1]; · iexact HatR1
      isplitl [HatR2]; · iexact HatR2
      isplitl [HatR3]; · iexact HatR3
      isplitl [HatR4]; · iexact HatR4
      isplitl [HatR5]; · iexact HatR5
      isplitl [HatR6]; · iexact HatR6
      iexact HatR7
    isplitl [HsemL HsemLo0 HsemLo1 HsemS]
    · isplitl [HsemL]; · iexact HsemL
      isplitl [HsemLo0]; · iexact HsemLo0
      isplitl [HsemLo1]; · iexact HsemLo1
      iexact HsemS
    isplitl [Hxs0 Hxs1 Hxs2 Hxs3 Hxs4 Hxs5 Hxs6 Hxs7]
    · isplitl [Hxs0]; · iexact Hxs0
      isplitl [Hxs1]; · iexact Hxs1
      isplitl [Hxs2]; · iexact Hxs2
      isplitl [Hxs3]; · iexact Hxs3
      isplitl [Hxs4]; · iexact Hxs4
      isplitl [Hxs5]; · iexact Hxs5
      isplitl [Hxs6]; · iexact Hxs6
      iexact Hxs7
    isplitl [Hxk0 Hxk1 Hxk2 Hxk3 Hxk4 Hxk5 Hxk6 Hxk7]
    · isplitl [Hxk0]; · iexact Hxk0
      isplitl [Hxk1]; · iexact Hxk1
      isplitl [Hxk2]; · iexact Hxk2
      isplitl [Hxk3]; · iexact Hxk3
      isplitl [Hxk4]; · iexact Hxk4
      isplitl [Hxk5]; · iexact Hxk5
      isplitl [Hxk6]; · iexact Hxk6
      iexact Hxk7
    isplitl [Hoo0 Hoo1 Hoo2 Hoo3 Hoo4 Hoo5 Hoo6 Hoo7]
    · isplitl [Hoo0]; · iapply (Entails.of_eq (kept_piece_pt m c 0 _ _)); iexact Hoo0
      isplitl [Hoo1]; · iapply (Entails.of_eq (kept_piece_pt m c 1 _ _)); iexact Hoo1
      isplitl [Hoo2]; · iapply (Entails.of_eq (kept_piece_pt m c 2 _ _)); iexact Hoo2
      isplitl [Hoo3]; · iapply (Entails.of_eq (kept_piece_pt m c 3 _ _)); iexact Hoo3
      isplitl [Hoo4]; · iapply (Entails.of_eq (kept_piece_pt m c 4 _ _)); iexact Hoo4
      isplitl [Hoo5]; · iapply (Entails.of_eq (kept_piece_pt m c 5 _ _)); iexact Hoo5
      isplitl [Hoo6]; · iapply (Entails.of_eq (kept_piece_pt m c 6 _ _)); iexact Hoo6
      iapply (Entails.of_eq (kept_piece_pt m c 7 _ _)); iexact Hoo7
    isplitl [Hor0 Hor1 Hor2 Hor3 Hor4 Hor5 Hor6 Hor7]
    · isplitl [Hor0]; · iexact Hor0
      isplitl [Hor1]; · iexact Hor1
      isplitl [Hor2]; · iexact Hor2
      isplitl [Hor3]; · iexact Hor3
      isplitl [Hor4]; · iexact Hor4
      isplitl [Hor5]; · iexact Hor5
      isplitl [Hor6]; · iexact Hor6
      iexact Hor7
    isplitl [Hl0]; · iexists _; iexact Hl0
    isplitl [Hl1]; · iexists _; iexact Hl1
    isplitl [Hs0]; · iexists _; iexact Hs0
    iexists _; iexact Hs1
  imodintro
  iapply Hk
  isplitl [HΦ]; · iexact HΦ
  iexists _; iexact HO

end Cert.KernelIdeal.A2A

end
-- ==== Proof.KernelIdeal.Run.lean ====
/-
  The exchange run on every device at once: every weakly fair execution ends, no access faults, each device's result holds
  `outC` and its rows of `x` are as launched.
-/
import proofs.«900628_g7700000000000629_dist_a2a_v7x_xyz2x2x2_z_m16384_n1024_f32_1_alg».proof.Proof.KernelIdeal.Launch
import proofs.«900628_g7700000000000629_dist_a2a_v7x_xyz2x2x2_z_m16384_n1024_f32_1_alg».proof.Proof.KernelIdeal.Chain

noncomputable section

namespace Cert.KernelIdeal.A2A

open Cert.KernelIdeal Cert.KernelIdeal.Gen

open Idealize.ShloMosaic
open Idealize.ShloMosaic.TcCoe
open Idealize.SL Idealize.SL.Sem

theorem run_main {F : FTy → Type} [FloatOps F] (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c.tc : Thread nD τ).loc main_v1) = outC m c
        ∧ r.2.mem ((c.tc : Thread nD τ).loc main_arg0) = m ((c.tc : Thread nD τ).loc main_arg0)) :=
  run_of_body m ρ (sound_body m)

/-- info: 'Cert.KernelIdeal.A2A.run_main' depends on axioms: [propext, Classical.choice, Quot.sound] -/
#guard_msgs in #print axioms run_main

end Cert.KernelIdeal.A2A

end
-- ==== Proof.KernelIdeal.Block.lean ====
/-
  The exchange's result against the whole array: when every device's rows of `x` are its block of one whole array cut
  along the rows by the mesh's last axis, what each device ends holding is its block of that array cut along the columns
  by the same axis.
-/
import proofs.«900628_g7700000000000629_dist_a2a_v7x_xyz2x2x2_z_m16384_n1024_f32_1_alg».proof.Proof.KernelIdeal.Base
import proofs.«900628_g7700000000000629_dist_a2a_v7x_xyz2x2x2_z_m16384_n1024_f32_1_alg».proof.Proof.KernelIdeal.Value
import Idealize.ShloMosaic.Lib.Layout

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- On the mesh (2, 2, 2), numbered row-major, a device's coordinate on the last axis is its position `z`. -/
theorem meshLin_z : ∀ d : Dev nD, Layout.meshLin [2, 2, 2] d.val [2] = zc d := by unfold zc; decide

omit [FloatOps F] in
/-- A device's rows of `x`, when they are its block of the whole array `X` cut along the rows by the last mesh axis:
    row `r` of the device is row `16384 z + r` of the whole, the column the same. -/
theorem xOf_block (X : (⟨2, ![32768, 2048]⟩ : Shape).Idx → Elt F .f32)
    (h : ∀ c : Dev nD, m ((c : Thread nD τ).loc main_arg0)
      = Layout.blockN ⟨2, ![16384, 2048]⟩ ⟨2, ![32768, 2048]⟩ (Layout.meshBlock [2, 2, 2] ![[2], []] c) X)
    (d : Dev nD) (k : S16384x2048.Idx) (K : (⟨2, ![32768, 2048]⟩ : Shape).Idx)
    (h0 : (K 0).val = 16384 * zc d + (k 0).val) (h1 : (K 1).val = (k 1).val) :
    xOf m d k = X K := by
  unfold xOf
  rw [h d, Layout.blockN_apply]
  refine congrArg X (funext fun a => Fin.ext ?_)
  match a with
  | ⟨0, _⟩ =>
    show Layout.meshLin [2, 2, 2] d.val [2] * 16384 + (k 0).val = (K 0).val
    rw [meshLin_z, h0]; omega
  | ⟨1, _⟩ =>
    show 0 * 2048 + (k 1).val = (K 1).val
    rw [h1]; omega

omit [FloatOps F] in
/-- The result at an index, under the same hypothesis: row the same, column `1024 z + col` of the whole. -/
theorem outC_block_at (X : (⟨2, ![32768, 2048]⟩ : Shape).Idx → Elt F .f32)
    (h : ∀ c : Dev nD, m ((c : Thread nD τ).loc main_arg0)
      = Layout.blockN ⟨2, ![16384, 2048]⟩ ⟨2, ![32768, 2048]⟩ (Layout.meshBlock [2, 2, 2] ![[2], []] c) X)
    (c : Dev nD) (idx : S32768x1024.Idx) (K : (⟨2, ![32768, 2048]⟩ : Shape).Idx)
    (h0 : (K 0).val = (idx 0).val) (h1 : (K 1).val = 1024 * zc c + (idx 1).val) :
    outC m c idx = X K := by
  have hz := zc_lt c
  have hp := zc_peer c
  have i0 : (idx 0).val < 32768 := (idx 0).isLt
  have i1 : (idx 1).val < 1024 := (idx 1).isLt
  by_cases hq : (idx 0).val / 16384 = zc c
  · rw [outC_own m c idx (ValueIdx.ix2 (⟨(idx 0).val % 16384, Nat.mod_lt _ (by decide)⟩ : Fin 16384) (⟨1024 * zc c + (idx 1).val, by omega⟩ : Fin 2048)) hq rfl rfl]
    refine xOf_block m X h c _ K ?_ ?_
    · rw [h0]; show (idx 0).val = 16384 * zc c + (idx 0).val % 16384; omega
    · rw [h1]
  · rw [outC_other m c idx (ValueIdx.ix2 (⟨(idx 0).val % 16384, Nat.mod_lt _ (by decide)⟩ : Fin 16384) (⟨1024 * zc c + (idx 1).val, by omega⟩ : Fin 2048)) hq rfl rfl]
    refine xOf_block m X h (peer c) _ K ?_ ?_
    · rw [h0]; show (idx 0).val = 16384 * zc (peer c) + (idx 0).val % 16384; omega
    · rw [h1]

omit [FloatOps F] in
/-- What the exchange leaves on device `c` is `c`'s block of the whole `X` cut along the columns by the last mesh axis:
    the rows of its own half come from its own rows of `X`, the rows of the other half from its partner's. -/
theorem outC_block (X : (⟨2, ![32768, 2048]⟩ : Shape).Idx → Elt F .f32)
    (h : ∀ c : Dev nD, m ((c : Thread nD τ).loc main_arg0)
      = Layout.blockN ⟨2, ![16384, 2048]⟩ ⟨2, ![32768, 2048]⟩ (Layout.meshBlock [2, 2, 2] ![[2], []] c) X) :
    ∀ c : Dev nD, outC m c
      = Layout.blockN ⟨2, ![32768, 1024]⟩ ⟨2, ![32768, 2048]⟩ (Layout.meshBlock [2, 2, 2] ![[], [2]] c) X := by
  intro c
  funext idx
  rw [Layout.blockN_apply]
  refine outC_block_at m X h c idx _ ?_ ?_
  · show 0 * 32768 + (idx (0 : Fin 2)).val = (idx (0 : Fin 2)).val
    omega
  · show Layout.meshLin [2, 2, 2] c.val [2] * 1024 + (idx (1 : Fin 2)).val = 1024 * zc c + (idx (1 : Fin 2)).val
    rw [meshLin_z]; omega

/-- info: 'Cert.KernelIdeal.A2A.outC_block' depends on axioms: [propext, Classical.choice, Quot.sound] -/
#guard_msgs in #print axioms outC_block

end Cert.KernelIdeal.A2A

end
-- ==== Proof.lean ====
/- The exchange leaves on each device its column block of the whole array, which is what the reference (the identity)
   returns; both programs run to the end from any memory and leave their arguments as launched. -/
import proofs.«900628_g7700000000000629_dist_a2a_v7x_xyz2x2x2_z_m16384_n1024_f32_1_alg».proof.Defs
import proofs.«900628_g7700000000000629_dist_a2a_v7x_xyz2x2x2_z_m16384_n1024_f32_1_alg».proof.Proof.Gen.Kernel
import proofs.«900628_g7700000000000629_dist_a2a_v7x_xyz2x2x2_z_m16384_n1024_f32_1_alg».proof.Proof.Gen.Kernel.Skeleton
import proofs.«900628_g7700000000000629_dist_a2a_v7x_xyz2x2x2_z_m16384_n1024_f32_1_alg».proof.Proof.Gen.Kernel.Launch
import proofs.«900628_g7700000000000629_dist_a2a_v7x_xyz2x2x2_z_m16384_n1024_f32_1_alg».proof.Proof.Gen.Kernel.Points
import proofs.«900628_g7700000000000629_dist_a2a_v7x_xyz2x2x2_z_m16384_n1024_f32_1_alg».proof.Proof.Gen.Kernel.Frame
import proofs.«900628_g7700000000000629_dist_a2a_v7x_xyz2x2x2_z_m16384_n1024_f32_1_alg».proof.Proof.Gen.KernelIdeal
import proofs.«900628_g7700000000000629_dist_a2a_v7x_xyz2x2x2_z_m16384_n1024_f32_1_alg».proof.Proof.Gen.KernelIdeal.Skeleton
import proofs.«900628_g7700000000000629_dist_a2a_v7x_xyz2x2x2_z_m16384_n1024_f32_1_alg».proof.Proof.Gen.KernelIdeal.Launch
import proofs.«900628_g7700000000000629_dist_a2a_v7x_xyz2x2x2_z_m16384_n1024_f32_1_alg».proof.Proof.Gen.KernelIdeal.Points
import proofs.«900628_g7700000000000629_dist_a2a_v7x_xyz2x2x2_z_m16384_n1024_f32_1_alg».proof.Proof.Gen.KernelIdeal.Frame
import proofs.«900628_g7700000000000629_dist_a2a_v7x_xyz2x2x2_z_m16384_n1024_f32_1_alg».proof.Proof.Gen.ReferenceIdeal
import proofs.«900628_g7700000000000629_dist_a2a_v7x_xyz2x2x2_z_m16384_n1024_f32_1_alg».proof.Proof.Gen.Pre_finite_inputs_Kernel
import proofs.«900628_g7700000000000629_dist_a2a_v7x_xyz2x2x2_z_m16384_n1024_f32_1_alg».proof.Proof.Gen.Pre_finite_inputs_ReferenceIdeal
import Idealize.ShloMosaic.Adequacy
import Idealize.ShloMosaic.Init
import Idealize.ShloMosaic.Lib.StableHlo.Run
import proofs.«900628_g7700000000000629_dist_a2a_v7x_xyz2x2x2_z_m16384_n1024_f32_1_alg».proof.Proof.Kernel.Run
import proofs.«900628_g7700000000000629_dist_a2a_v7x_xyz2x2x2_z_m16384_n1024_f32_1_alg».proof.Proof.KernelIdeal.Run
import proofs.«900628_g7700000000000629_dist_a2a_v7x_xyz2x2x2_z_m16384_n1024_f32_1_alg».proof.Proof.KernelIdeal.Block

noncomputable section

namespace Cert.Proof

open Idealize.ShloMosaic Idealize.SL.Sem Cert.Kernel

/-- The reference returns its argument: it has no operation to run, so from any memory it ends at once with the array
    as launched. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run (Cert.ReferenceIdeal.defs (F := Ideal)) _ _).mono (fun _ h c => h c Cert.ReferenceIdeal.main_arg0)
    (StableHlo.run_seq (by decide) (by decide) (Cert.ReferenceIdeal.defs (F := Ideal)) (Cert.ReferenceIdeal.main (F := Ideal))
      (fun _ => []) (fun _ => rfl) (fun _ => trivial) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the kernel as printed: its run, the result's value dropped
  fun m g _ => (θ_run (Cert.Kernel.defs (F := Bits)) _ _).mono (fun _ h c => (h c).2) (Cert.Kernel.A2A.run_main m g),
  -- the kernel over the extended reals: the same
  fun m g _ => (θ_run (Cert.KernelIdeal.defs (F := Ideal)) _ _).mono (fun _ h c => (h c).2) (Cert.KernelIdeal.A2A.run_main m g),
  -- the reference
  fun m' g' _ => reference_run m' g',
  -- no operation was rewritten
  trivial,
  -- the results: the reference ends holding its argument, each device its column block of it
  fun m g m' g' _ hblk =>
    ⟨m' (((0 : Dev Cert.ReferenceIdeal.nD).tc : Thread Cert.ReferenceIdeal.nD Cert.ReferenceIdeal.τ).loc Cert.ReferenceIdeal.main_arg0),
      (θ_run (Cert.KernelIdeal.defs (F := Ideal)) _ _).mono
        (fun _ h c => ⟨(h c).1.trans (Cert.KernelIdeal.A2A.outC_block m _ hblk c), (h c).2⟩) (Cert.KernelIdeal.A2A.run_main m g),
      (θ_run (Cert.ReferenceIdeal.defs (F := Ideal)) _ _).mono (fun _ h => ⟨h 0, h 0⟩) (reference_run m' g')⟩⟩

end Cert.Proof

end
